-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x48x48 : Shape := ⟨4, ![8, 512, 48, 48]⟩
abbrev S8x2304x48x48 : Shape := ⟨4, ![8, 2304, 48, 48]⟩
abbrev S8x2304x512 : Shape := ⟨3, ![8, 2304, 512]⟩
abbrev S8x1x512 : Shape := ⟨3, ![8, 1, 512]⟩
abbrev S_ : Shape := ⟨0, ![]⟩

class Facts : Prop where
  bcast_S_S8x512x48x48 : S_.BroadcastsInDim S8x512x48x48 (![] : Fin 0 → Fin S8x512x48x48.rank)
  reducesTo_S8x512x48x48_S_d0_1_2_3 : S8x512x48x48.ReducesTo [0, 1, 2, 3] S_
  h_S_ : 0 < S_.numel
  bcast_S_S8x2304x48x48 : S_.BroadcastsInDim S8x2304x48x48 (![] : Fin 0 → Fin S8x2304x48x48.rank)
  reducesTo_S8x2304x48x48_S_d0_1_2_3 : S8x2304x48x48.ReducesTo [0, 1, 2, 3] S_
  bcast_S_S8x2304x512 : S_.BroadcastsInDim S8x2304x512 (![] : Fin 0 → Fin S8x2304x512.rank)
  reducesTo_S8x2304x512_S_d0_1_2 : S8x2304x512.ReducesTo [0, 1, 2] S_
  bcast_S_S8x1x512 : S_.BroadcastsInDim S8x1x512 (![] : Fin 0 → Fin S8x1x512.rank)
  reducesTo_S8x1x512_S_d0_1_2 : S8x1x512.ReducesTo [0, 1, 2] S_

variable [Facts]

def fn_part3 {F : FTy → Type} [FloatOps F] (main_arg11 : FVec F S8x1x512 .f32) (main_v48 : IVec S_ 1) (main_v49 : FVec F S8x1x512 .f32) (main_v50 : FVec F S8x1x512 .f32) : IVec S_ 1 :=
  let main_v51 : IVec S8x1x512 1 := cmpf .olt main_v49 main_v50
  let main_c_19 : IVec S_ 1 := constantI S_ 1 1#1
  let main_v52 : IVec S_ 1 := (fun x v => Host.reduce IntOp.andi x v reducesTo_S8x1x512_S_d0_1_2 h_S_) main_v51 main_c_19
  let main_v53 : IVec S_ 1 := andi main_v48 main_v52
  let main_v54 : FVec F S8x1x512 .f32 := Host.absf main_arg11
  let main_cst_20 : FVec F S_ .f32 := constant S_ .f32 0x7F800000#32
  let main_v55 : FVec F S8x1x512 .f32 := broadcastInDim S8x1x512 ![] bcast_S_S8x1x512 main_cst_20
  let main_v56 : IVec S8x1x512 1 := cmpf .olt main_v54 main_v55
  let main_c_21 : IVec S_ 1 := constantI S_ 1 1#1
  let main_v57 : IVec S_ 1 := (fun x v => Host.reduce IntOp.andi x v reducesTo_S8x1x512_S_d0_1_2 h_S_) main_v56 main_c_21
  let main_v58 : IVec S_ 1 := andi main_v53 main_v57
  main_v58

def fn_part2 {F : FTy → Type} [FloatOps F] (main_arg7 : FVec F S8x1x512 .f32) (main_arg8 : FVec F S8x1x512 .f32) (main_arg9 : FVec F S8x1x512 .f32) (main_arg10 : FVec F S8x1x512 .f32) (main_arg11 : FVec F S8x1x512 .f32) (main_v33 : IVec S_ 1) : IVec S_ 1 :=
  let main_v34 : FVec F S8x1x512 .f32 := Host.absf main_arg7
  let main_cst_12 : FVec F S_ .f32 := constant S_ .f32 0x7F800000#32
  let main_v35 : FVec F S8x1x512 .f32 := broadcastInDim S8x1x512 ![] bcast_S_S8x1x512 main_cst_12
  let main_v36 : IVec S8x1x512 1 := cmpf .olt main_v34 main_v35
  let main_c_13 : IVec S_ 1 := constantI S_ 1 1#1
  let main_v37 : IVec S_ 1 := (fun x v => Host.reduce IntOp.andi x v reducesTo_S8x1x512_S_d0_1_2 h_S_) main_v36 main_c_13
  let main_v38 : IVec S_ 1 := andi main_v33 main_v37
  let main_v39 : FVec F S8x1x512 .f32 := Host.absf main_arg8
  let main_cst_14 : FVec F S_ .f32 := constant S_ .f32 0x7F800000#32
  let main_v40 : FVec F S8x1x512 .f32 := broadcastInDim S8x1x512 ![] bcast_S_S8x1x512 main_cst_14
  let main_v41 : IVec S8x1x512 1 := cmpf .olt main_v39 main_v40
  let main_c_15 : IVec S_ 1 := constantI S_ 1 1#1
  let main_v42 : IVec S_ 1 := (fun x v => Host.reduce IntOp.andi x v reducesTo_S8x1x512_S_d0_1_2 h_S_) main_v41 main_c_15
  let main_v43 : IVec S_ 1 := andi main_v38 main_v42
  let main_v44 : FVec F S8x1x512 .f32 := Host.absf main_arg9
  let main_cst_16 : FVec F S_ .f32 := constant S_ .f32 0x7F800000#32
  let main_v45 : FVec F S8x1x512 .f32 := broadcastInDim S8x1x512 ![] bcast_S_S8x1x512 main_cst_16
  let main_v46 : IVec S8x1x512 1 := cmpf .olt main_v44 main_v45
  let main_c_17 : IVec S_ 1 := constantI S_ 1 1#1
  let main_v47 : IVec S_ 1 := (fun x v => Host.reduce IntOp.andi x v reducesTo_S8x1x512_S_d0_1_2 h_S_) main_v46 main_c_17
  let main_v48 : IVec S_ 1 := andi main_v43 main_v47
  let main_v49 : FVec F S8x1x512 .f32 := Host.absf main_arg10
  let main_cst_18 : FVec F S_ .f32 := constant S_ .f32 0x7F800000#32
  let main_v50 : FVec F S8x1x512 .f32 := broadcastInDim S8x1x512 ![] bcast_S_S8x1x512 main_cst_18
  fn_part3 (F := F) main_arg11 main_v48 main_v49 main_v50

def fn_part1 {F : FTy → Type} [FloatOps F] (main_arg4 : FVec F S8x2304x512 .f32) (main_arg5 : FVec F S8x2304x512 .f32) (main_arg6 : FVec F S8x1x512 .f32) (main_arg7 : FVec F S8x1x512 .f32) (main_arg8 : FVec F S8x1x512 .f32) (main_arg9 : FVec F S8x1x512 .f32) (main_arg10 : FVec F S8x1x512 .f32) (main_arg11 : FVec F S8x1x512 .f32) (main_v13 : IVec S_ 1) (main_v16 : IVec S8x2304x512 1) : IVec S_ 1 :=
  let main_c_5 : IVec S_ 1 := constantI S_ 1 1#1
  let main_v17 : IVec S_ 1 := (fun x v => Host.reduce IntOp.andi x v reducesTo_S8x2304x512_S_d0_1_2 h_S_) main_v16 main_c_5
  let main_v18 : IVec S_ 1 := andi main_v13 main_v17
  let main_v19 : FVec F S8x2304x512 .f32 := Host.absf main_arg4
  let main_cst_6 : FVec F S_ .f32 := constant S_ .f32 0x7F800000#32
  let main_v20 : FVec F S8x2304x512 .f32 := broadcastInDim S8x2304x512 ![] bcast_S_S8x2304x512 main_cst_6
  let main_v21 : IVec S8x2304x512 1 := cmpf .olt main_v19 main_v20
  let main_c_7 : IVec S_ 1 := constantI S_ 1 1#1
  let main_v22 : IVec S_ 1 := (fun x v => Host.reduce IntOp.andi x v reducesTo_S8x2304x512_S_d0_1_2 h_S_) main_v21 main_c_7
  let main_v23 : IVec S_ 1 := andi main_v18 main_v22
  let main_v24 : FVec F S8x2304x512 .f32 := Host.absf main_arg5
  let main_cst_8 : FVec F S_ .f32 := constant S_ .f32 0x7F800000#32
  let main_v25 : FVec F S8x2304x512 .f32 := broadcastInDim S8x2304x512 ![] bcast_S_S8x2304x512 main_cst_8
  let main_v26 : IVec S8x2304x512 1 := cmpf .olt main_v24 main_v25
  let main_c_9 : IVec S_ 1 := constantI S_ 1 1#1
  let main_v27 : IVec S_ 1 := (fun x v => Host.reduce IntOp.andi x v reducesTo_S8x2304x512_S_d0_1_2 h_S_) main_v26 main_c_9
  let main_v28 : IVec S_ 1 := andi main_v23 main_v27
  let main_v29 : FVec F S8x1x512 .f32 := Host.absf main_arg6
  let main_cst_10 : FVec F S_ .f32 := constant S_ .f32 0x7F800000#32
  let main_v30 : FVec F S8x1x512 .f32 := broadcastInDim S8x1x512 ![] bcast_S_S8x1x512 main_cst_10
  let main_v31 : IVec S8x1x512 1 := cmpf .olt main_v29 main_v30
  let main_c_11 : IVec S_ 1 := constantI S_ 1 1#1
  let main_v32 : IVec S_ 1 := (fun x v => Host.reduce IntOp.andi x v reducesTo_S8x1x512_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8x512x48x48 .f32) (main_arg1 : FVec F S8x2304x48x48 .f32) (main_arg2 : FVec F S8x2304x512 .f32) (main_arg3 : FVec F S8x2304x512 .f32) (main_arg4 : FVec F S8x2304x512 .f32) (main_arg5 : FVec F S8x2304x512 .f32) (main_arg6 : FVec F S8x1x512 .f32) (main_arg7 : FVec F S8x1x512 .f32) (main_arg8 : FVec F S8x1x512 .f32) (main_arg9 : FVec F S8x1x512 .f32) (main_arg10 : FVec F S8x1x512 .f32) (main_arg11 : FVec F S8x1x512 .f32) : IVec S_ 1 :=
  let main_v0 : FVec F S8x512x48x48 .f32 := Host.absf main_arg0
  let main_cst : FVec F S_ .f32 := constant S_ .f32 0x7F800000#32
  let main_v1 : FVec F S8x512x48x48 .f32 := broadcastInDim S8x512x48x48 ![] bcast_S_S8x512x48x48 main_cst
  let main_v2 : IVec S8x512x48x48 1 := cmpf .olt main_v0 main_v1
  let main_c : IVec S_ 1 := constantI S_ 1 1#1
  let main_v3 : IVec S_ 1 := (fun x v => Host.reduce IntOp.andi x v reducesTo_S8x512x48x48_S_d0_1_2_3 h_S_) main_v2 main_c
  let main_v4 : FVec F S8x2304x48x48 .f32 := Host.absf main_arg1
  let main_cst_0 : FVec F S_ .f32 := constant S_ .f32 0x7F800000#32
  let main_v5 : FVec F S8x2304x48x48 .f32 := broadcastInDim S8x2304x48x48 ![] bcast_S_S8x2304x48x48 main_cst_0
  let main_v6 : IVec S8x2304x48x48 1 := cmpf .olt main_v4 main_v5
  let main_c_1 : IVec S_ 1 := constantI S_ 1 1#1
  let main_v7 : IVec S_ 1 := (fun x v => Host.reduce IntOp.andi x v reducesTo_S8x2304x48x48_S_d0_1_2_3 h_S_) main_v6 main_c_1
  let main_v8 : IVec S_ 1 := andi main_v3 main_v7
  let main_v9 : FVec F S8x2304x512 .f32 := Host.absf main_arg2
  let main_cst_2 : FVec F S_ .f32 := constant S_ .f32 0x7F800000#32
  let main_v10 : FVec F S8x2304x512 .f32 := broadcastInDim S8x2304x512 ![] bcast_S_S8x2304x512 main_cst_2
  let main_v11 : IVec S8x2304x512 1 := cmpf .olt main_v9 main_v10
  let main_c_3 : IVec S_ 1 := constantI S_ 1 1#1
  let main_v12 : IVec S_ 1 := (fun x v => Host.reduce IntOp.andi x v reducesTo_S8x2304x512_S_d0_1_2 h_S_) main_v11 main_c_3
  let main_v13 : IVec S_ 1 := andi main_v8 main_v12
  let main_v14 : FVec F S8x2304x512 .f32 := Host.absf main_arg3
  let main_cst_4 : FVec F S_ .f32 := constant S_ .f32 0x7F800000#32
  let main_v15 : FVec F S8x2304x512 .f32 := broadcastInDim S8x2304x512 ![] bcast_S_S8x2304x512 main_cst_4
  let main_v16 : IVec S8x2304x512 1 := cmpf .olt main_v14 main_v15
  fn_part1 (F := F) main_arg4 main_arg5 main_arg6 main_arg7 main_arg8 main_arg9 main_arg10 main_arg11 main_v13 main_v16
-- ==== Kernel.lean ====
abbrev S8x512x48x48 : Shape := ⟨4, ![8, 512, 48, 48]⟩
abbrev S8x2304x48x48 : Shape := ⟨4, ![8, 2304, 48, 48]⟩
abbrev S8x2304x512 : Shape := ⟨3, ![8, 2304, 512]⟩
abbrev S8x1x512 : Shape := ⟨3, ![8, 1, 512]⟩
abbrev S8x512x2304 : Shape := ⟨3, ![8, 512, 2304]⟩
abbrev S8x2304x2304 : Shape := ⟨3, ![8, 2304, 2304]⟩
abbrev S8x1x2304 : Shape := ⟨3, ![8, 1, 2304]⟩
abbrev S1x2304x512 : Shape := ⟨3, ![1, 2304, 512]⟩
abbrev S1x512x256 : Shape := ⟨3, ![1, 512, 256]⟩
abbrev S1x1x256 : Shape := ⟨3, ![1, 1, 256]⟩
abbrev S2304x512 : Shape := ⟨2, ![2304, 512]⟩
abbrev S512x256 : Shape := ⟨2, ![512, 256]⟩
abbrev S2304x256 : Shape := ⟨2, ![2304, 256]⟩
abbrev S256 : Shape := ⟨1, ![256]⟩
abbrev S1x256 : Shape := ⟨2, ![1, 256]⟩
abbrev S8x1x48x48 : Shape := ⟨4, ![8, 1, 48, 48]⟩
abbrev S1x2304x256 : Shape := ⟨3, ![1, 2304, 256]⟩
abbrev S8x6x512 : Shape := ⟨3, ![8, 6, 512]⟩
abbrev S8x6x2304 : Shape := ⟨3, ![8, 6, 2304]⟩
abbrev S1x6x512 : Shape := ⟨3, ![1, 6, 512]⟩
abbrev S1x6x256 : Shape := ⟨3, ![1, 6, 256]⟩
abbrev S6x512 : Shape := ⟨2, ![6, 512]⟩
abbrev S6x256 : Shape := ⟨2, ![6, 256]⟩
abbrev S8x6x48x48 : Shape := ⟨4, ![8, 6, 48, 48]⟩
abbrev S8x10x48x48 : Shape := ⟨4, ![8, 10, 48, 48]⟩

abbrev nBuf : Space → Nat
  | .hbm => 26
  | .vmem => 34
  | .smem => 0
  | _ => 0

abbrev bufTy : (tb : Table) → Fin (tcTables nBuf tb) → BufTy
  | .hbm, ⟨0, _⟩ => ⟨S8x512x48x48, .f32⟩
  | .hbm, ⟨1, _⟩ => ⟨S8x2304x48x48, .f32⟩
  | .hbm, ⟨2, _⟩ => ⟨S8x2304x512, .f32⟩
  | .hbm, ⟨3, _⟩ => ⟨S8x2304x512, .f32⟩
  | .hbm, ⟨4, _⟩ => ⟨S8x2304x512, .f32⟩
  | .hbm, ⟨5, _⟩ => ⟨S8x2304x512, .f32⟩
  | .hbm, ⟨6, _⟩ => ⟨S8x1x512, .f32⟩
  | .hbm, ⟨7, _⟩ => ⟨S8x1x512, .f32⟩
  | .hbm, ⟨8, _⟩ => ⟨S8x1x512, .f32⟩
  | .hbm, ⟨9, _⟩ => ⟨S8x1x512, .f32⟩
  | .hbm, ⟨10, _⟩ => ⟨S8x1x512, .f32⟩
  | .hbm, ⟨11, _⟩ => ⟨S8x1x512, .f32⟩
  | .hbm, ⟨12, _⟩ => ⟨S8x512x2304, .f32⟩
  | .hbm, ⟨13, _⟩ => ⟨S8x2304x2304, .f32⟩
  | .hbm, ⟨14, _⟩ => ⟨S8x1x2304, .f32⟩
  | .hbm, ⟨15, _⟩ => ⟨S8x1x48x48, .f32⟩
  | .hbm, ⟨16, _⟩ => ⟨S8x1x2304, .f32⟩
  | .hbm, ⟨17, _⟩ => ⟨S8x1x48x48, .f32⟩
  | .hbm, ⟨18, _⟩ => ⟨S8x1x2304, .f32⟩
  | .hbm, ⟨19, _⟩ => ⟨S8x1x48x48, .f32⟩
  | .hbm, ⟨20, _⟩ => ⟨S8x1x2304, .f32⟩
  | .hbm, ⟨21, _⟩ => ⟨S8x1x48x48, .f32⟩
  | .hbm, ⟨22, _⟩ => ⟨S8x6x512, .f32⟩
  | .hbm, ⟨23, _⟩ => ⟨S8x6x2304, .f32⟩
  | .hbm, ⟨24, _⟩ => ⟨S8x6x48x48, .f32⟩
  | .hbm, ⟨25, _⟩ => ⟨S8x10x48x48, .f32⟩
  | .local _ .vmem, ⟨0, _⟩ => ⟨S1x2304x512, .f32⟩
  | .local _ .vmem, ⟨1, _⟩ => ⟨S1x2304x512, .f32⟩
  | .local _ .vmem, ⟨2, _⟩ => ⟨S1x512x256, .f32⟩
  | .local _ .vmem, ⟨3, _⟩ => ⟨S1x512x256, .f32⟩
  | .local _ .vmem, ⟨4, _⟩ => ⟨S1x1x256, .f32⟩
  | .local _ .vmem, ⟨5, _⟩ => ⟨S1x1x256, .f32⟩
  | .local _ .vmem, ⟨6, _⟩ => ⟨S1x2304x512, .f32⟩
  | .local _ .vmem, ⟨7, _⟩ => ⟨S1x2304x512, .f32⟩
  | .local _ .vmem, ⟨8, _⟩ => ⟨S1x512x256, .f32⟩
  | .local _ .vmem, ⟨9, _⟩ => ⟨S1x512x256, .f32⟩
  | .local _ .vmem, ⟨10, _⟩ => ⟨S1x1x256, .f32⟩
  | .local _ .vmem, ⟨11, _⟩ => ⟨S1x1x256, .f32⟩
  | .local _ .vmem, ⟨12, _⟩ => ⟨S1x2304x512, .f32⟩
  | .local _ .vmem, ⟨13, _⟩ => ⟨S1x2304x512, .f32⟩
  | .local _ .vmem, ⟨14, _⟩ => ⟨S1x512x256, .f32⟩
  | .local _ .vmem, ⟨15, _⟩ => ⟨S1x512x256, .f32⟩
  | .local _ .vmem, ⟨16, _⟩ => ⟨S1x2304x256, .f32⟩
  | .local _ .vmem, ⟨17, _⟩ => ⟨S1x2304x256, .f32⟩
  | .local _ .vmem, ⟨18, _⟩ => ⟨S1x1x256, .f32⟩
  | .local _ .vmem, ⟨19, _⟩ => ⟨S1x1x256, .f32⟩
  | .local _ .vmem, ⟨20, _⟩ => ⟨S1x2304x512, .f32⟩
  | .local _ .vmem, ⟨21, _⟩ => ⟨S1x2304x512, .f32⟩
  | .local _ .vmem, ⟨22, _⟩ => ⟨S1x512x256, .f32⟩
  | .local _ .vmem, ⟨23, _⟩ => ⟨S1x512x256, .f32⟩
  | .local _ .vmem, ⟨24, _⟩ => ⟨S1x2304x256, .f32⟩
  | .local _ .vmem, ⟨25, _⟩ => ⟨S1x2304x256, .f32⟩
  | .local _ .vmem, ⟨26, _⟩ => ⟨S1x1x256, .f32⟩
  | .local _ .vmem, ⟨27, _⟩ => ⟨S1x1x256, .f32⟩
  | .local _ .vmem, ⟨28, _⟩ => ⟨S1x6x512, .f32⟩
  | .local _ .vmem, ⟨29, _⟩ => ⟨S1x6x512, .f32⟩
  | .local _ .vmem, ⟨30, _⟩ => ⟨S1x512x256, .f32⟩
  | .local _ .vmem, ⟨31, _⟩ => ⟨S1x512x256, .f32⟩
  | .local _ .vmem, ⟨32, _⟩ => ⟨S1x6x256, .f32⟩
  | .local _ .vmem, ⟨33, _⟩ => ⟨S1x6x256, .f32⟩
  | _, _ => ⟨S8x512x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 9], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2304x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 9], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x2304x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2304x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![8, 9], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage3_0 : Fin 2 → Memref sig .tc .vmem S1x2304x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x512x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x2304x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x1x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![8, 9], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage4_0 : Fin 2 → Memref sig .tc .vmem S1x6x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1x512x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x6x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

class Facts₀ : Prop where
  shapeCasts_S8x512x48x48_S8x512x2304 : S8x512x48x48.ShapeCasts S8x512x2304
  shapeCasts_S8x2304x48x48_S8x2304x2304 : S8x2304x48x48.ShapeCasts S8x2304x2304
  inb_S1x2304x512_S1x2304x512_0_0_0 : ∀ a, (![0, 0, 0] : Fin 3 → Nat) a + S1x2304x512.size a ≤ S1x2304x512.size a
  h_S1x2304x512 : 0 < S1x2304x512.numel
  shapeCasts_S1x2304x512_S2304x512 : S1x2304x512.ShapeCasts S2304x512
  bitsLt_bf16_f32 : FTy.bits .bf16 < FTy.bits .f32
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  reduces_S2304x256_S256 : S2304x256.Reduces [0] S256
  shapeCasts_S256_S1x256 : S256.ShapeCasts S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  shapeCasts_S8x1x2304_S8x1x48x48 : S8x1x2304.ShapeCasts S8x1x48x48
  inb_S1x2304x256_S1x2304x256_0_0_0 : ∀ a, (![0, 0, 0] : Fin 3 → Nat) a + S1x2304x256.size a ≤ S1x2304x256.size a
  h_S1x2304x256 : 0 < S1x2304x256.numel
  shapeCasts_S1x2304x256_S2304x256 : S1x2304x256.ShapeCasts S2304x256
  concatenates_S8x1x512_S8x1x512_S8x1x512_S8x1x512_S8x1x512_S8x1x512_S8x6x512_d1 : Shape.Concatenates [S8x1x512, S8x1x512, S8x1x512, S8x1x512, S8x1x512, S8x1x512] S8x6x512 1
  inb_S1x6x512_S1x6x512_0_0_0 : ∀ a, (![0, 0, 0] : Fin 3 → Nat) a + S1x6x512.size a ≤ S1x6x512.size a
  h_S1x6x512 : 0 < S1x6x512.numel
  shapeCasts_S1x6x512_S6x512 : S1x6x512.ShapeCasts S6x512
  inb_S1x6x256_S1x6x256_0_0_0 : ∀ a, (![0, 0, 0] : Fin 3 → Nat) a + S1x6x256.size a ≤ S1x6x256.size a
  h_S1x6x256 : 0 < S1x6x256.numel
  shapeCasts_S1x6x256_S6x256 : S1x6x256.ShapeCasts S6x256
  shapeCasts_S6x256_S1x6x256 : S6x256.ShapeCasts S1x6x256
  shapeCasts_S8x6x2304_S8x6x48x48 : S8x6x2304.ShapeCasts S8x6x48x48
  concatenates_S8x1x48x48_S8x1x48x48_S8x1x48x48_S8x1x48x48_S8x6x48x48_S8x10x48x48_d1 : Shape.Concatenates [S8x1x48x48, S8x1x48x48, S8x1x48x48, S8x1x48x48, S8x6x48x48] S8x10x48x48 1
  dot_S2304x512_S512x256_S2304x256_1_0_0_1_n_n_wf : DotDims.WF S2304x512 S512x256 S2304x256 [1] [0] [0] [1] [] []
  dot_S6x512_S512x256_S6x256_1_0_0_1_n_n_wf : DotDims.WF S6x512 S512x256 S6x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2304x512.size a ≤ S8x2304x512.size a
  hwx0_0 : ∀ i : grid0.Coords, EltTy.bits .f32 = 32 ∨ (Rect.block (s := S8x2304x512) S1x2304x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S8x512x2304.size a
  hwx0_1 : ∀ i : grid0.Coords, EltTy.bits .f32 = 32 ∨ (Rect.block (s := S8x512x2304) S1x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S8x1x2304.size a
  hwx0_2 : ∀ i : grid0.Coords, EltTy.bits .f32 = 32 ∨ (Rect.block (s := S8x1x2304) S1x1x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2304x512.size a ≤ S8x2304x512.size a
  hwx1_0 : ∀ i : grid1.Coords, EltTy.bits .f32 = 32 ∨ (Rect.block (s := S8x2304x512) S1x2304x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x256.size a ≤ S8x512x2304.size a
  hwx1_1 : ∀ i : grid1.Coords, EltTy.bits .f32 = 32 ∨ (Rect.block (s := S8x512x2304) S1x512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256.size a ≤ S8x1x2304.size a
  hwx1_2 : ∀ i : grid1.Coords, EltTy.bits .f32 = 32 ∨ (Rect.block (s := S8x1x2304) S1x1x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2304x512.size a ≤ S8x2304x512.size a
  hwx2_0 : ∀ i : grid2.Coords, EltTy.bits .f32 = 32 ∨ (Rect.block (s := S8x2304x512) S1x2304x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x256.size a ≤ S8x512x2304.size a
  hwx2_1 : ∀ i : grid2.Coords, EltTy.bits .f32 = 32 ∨ (Rect.block (s := S8x512x2304) S1x512x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2304x256.size a ≤ S8x2304x2304.size a
  hwx2_2 : ∀ i : grid2.Coords, EltTy.bits .f32 = 32 ∨ (Rect.block (s := S8x2304x2304) S1x2304x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x256.size a ≤ S8x1x2304.size a
  hwx2_3 : ∀ i : grid2.Coords, EltTy.bits .f32 = 32 ∨ (Rect.block (s := S8x1x2304) S1x1x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2304x512.size a ≤ S8x2304x512.size a
  hwx3_0 : ∀ i : grid3.Coords, EltTy.bits .f32 = 32 ∨ (Rect.block (s := S8x2304x512) S1x2304x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x256.size a ≤ S8x512x2304.size a
  hwx3_1 : ∀ i : grid3.Coords, EltTy.bits .f32 = 32 ∨ (Rect.block (s := S8x512x2304) S1x512x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2304x256.size a ≤ S8x2304x2304.size a
  hwx3_2 : ∀ i : grid3.Coords, EltTy.bits .f32 = 32 ∨ (Rect.block (s := S8x2304x2304) S1x2304x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x256.size a ≤ S8x1x2304.size a
  hwx3_3 : ∀ i : grid3.Coords, EltTy.bits .f32 = 32 ∨ (Rect.block (s := S8x1x2304) S1x1x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x6x512.size a ≤ S8x6x512.size a
  hwx4_0 : ∀ i : grid4.Coords, EltTy.bits .f32 = 32 ∨ (Rect.block (s := S8x6x512) S1x6x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x512x256.size a ≤ S8x512x2304.size a
  hwx4_1 : ∀ i : grid4.Coords, EltTy.bits .f32 = 32 ∨ (Rect.block (s := S8x512x2304) S1x512x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x6x256.size a ≤ S8x6x2304.size a
  hwx4_2 : ∀ i : grid4.Coords, EltTy.bits .f32 = 32 ∨ (Rect.block (s := S8x6x2304) S1x6x256.size (cc4_transform_2 i) (hinb4_2 i)).WholeWords (EltTy.packing .f32)

variable [Facts₀]

def dot_S2304x512_S512x256_S2304x256_1_0_0_1_n_n : DotDims S2304x512 S512x256 S2304x256 where
  lhsContracting := [1]
  rhsContracting := [0]
  lhsNonContracting := [0]
  rhsNonContracting := [1]
  lhsBatch := []
  rhsBatch := []
  wf := dot_S2304x512_S512x256_S2304x256_1_0_0_1_n_n_wf
def dot_S6x512_S512x256_S6x256_1_0_0_1_n_n : DotDims S6x512 S512x256 S6x256 where
  lhsContracting := [1]
  rhsContracting := [0]
  lhsNonContracting := [0]
  rhsNonContracting := [1]
  lhsBatch := []
  rhsBatch := []
  wf := dot_S6x512_S512x256_S6x256_1_0_0_1_n_n_wf

abbrev win0_0 : Pipeline.Window sig grid0 :=
  Pipeline.Window.ofSpec (Memref.whole main_arg2) S1x2304x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S1x2304x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg4) S1x2304x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1x512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x2304x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x1x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg5) S1x2304x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S1x512x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v1) S1x2304x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v8) S1x1x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v10) S1x6x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S1x512x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S1x6x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S8x512x48x48 : Shape := ⟨4, ![8, 512, 48, 48]⟩
abbrev S8x2304x48x48 : Shape := ⟨4, ![8, 2304, 48, 48]⟩
abbrev S8x2304x512 : Shape := ⟨3, ![8, 2304, 512]⟩
abbrev S8x1x512 : Shape := ⟨3, ![8, 1, 512]⟩
abbrev S8x512x2304 : Shape := ⟨3, ![8, 512, 2304]⟩
abbrev S8x2304x2304 : Shape := ⟨3, ![8, 2304, 2304]⟩
abbrev S_ : Shape := ⟨0, ![]⟩
abbrev S8x2304 : Shape := ⟨2, ![8, 2304]⟩
abbrev S8x1x48x48 : Shape := ⟨4, ![8, 1, 48, 48]⟩
abbrev S8x2x48x48 : Shape := ⟨4, ![8, 2, 48, 48]⟩
abbrev S8x4x48x48 : Shape := ⟨4, ![8, 4, 48, 48]⟩
abbrev S8x1x2304 : Shape := ⟨3, ![8, 1, 2304]⟩
abbrev S8x6x48x48 : Shape := ⟨4, ![8, 6, 48, 48]⟩
abbrev S8x10x48x48 : Shape := ⟨4, ![8, 10, 48, 48]⟩

abbrev nBuf : Space → Nat
  | .hbm => 49
  | .vmem => 0
  | .smem => 0
  | _ => 0

abbrev bufTy : (tb : Table) → Fin (tcTables nBuf tb) → BufTy
  | .hbm, ⟨0, _⟩ => ⟨S8x512x48x48, .f32⟩
  | .hbm, ⟨1, _⟩ => ⟨S8x2304x48x48, .f32⟩
  | .hbm, ⟨2, _⟩ => ⟨S8x2304x512, .f32⟩
  | .hbm, ⟨3, _⟩ => ⟨S8x2304x512, .f32⟩
  | .hbm, ⟨4, _⟩ => ⟨S8x2304x512, .f32⟩
  | .hbm, ⟨5, _⟩ => ⟨S8x2304x512, .f32⟩
  | .hbm, ⟨6, _⟩ => ⟨S8x1x512, .f32⟩
  | .hbm, ⟨7, _⟩ => ⟨S8x1x512, .f32⟩
  | .hbm, ⟨8, _⟩ => ⟨S8x1x512, .f32⟩
  | .hbm, ⟨9, _⟩ => ⟨S8x1x512, .f32⟩
  | .hbm, ⟨10, _⟩ => ⟨S8x1x512, .f32⟩
  | .hbm, ⟨11, _⟩ => ⟨S8x1x512, .f32⟩
  | .hbm, ⟨12, _⟩ => ⟨S8x512x2304, .f32⟩
  | .hbm, ⟨13, _⟩ => ⟨S8x2304x2304, .f32⟩
  | .hbm, ⟨14, _⟩ => ⟨S8x2304x2304, .f32⟩
  | .hbm, ⟨15, _⟩ => ⟨S_, .f32⟩
  | .hbm, ⟨16, _⟩ => ⟨S8x2304, .f32⟩
  | .hbm, ⟨17, _⟩ => ⟨S8x1x48x48, .f32⟩
  | .hbm, ⟨18, _⟩ => ⟨S8x2304x2304, .f32⟩
  | .hbm, ⟨19, _⟩ => ⟨S_, .f32⟩
  | .hbm, ⟨20, _⟩ => ⟨S8x2304, .f32⟩
  | .hbm, ⟨21, _⟩ => ⟨S8x1x48x48, .f32⟩
  | .hbm, ⟨22, _⟩ => ⟨S8x2x48x48, .f32⟩
  | .hbm, ⟨23, _⟩ => ⟨S8x2304x2304, .f32⟩
  | .hbm, ⟨24, _⟩ => ⟨S8x2304x2304, .f32⟩
  | .hbm, ⟨25, _⟩ => ⟨S_, .f32⟩
  | .hbm, ⟨26, _⟩ => ⟨S8x2304, .f32⟩
  | .hbm, ⟨27, _⟩ => ⟨S8x1x48x48, .f32⟩
  | .hbm, ⟨28, _⟩ => ⟨S8x2304x2304, .f32⟩
  | .hbm, ⟨29, _⟩ => ⟨S8x2304x2304, .f32⟩
  | .hbm, ⟨30, _⟩ => ⟨S_, .f32⟩
  | .hbm, ⟨31, _⟩ => ⟨S8x2304, .f32⟩
  | .hbm, ⟨32, _⟩ => ⟨S8x1x48x48, .f32⟩
  | .hbm, ⟨33, _⟩ => ⟨S8x2x48x48, .f32⟩
  | .hbm, ⟨34, _⟩ => ⟨S8x4x48x48, .f32⟩
  | .hbm, ⟨35, _⟩ => ⟨S8x1x2304, .f32⟩
  | .hbm, ⟨36, _⟩ => ⟨S8x1x48x48, .f32⟩
  | .hbm, ⟨37, _⟩ => ⟨S8x1x2304, .f32⟩
  | .hbm, ⟨38, _⟩ => ⟨S8x1x48x48, .f32⟩
  | .hbm, ⟨39, _⟩ => ⟨S8x1x2304, .f32⟩
  | .hbm, ⟨40, _⟩ => ⟨S8x1x48x48, .f32⟩
  | .hbm, ⟨41, _⟩ => ⟨S8x1x2304, .f32⟩
  | .hbm, ⟨42, _⟩ => ⟨S8x1x48x48, .f32⟩
  | .hbm, ⟨43, _⟩ => ⟨S8x1x2304, .f32⟩
  | .hbm, ⟨44, _⟩ => ⟨S8x1x48x48, .f32⟩
  | .hbm, ⟨45, _⟩ => ⟨S8x1x2304, .f32⟩
  | .hbm, ⟨46, _⟩ => ⟨S8x1x48x48, .f32⟩
  | .hbm, ⟨47, _⟩ => ⟨S8x6x48x48, .f32⟩
  | .hbm, ⟨48, _⟩ => ⟨S8x10x48x48, .f32⟩
  | _, _ => ⟨S8x512x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  shapeCasts_S8x512x48x48_S8x512x2304 : S8x512x48x48.ShapeCasts S8x512x2304
  shapeCasts_S8x2304x48x48_S8x2304x2304 : S8x2304x48x48.ShapeCasts S8x2304x2304
  reducesTo_S8x2304x2304_S8x2304_d1 : S8x2304x2304.ReducesTo [1] S8x2304
  h_S_ : 0 < S_.numel
  shapeCasts_S8x2304_S8x1x48x48 : S8x2304.ShapeCasts S8x1x48x48
  concatenates_S8x1x48x48_S8x1x48x48_S8x2x48x48_d1 : Shape.Concatenates [S8x1x48x48, S8x1x48x48] S8x2x48x48 1
  concatenates_S8x2x48x48_S8x2x48x48_S8x4x48x48_d1 : Shape.Concatenates [S8x2x48x48, S8x2x48x48] S8x4x48x48 1
  shapeCasts_S8x1x2304_S8x1x48x48 : S8x1x2304.ShapeCasts S8x1x48x48
  concatenates_S8x1x48x48_S8x1x48x48_S8x1x48x48_S8x1x48x48_S8x1x48x48_S8x1x48x48_S8x6x48x48_d1 : Shape.Concatenates [S8x1x48x48, S8x1x48x48, S8x1x48x48, S8x1x48x48, S8x1x48x48, S8x1x48x48] S8x6x48x48 1
  concatenates_S8x4x48x48_S8x6x48x48_S8x10x48x48_d1 : Shape.Concatenates [S8x4x48x48, S8x6x48x48] S8x10x48x48 1
  dot_S8x2304x512_S8x512x2304_S8x2304x2304_2_1_1_2_0_0_wf : DotDims.WF S8x2304x512 S8x512x2304 S8x2304x2304 [2] [1] [1] [2] [0] [0]
  dot_S8x1x512_S8x512x2304_S8x1x2304_2_1_1_2_0_0_wf : DotDims.WF S8x1x512 S8x512x2304 S8x1x2304 [2] [1] [1] [2] [0] [0]

variable [Facts₀]

def dot_S8x2304x512_S8x512x2304_S8x2304x2304_2_1_1_2_0_0 : DotDims S8x2304x512 S8x512x2304 S8x2304x2304 where
  lhsContracting := [2]
  rhsContracting := [1]
  lhsNonContracting := [1]
  rhsNonContracting := [2]
  lhsBatch := [0]
  rhsBatch := [0]
  wf := dot_S8x2304x512_S8x512x2304_S8x2304x2304_2_1_1_2_0_0_wf
def dot_S8x1x512_S8x512x2304_S8x1x2304_2_1_1_2_0_0 : DotDims S8x1x512 S8x512x2304 S8x1x2304 where
  lhsContracting := [2]
  rhsContracting := [1]
  lhsNonContracting := [1]
  rhsNonContracting := [2]
  lhsBatch := [0]
  rhsBatch := [0]
  wf := dot_S8x1x512_S8x512x2304_S8x1x2304_2_1_1_2_0_0_wf

class Facts : Prop extends Facts₀ where

variable [Facts]
-- ==== Proof.KI.Region0.lean ====
/-
  Region 0 of @main: a fine score without a mask, at the contents `V` the region is entered with.

  At grid point `t = (b, q)` the pipeline hands the body three staging buffers: batch `b`'s whole bank
  (2304 memory rows of 512 channels), the block of 256 query columns `q` of the flattened key (512 channels
  by 256 queries), and the output row's 256 entries for those queries. The body reads the two inputs, forms
  the 2304 x 256 similarities, takes the maximum down each column and stores the 256 maxima; it also loads the
  output buffer once and drops what it read. So after the body the inputs' buffers hold what they held, and the
  output's holds one stored piece covering it: the maxima as a function of the two input blocks.
  The bank's block index depends on the batch alone, so it is fetched only when the batch changes; between
  fetches the buffer still holds that batch's bank, which is the block the body needs.
-/
import proofs.«143351_j49503793054049_1_alg».proof.Proof.Gen.KernelIdeal.Launch
import proofs.«143351_j49503793054049_1_alg».proof.Proof.Gen.KernelIdeal.Skeleton
import proofs.«143351_j49503793054049_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The bank's staging buffer holds batch `b`'s bank at every point of that batch, fetched there or kept from the
    point before (its block index does not move while the batch stays). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The key block's staging buffer holds the point's 256 query columns (it is fetched at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S1x2304x512 := Rect.unit (s := S1x2304x512) ![0, 0, 0] S1x2304x512.size inb_S1x2304x512_S1x2304x512_0_0_0
abbrev r0_1 : Rect S1x512x256 := Rect.unit (s := S1x512x256) ![0, 0, 0] S1x512x256.size inb_S1x512x256_S1x512x256_0_0_0
abbrev r0_2 : Rect S1x1x256 := Rect.unit (s := S1x1x256) ![0, 0, 0] S1x1x256.size inb_S1x1x256_S1x1x256_0_0_0

/-! ## What the body leaves in the output's buffer -/

/-- The output buffer after the body: its one store, over the whole buffer, of the column maxima of the two input
    blocks' similarities. -/
def out0_2 (x0 : Vec F S1x2304x512 .f32) (x1 : Vec F S1x512x256 .f32) : Vec F S1x1x256 .f32 :=
  View.canon [⟨r0_2, k0_pay1 (View.ld x0 r0_0) (View.ld x1 r0_1)⟩]

/-- The one store covers the buffer. -/
theorem cover0_2 (p0 : Vec F S1x1x256 .f32) (y : S1x1x256.Idx) :
    ∃ pc ∈ ([⟨r0_2, p0⟩] : List (View.Piece (Elt F) S1x1x256 .f32)), y ∈ pc.1.set :=
  View.cover_of_tiled [⟨r0_2, p0⟩] S1x1x256.size (by rfl) y

/-! ## The body's triple -/

set_option maxHeartbeats 1000000 in
/-- The body on whole staging memrefs — the inputs' at contents `x0`, `x1`, the output's at anything — runs to the
    continuation with the inputs' as they were and the output's at `out0_2 x0 x1`. -/
theorem sound_kernel0 (c : Dev nD) (E : Set ℕ) (i : grid0.Coords)
    (arg2 : Memref sig .tc .vmem S1x2304x512 .f32) (harg2 : arg2.IsWhole) (arg3 : Memref sig .tc .vmem S1x512x256 .f32) (harg3 : arg3.IsWhole)
    (arg4 : Memref sig .tc .vmem S1x1x256 .f32) (harg4 : arg4.IsWhole)
    (x0 : Vec F S1x2304x512 .f32) (x1 : Vec F S1x512x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__fine_nomask_kernel i arg2 harg2 arg3 harg3 arg4 harg4) K := by
  simp only [cc0__fine_nomask_kernel_eq_skeleton]; unfold cc0__fine_nomask_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- Pipeline 0's proof data on core `c`: the arrays as the region finds them; after the body each input's buffer at its
    block, the output's at the maxima of the two input blocks; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region2.lean ====
/-
  Region 2 of @main: a masked fine score, at the contents `V` the region is entered with.

  At grid point `t = (b, q)` the body is handed four staging buffers: batch `b`'s whole bank (2304 memory rows
  of 512 channels), the key's block of 256 query columns `q` (512 by 256), the mask's block for the same
  columns (2304 memory rows by 256 queries), and the output row's 256 entries. It reads the three inputs, forms
  the 2304 x 256 similarities, multiplies each by the mask's entry, takes the maximum down each column and
  stores the 256 maxima; it also loads the output buffer once and drops what it read. After the body the
  inputs' buffers hold what they held and the output's holds one stored piece covering it.
  The bank is fetched only when the batch changes and is still that batch's bank in between.
-/
import proofs.«143351_j49503793054049_1_alg».proof.Proof.Gen.KernelIdeal.Launch
import proofs.«143351_j49503793054049_1_alg».proof.Proof.Gen.KernelIdeal.Skeleton
import proofs.«143351_j49503793054049_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The bank's staging buffer holds the batch's bank at every point of that batch, fetched there or kept from the
    point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The key block's staging buffer holds the point's 256 query columns. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The mask block's staging buffer holds the mask's entries for the point's batch and 256 query columns. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S1x2304x512 := Rect.unit (s := S1x2304x512) ![0, 0, 0] S1x2304x512.size inb_S1x2304x512_S1x2304x512_0_0_0
abbrev r2_1 : Rect S1x512x256 := Rect.unit (s := S1x512x256) ![0, 0, 0] S1x512x256.size inb_S1x512x256_S1x512x256_0_0_0
abbrev r2_2 : Rect S1x2304x256 := Rect.unit (s := S1x2304x256) ![0, 0, 0] S1x2304x256.size inb_S1x2304x256_S1x2304x256_0_0_0
abbrev r2_3 : Rect S1x1x256 := Rect.unit (s := S1x1x256) ![0, 0, 0] S1x1x256.size inb_S1x1x256_S1x1x256_0_0_0

/-! ## What the body leaves in the output's buffer -/

/-- The output buffer after the body: its one store, over the whole buffer, of the column maxima of the masked
    similarities of the three input blocks. -/
def out2_3 (x0 : Vec F S1x2304x512 .f32) (x1 : Vec F S1x512x256 .f32) (x2 : Vec F S1x2304x256 .f32) : Vec F S1x1x256 .f32 :=
  View.canon [⟨r2_3, k2_pay1 (View.ld x0 r2_0) (View.ld x1 r2_1) (View.ld x2 r2_2)⟩]

/-- The one store covers the buffer. -/
theorem cover2_3 (p0 : Vec F S1x1x256 .f32) (y : S1x1x256.Idx) :
    ∃ pc ∈ ([⟨r2_3, p0⟩] : List (View.Piece (Elt F) S1x1x256 .f32)), y ∈ pc.1.set :=
  View.cover_of_tiled [⟨r2_3, p0⟩] S1x1x256.size (by rfl) y

/-! ## The body's triple -/

set_option maxHeartbeats 1000000 in
/-- The body on whole staging memrefs — the inputs' at contents `x0`, `x1`, `x2`, the output's at anything — runs to the
    continuation with the inputs' as they were and the output's at `out2_3 x0 x1 x2`. -/
theorem sound_kernel2 (c : Dev nD) (E : Set ℕ) (i : grid2.Coords)
    (arg2 : Memref sig .tc .vmem S1x2304x512 .f32) (harg2 : arg2.IsWhole) (arg3 : Memref sig .tc .vmem S1x512x256 .f32) (harg3 : arg3.IsWhole)
    (arg4 : Memref sig .tc .vmem S1x2304x256 .f32) (harg4 : arg4.IsWhole) (arg5 : Memref sig .tc .vmem S1x1x256 .f32) (harg5 : arg5.IsWhole)
    (x0 : Vec F S1x2304x512 .f32) (x1 : Vec F S1x512x256 .f32) (x2 : Vec F S1x2304x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_3 x0 x1 x2)) -∗ K ⟨⟩))
      ⊢ wp frame (wpE (defs₀ (F := F)) Variants.none c none) E (cc2__fine_mask_kernel i arg2 harg2 arg3 harg3 arg4 harg4 arg5 harg5) K := by
  simp only [cc2__fine_mask_kernel_eq_skeleton]; unfold cc2__fine_mask_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- Pipeline 2's proof data on core `c`: the arrays as the region finds them; after the body each input's buffer at its
    block, the output's at the masked maxima of the three input blocks; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Region4.lean ====
/-
  Region 4 of @main: the six coarse scores at once, at the contents `V` the region is entered with.

  The six single-row banks have been stacked into one bank of six rows per batch. At grid point `t = (b, q)`
  the body is handed batch `b`'s six rows of 512 channels, the key's block of 256 query columns `q` (512 by
  256) and the output's six rows of 256 entries for those queries. It reads the two inputs and stores the
  6 x 256 similarities; it also loads the output buffer once and drops what it read. After the body the inputs'
  buffers hold what they held and the output's holds one stored piece covering it.
  The bank is fetched only when the batch changes and is still that batch's bank in between.
-/
import proofs.«143351_j49503793054049_1_alg».proof.Proof.Gen.KernelIdeal.Launch
import proofs.«143351_j49503793054049_1_alg».proof.Proof.Gen.KernelIdeal.Skeleton
import proofs.«143351_j49503793054049_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The stacked bank's staging buffer holds the batch's six rows at every point of that batch, fetched there or kept
    from the point before. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The key block's staging buffer holds the point's 256 query columns. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_0 : Rect S1x6x512 := Rect.unit (s := S1x6x512) ![0, 0, 0] S1x6x512.size inb_S1x6x512_S1x6x512_0_0_0
abbrev r4_1 : Rect S1x512x256 := Rect.unit (s := S1x512x256) ![0, 0, 0] S1x512x256.size inb_S1x512x256_S1x512x256_0_0_0
abbrev r4_2 : Rect S1x6x256 := Rect.unit (s := S1x6x256) ![0, 0, 0] S1x6x256.size inb_S1x6x256_S1x6x256_0_0_0

/-! ## What the body leaves in the output's buffer -/

/-- The output buffer after the body: its one store, over the whole buffer, of the six rows' similarities with the
    256 queries. -/
def out4_2 (x0 : Vec F S1x6x512 .f32) (x1 : Vec F S1x512x256 .f32) : Vec F S1x6x256 .f32 :=
  View.canon [⟨r4_2, k4_pay1 (View.ld x0 r4_0) (View.ld x1 r4_1)⟩]

/-- The one store covers the buffer. -/
theorem cover4_2 (p0 : Vec F S1x6x256 .f32) (y : S1x6x256.Idx) :
    ∃ pc ∈ ([⟨r4_2, p0⟩] : List (View.Piece (Elt F) S1x6x256 .f32)), y ∈ pc.1.set :=
  View.cover_of_tiled [⟨r4_2, p0⟩] S1x6x256.size (by rfl) y

/-! ## The body's triple -/

set_option maxHeartbeats 1000000 in
/-- The body on whole staging memrefs — the inputs' at contents `x0`, `x1`, the output's at anything — runs to the
    continuation with the inputs' as they were and the output's at `out4_2 x0 x1`. -/
theorem sound_kernel4 (c : Dev nD) (E : Set ℕ) (i : grid4.Coords)
    (arg2 : Memref sig .tc .vmem S1x6x512 .f32) (harg2 : arg2.IsWhole) (arg3 : Memref sig .tc .vmem S1x512x256 .f32) (harg3 : arg3.IsWhole)
    (arg4 : Memref sig .tc .vmem S1x6x256 .f32) (harg4 : arg4.IsWhole)
    (x0 : Vec F S1x6x512 .f32) (x1 : Vec F S1x512x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out4_2 x0 x1)) -∗ K ⟨⟩))
      ⊢ wp frame (wpE (defs₀ (F := F)) Variants.none c none) E (cc4__coarse_kernel i arg2 harg2 arg3 harg3 arg4 harg4) K := by
  simp only [cc4__coarse_kernel_eq_skeleton]; unfold cc4__coarse_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- Pipeline 4's proof data on core `c`: the arrays as the region finds them; after the body each input's buffer at its
    block, the output's at the similarities of the two input blocks; the invariant the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the triple applies; the invariant and the core's
    dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Fold.lean ====
/-
  The contents of every unscoped buffer of core `c` at each boundary between @main's items, as a fold from the
  launch memory: a stretch of host operations applies them; a kernel region leaves each of its arrays at what its
  write-backs have put there (an input array as it was entered, the output array the fold of the flushed blocks)
  and every other buffer as entered. @main is: two reshapes (the key and the mask flattened), region 0, a reshape,
  region 1, a reshape, region 2, a reshape, region 3, a reshape and the six coarse banks stacked, region 4, a
  reshape and the final joining of the five results.
-/
import proofs.«143351_j49503793054049_1_alg».proof.Proof.KI.Region0
import proofs.«143351_j49503793054049_1_alg».proof.Proof.KI.Region1
import proofs.«143351_j49503793054049_1_alg».proof.Proof.KI.Region2
import proofs.«143351_j49503793054049_1_alg».proof.Proof.KI.Region3
import proofs.«143351_j49503793054049_1_alg».proof.Proof.KI.Region4

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the host stretch before region 0: what region 0 is entered with. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves region 0 as it entered it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- After the host stretch before region 1: what region 1 is entered with. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An input window's array leaves region 1 as it entered it. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- After the host stretch before region 2: what region 2 is entered with. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- An input window's array leaves region 2 as it entered it. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-- After the host stretch before region 3: what region 3 is entered with. -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references. -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- An input window's array leaves region 3 as it entered it. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))

/-- After the host stretch before region 4: what region 4 is entered with. -/
abbrev W9 : Dev nD → Valuation τ sig (Elt F) := fun c => StableHlo.after hostOps4 (W8 m ρ c)
/-- The same read at the TensorCore's references. -/
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references. -/
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- An input window's array leaves region 4 as it entered it. -/
theorem W10_in (c : Dev nD) (w : Fin cfg4.W) (hw : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hw _).trans (A_eq4 (V9 m ρ) c w))

/-- After the last host stretch: what @main returns with. -/
abbrev W11 : Dev nD → Valuation τ sig (Elt F) := fun c => StableHlo.after hostOps5 (W10 m ρ c)

end Cert.KernelIdeal.Fr

end
-- ==== Proof.KI.Run.lean ====
/-
  @main as a run of segments, and the launch.

  Between two items of @main a core holds every unscoped buffer whole, at the boundary's contents `WJ` (the fold
  from the launch memory), beside its generator register at some state and its dues, which are nothing. A stretch
  of host operations carries the buffers from `WJ` to `StableHlo.after ops WJ`. A kernel region takes its windows'
  arrays out of the unscoped buffers, at the contents it is entered with; the generator register goes into the
  pipeline's invariant and comes back out of it; at the exit the arrays, at what the write-backs have left in them,
  rejoin the buffers the region did not touch, and together they are the next boundary's contents. Chained from the
  launch memory, the eleven segments end with every unscoped buffer at `W11`; a final state in which they are held
  there has them in its memory, buffer by buffer.
-/
import proofs.«143351_j49503793054049_1_alg».proof.Proof.KI.Fold
import proofs.«143351_j49503793054049_1_alg».proof.Proof.Gen.KernelIdeal.Regions
import Idealize.ShloMosaic.Lib.Pipeline.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the five pipelines, and what rides beside the buffers -/

/-- Every pipeline's proof data, region `K`'s at the contents region `K` is entered with. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c

abbrev 𝒱₀ : Variants := Variants.none
/-- No core owes another anything, so no pair of cores carries a level. -/
abbrev L : GSem nD τ sig → Finset Unit := fun _ => ∅
abbrev lv : GSem nD τ sig → Unit → ℕ := fun _ _ => 0

/-- Beside the buffers, through every segment: the core's generator register at some state, and its dues at zero. -/
abbrev R (c : Dev nD) : sProp 𝕄 := iprop((∃ r, prngReg c r) ∗ ∃ W, owes (c : Thread nD τ) (0 : CellTallies nD τ sig Unit) W)

/-- A stretch of host operations as a segment: from every unscoped buffer at `W` to every unscoped buffer at
    `StableHlo.after ops W`, the rest `R` unchanged. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the TensorCore is one of the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at `W11`, the generator register at some state. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0: entered with every unscoped buffer at `W1`, left with every unscoped buffer at `W2`. At the
    entry its windows' arrays are split off the unscoped buffers, at their entry contents; the generator register is the
    part of the thread state the invariant takes in (`X`) and gives back (`Y`); the buffers no window names bypass the
    region (`Z`). At the exit the arrays, at what the pipeline leaves, rejoin those buffers: `hF0` and `hrest0` say
    that the result is `W2`. Nothing is owed at any point, and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `W3`, left with every unscoped buffer at `W4`. At the
    entry its windows' arrays are split off the unscoped buffers, at their entry contents; the generator register is the
    part of the thread state the invariant takes in (`X`) and gives back (`Y`); the buffers no window names bypass the
    region (`Z`). At the exit the arrays, at what the pipeline leaves, rejoin those buffers: `hF1` and `hrest1` say
    that the result is `W4`. Nothing is owed at any point, and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at `W5`, left with every unscoped buffer at `W6`. At the
    entry its windows' arrays are split off the unscoped buffers, at their entry contents; the generator register is the
    part of the thread state the invariant takes in (`X`) and gives back (`Y`); the buffers no window names bypass the
    region (`Z`). At the exit the arrays, at what the pipeline leaves, rejoin those buffers: `hF2` and `hrest2` say
    that the result is `W6`. Nothing is owed at any point, and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at `W7`, left with every unscoped buffer at `W8`. At the
    entry its windows' arrays are split off the unscoped buffers, at their entry contents; the generator register is the
    part of the thread state the invariant takes in (`X`) and gives back (`Y`); the buffers no window names bypass the
    region (`Z`). At the exit the arrays, at what the pipeline leaves, rejoin those buffers: `hF3` and `hrest3` say
    that the result is `W8`. Nothing is owed at any point, and the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at `W9`, left with every unscoped buffer at `W10`. At the
    entry its windows' arrays are split off the unscoped buffers, at their entry contents; the generator register is the
    part of the thread state the invariant takes in (`X`) and gives back (`Y`); the buffers no window names bypass the
    region (`Z`). At the exit the arrays, at what the pipeline leaves, rejoin those buffers: `hF4` and `hrest4` say
    that the result is `W10`. Nothing is owed at any point, and the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its eleven segments, and the launch -/

/-- @main's segments in order: a stretch of host operations from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]

/-- @main is the run of the segments: it is the chain of its items, and the segments' run is the same chain. -/
theorem main_run (c : Dev nD) : main (F := F) c = Pipeline.Seg.run (segs m ρ) := (main_chain c).trans (by chain_rfl)

/-- After the last stretch the thread state is the last one beside the core's dues at zero: the same resources,
    grouped the other way. -/
theorem last_state (c : Dev nD) :
    iprop(StableHlo.held (c : Thread nD τ) (Pipeline.ucRefs τ sig) (W11 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN. From any memory `m` with every semaphore counter at zero, every weakly fair execution of @main on the
    TensorCores terminates, and in every final state each core's every unscoped buffer holds what the fold `W11` says:
    the segments chain from the launch state to the last one, whose buffers are read against the final state's memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl,
      fun _ => .rfl, fun _ => .rfl, fun _ => .rfl, fun _ => .rfl, fun _ => .rfl,
      fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h => h)

end Cert.KernelIdeal.Fr

end
-- ==== Proof.KI.Args.lean ====
/-
  Every argument array of @main ends as launched.

  Between two items of @main a buffer changes only if the item writes it. A host stretch writes the results of its
  operations and nothing else; none of those results is an argument. A kernel region changes only the array of its
  output window: an array read through an input window leaves the region as it entered it, and a buffer that is no
  window's array is not touched at all. No region's output array is an argument either. So an argument's contents
  pass unchanged through all eleven items, from the launch memory to the end.
-/
import proofs.«143351_j49503793054049_1_alg».proof.Proof.KI.Fold
import proofs.«143351_j49503793054049_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe

variable {F : FTy → Type} [FloatOps F]

variable (m : (ℓ : Loc nD τ sig) → Buf (Elt F) ℓ) (ρ : Dev nD → PrngReg)

/-! ## A host stretch leaves what it does not write -/

/-- A reference outside the results of the host stretch between items 0 and 1 keeps its contents across it. -/
theorem W1_host (c : Dev nD) (r : Ref sig .tc) (h : r ∉ hostOps0_W) :
    W1 m ρ c (Proc.devRef .tc r) = W0 m ρ c (Proc.devRef .tc r) :=
  StableHlo.after_of_writes_sub hostOps0 _ hostOps0_writes h

/-- A reference outside the results of the host stretch between items 2 and 3 keeps its contents across it. -/
theorem W3_host (c : Dev nD) (r : Ref sig .tc) (h : r ∉ hostOps1_W) :
    W3 m ρ c (Proc.devRef .tc r) = W2 m ρ c (Proc.devRef .tc r) :=
  StableHlo.after_of_writes_sub hostOps1 _ hostOps1_writes h

/-- A reference outside the results of the host stretch between items 4 and 5 keeps its contents across it. -/
theorem W5_host (c : Dev nD) (r : Ref sig .tc) (h : r ∉ hostOps2_W) :
    W5 m ρ c (Proc.devRef .tc r) = W4 m ρ c (Proc.devRef .tc r) :=
  StableHlo.after_of_writes_sub hostOps2 _ hostOps2_writes h

/-- A reference outside the results of the host stretch between items 6 and 7 keeps its contents across it. -/
theorem W7_host (c : Dev nD) (r : Ref sig .tc) (h : r ∉ hostOps3_W) :
    W7 m ρ c (Proc.devRef .tc r) = W6 m ρ c (Proc.devRef .tc r) :=
  StableHlo.after_of_writes_sub hostOps3 _ hostOps3_writes h

/-- A reference outside the results of the host stretch between items 8 and 9 keeps its contents across it. -/
theorem W9_host (c : Dev nD) (r : Ref sig .tc) (h : r ∉ hostOps4_W) :
    W9 m ρ c (Proc.devRef .tc r) = W8 m ρ c (Proc.devRef .tc r) :=
  StableHlo.after_of_writes_sub hostOps4 _ hostOps4_writes h

/-- A reference outside the results of the host stretch between items 10 and 11 keeps its contents across it. -/
theorem W11_host (c : Dev nD) (r : Ref sig .tc) (h : r ∉ hostOps5_W) :
    W11 m ρ c (Proc.devRef .tc r) = W10 m ρ c (Proc.devRef .tc r) :=
  StableHlo.after_of_writes_sub hostOps5 _ hostOps5_writes h

/-! ## A kernel region leaves what is not its output array -/

/-- Region 0 changes `main_v2` alone: a reference that is the array of one of its input windows leaves as it
    entered, and one that is no window's array is not touched. -/
theorem W2_keep (c : Dev nD) (b : Ref sig .tc) (hb : b ≠ main_v2) :
    W2 m ρ c (Proc.devRef .tc b) = W1 m ρ c (Proc.devRef .tc b) := by
  by_cases h : ∃ w : Fin 3, Pipeline.arrRef spec0 w = b
  · obtain ⟨w, rfl⟩ := h
    -- the windows in operand order: the inputs first, the output last
    fin_cases w
    · exact W2_in m ρ c 0 rfl
    · exact W2_in m ρ c 1 rfl
    · exact absurd rfl hb
  · exact W2_of_ne m ρ c b fun w e => h ⟨w, e⟩

/-- Region 1 changes `main_v4` alone: a reference that is the array of one of its input windows leaves as it
    entered, and one that is no window's array is not touched. -/
theorem W4_keep (c : Dev nD) (b : Ref sig .tc) (hb : b ≠ main_v4) :
    W4 m ρ c (Proc.devRef .tc b) = W3 m ρ c (Proc.devRef .tc b) := by
  by_cases h : ∃ w : Fin 3, Pipeline.arrRef spec1 w = b
  · obtain ⟨w, rfl⟩ := h
    -- the windows in operand order: the inputs first, the output last
    fin_cases w
    · exact W4_in m ρ c 0 rfl
    · exact W4_in m ρ c 1 rfl
    · exact absurd rfl hb
  · exact W4_of_ne m ρ c b fun w e => h ⟨w, e⟩

/-- Region 2 changes `main_v6` alone: a reference that is the array of one of its input windows leaves as it
    entered, and one that is no window's array is not touched. -/
theorem W6_keep (c : Dev nD) (b : Ref sig .tc) (hb : b ≠ main_v6) :
    W6 m ρ c (Proc.devRef .tc b) = W5 m ρ c (Proc.devRef .tc b) := by
  by_cases h : ∃ w : Fin 4, Pipeline.arrRef spec2 w = b
  · obtain ⟨w, rfl⟩ := h
    -- the windows in operand order: the inputs first, the output last
    fin_cases w
    · exact W6_in m ρ c 0 rfl
    · exact W6_in m ρ c 1 rfl
    · exact W6_in m ρ c 2 rfl
    · exact absurd rfl hb
  · exact W6_of_ne m ρ c b fun w e => h ⟨w, e⟩

/-- Region 3 changes `main_v8` alone: a reference that is the array of one of its input windows leaves as it
    entered, and one that is no window's array is not touched. -/
theorem W8_keep (c : Dev nD) (b : Ref sig .tc) (hb : b ≠ main_v8) :
    W8 m ρ c (Proc.devRef .tc b) = W7 m ρ c (Proc.devRef .tc b) := by
  by_cases h : ∃ w : Fin 4, Pipeline.arrRef spec3 w = b
  · obtain ⟨w, rfl⟩ := h
    -- the windows in operand order: the inputs first, the output last
    fin_cases w
    · exact W8_in m ρ c 0 rfl
    · exact W8_in m ρ c 1 rfl
    · exact W8_in m ρ c 2 rfl
    · exact absurd rfl hb
  · exact W8_of_ne m ρ c b fun w e => h ⟨w, e⟩

/-- Region 4 changes `main_v11` alone: a reference that is the array of one of its input windows leaves as it
    entered, and one that is no window's array is not touched. -/
theorem W10_keep (c : Dev nD) (b : Ref sig .tc) (hb : b ≠ main_v11) :
    W10 m ρ c (Proc.devRef .tc b) = W9 m ρ c (Proc.devRef .tc b) := by
  by_cases h : ∃ w : Fin 3, Pipeline.arrRef spec4 w = b
  · obtain ⟨w, rfl⟩ := h
    -- the windows in operand order: the inputs first, the output last
    fin_cases w
    · exact W10_in m ρ c 0 rfl
    · exact W10_in m ρ c 1 rfl
    · exact absurd rfl hb
  · exact W10_of_ne m ρ c b fun w e => h ⟨w, e⟩

/-! ## No item writes an argument -/

/-- `main_arg0` reaches the end as launched: no host stretch writes it and it is no region's output array. -/
theorem W11_main_arg0 (c : Dev nD) : W11 m ρ c (Proc.devRef .tc main_arg0) = m ((c : Thread nD τ).loc main_arg0) :=
  (W11_host m ρ c main_arg0 (by decide)).trans <| (W10_keep m ρ c main_arg0 (by decide)).trans <|
  (W9_host m ρ c main_arg0 (by decide)).trans <| (W8_keep m ρ c main_arg0 (by decide)).trans <|
  (W7_host m ρ c main_arg0 (by decide)).trans <| (W6_keep m ρ c main_arg0 (by decide)).trans <|
  (W5_host m ρ c main_arg0 (by decide)).trans <| (W4_keep m ρ c main_arg0 (by decide)).trans <|
  (W3_host m ρ c main_arg0 (by decide)).trans <| (W2_keep m ρ c main_arg0 (by decide)).trans <|
  (W1_host m ρ c main_arg0 (by decide)).trans rfl

/-- `main_arg1` reaches the end as launched: no host stretch writes it and it is no region's output array. -/
theorem W11_main_arg1 (c : Dev nD) : W11 m ρ c (Proc.devRef .tc main_arg1) = m ((c : Thread nD τ).loc main_arg1) :=
  (W11_host m ρ c main_arg1 (by decide)).trans <| (W10_keep m ρ c main_arg1 (by decide)).trans <|
  (W9_host m ρ c main_arg1 (by decide)).trans <| (W8_keep m ρ c main_arg1 (by decide)).trans <|
  (W7_host m ρ c main_arg1 (by decide)).trans <| (W6_keep m ρ c main_arg1 (by decide)).trans <|
  (W5_host m ρ c main_arg1 (by decide)).trans <| (W4_keep m ρ c main_arg1 (by decide)).trans <|
  (W3_host m ρ c main_arg1 (by decide)).trans <| (W2_keep m ρ c main_arg1 (by decide)).trans <|
  (W1_host m ρ c main_arg1 (by decide)).trans rfl

/-- `main_arg2` reaches the end as launched: no host stretch writes it and it is no region's output array. -/
theorem W11_main_arg2 (c : Dev nD) : W11 m ρ c (Proc.devRef .tc main_arg2) = m ((c : Thread nD τ).loc main_arg2) :=
  (W11_host m ρ c main_arg2 (by decide)).trans <| (W10_keep m ρ c main_arg2 (by decide)).trans <|
  (W9_host m ρ c main_arg2 (by decide)).trans <| (W8_keep m ρ c main_arg2 (by decide)).trans <|
  (W7_host m ρ c main_arg2 (by decide)).trans <| (W6_keep m ρ c main_arg2 (by decide)).trans <|
  (W5_host m ρ c main_arg2 (by decide)).trans <| (W4_keep m ρ c main_arg2 (by decide)).trans <|
  (W3_host m ρ c main_arg2 (by decide)).trans <| (W2_keep m ρ c main_arg2 (by decide)).trans <|
  (W1_host m ρ c main_arg2 (by decide)).trans rfl

/-- `main_arg3` reaches the end as launched: no host stretch writes it and it is no region's output array. -/
theorem W11_main_arg3 (c : Dev nD) : W11 m ρ c (Proc.devRef .tc main_arg3) = m ((c : Thread nD τ).loc main_arg3) :=
  (W11_host m ρ c main_arg3 (by decide)).trans <| (W10_keep m ρ c main_arg3 (by decide)).trans <|
  (W9_host m ρ c main_arg3 (by decide)).trans <| (W8_keep m ρ c main_arg3 (by decide)).trans <|
  (W7_host m ρ c main_arg3 (by decide)).trans <| (W6_keep m ρ c main_arg3 (by decide)).trans <|
  (W5_host m ρ c main_arg3 (by decide)).trans <| (W4_keep m ρ c main_arg3 (by decide)).trans <|
  (W3_host m ρ c main_arg3 (by decide)).trans <| (W2_keep m ρ c main_arg3 (by decide)).trans <|
  (W1_host m ρ c main_arg3 (by decide)).trans rfl

/-- `main_arg4` reaches the end as launched: no host stretch writes it and it is no region's output array. -/
theorem W11_main_arg4 (c : Dev nD) : W11 m ρ c (Proc.devRef .tc main_arg4) = m ((c : Thread nD τ).loc main_arg4) :=
  (W11_host m ρ c main_arg4 (by decide)).trans <| (W10_keep m ρ c main_arg4 (by decide)).trans <|
  (W9_host m ρ c main_arg4 (by decide)).trans <| (W8_keep m ρ c main_arg4 (by decide)).trans <|
  (W7_host m ρ c main_arg4 (by decide)).trans <| (W6_keep m ρ c main_arg4 (by decide)).trans <|
  (W5_host m ρ c main_arg4 (by decide)).trans <| (W4_keep m ρ c main_arg4 (by decide)).trans <|
  (W3_host m ρ c main_arg4 (by decide)).trans <| (W2_keep m ρ c main_arg4 (by decide)).trans <|
  (W1_host m ρ c main_arg4 (by decide)).trans rfl

/-- `main_arg5` reaches the end as launched: no host stretch writes it and it is no region's output array. -/
theorem W11_main_arg5 (c : Dev nD) : W11 m ρ c (Proc.devRef .tc main_arg5) = m ((c : Thread nD τ).loc main_arg5) :=
  (W11_host m ρ c main_arg5 (by decide)).trans <| (W10_keep m ρ c main_arg5 (by decide)).trans <|
  (W9_host m ρ c main_arg5 (by decide)).trans <| (W8_keep m ρ c main_arg5 (by decide)).trans <|
  (W7_host m ρ c main_arg5 (by decide)).trans <| (W6_keep m ρ c main_arg5 (by decide)).trans <|
  (W5_host m ρ c main_arg5 (by decide)).trans <| (W4_keep m ρ c main_arg5 (by decide)).trans <|
  (W3_host m ρ c main_arg5 (by decide)).trans <| (W2_keep m ρ c main_arg5 (by decide)).trans <|
  (W1_host m ρ c main_arg5 (by decide)).trans rfl

/-- `main_arg6` reaches the end as launched: no host stretch writes it and it is no region's output array. -/
theorem W11_main_arg6 (c : Dev nD) : W11 m ρ c (Proc.devRef .tc main_arg6) = m ((c : Thread nD τ).loc main_arg6) :=
  (W11_host m ρ c main_arg6 (by decide)).trans <| (W10_keep m ρ c main_arg6 (by decide)).trans <|
  (W9_host m ρ c main_arg6 (by decide)).trans <| (W8_keep m ρ c main_arg6 (by decide)).trans <|
  (W7_host m ρ c main_arg6 (by decide)).trans <| (W6_keep m ρ c main_arg6 (by decide)).trans <|
  (W5_host m ρ c main_arg6 (by decide)).trans <| (W4_keep m ρ c main_arg6 (by decide)).trans <|
  (W3_host m ρ c main_arg6 (by decide)).trans <| (W2_keep m ρ c main_arg6 (by decide)).trans <|
  (W1_host m ρ c main_arg6 (by decide)).trans rfl

/-- `main_arg7` reaches the end as launched: no host stretch writes it and it is no region's output array. -/
theorem W11_main_arg7 (c : Dev nD) : W11 m ρ c (Proc.devRef .tc main_arg7) = m ((c : Thread nD τ).loc main_arg7) :=
  (W11_host m ρ c main_arg7 (by decide)).trans <| (W10_keep m ρ c main_arg7 (by decide)).trans <|
  (W9_host m ρ c main_arg7 (by decide)).trans <| (W8_keep m ρ c main_arg7 (by decide)).trans <|
  (W7_host m ρ c main_arg7 (by decide)).trans <| (W6_keep m ρ c main_arg7 (by decide)).trans <|
  (W5_host m ρ c main_arg7 (by decide)).trans <| (W4_keep m ρ c main_arg7 (by decide)).trans <|
  (W3_host m ρ c main_arg7 (by decide)).trans <| (W2_keep m ρ c main_arg7 (by decide)).trans <|
  (W1_host m ρ c main_arg7 (by decide)).trans rfl

/-- `main_arg8` reaches the end as launched: no host stretch writes it and it is no region's output array. -/
theorem W11_main_arg8 (c : Dev nD) : W11 m ρ c (Proc.devRef .tc main_arg8) = m ((c : Thread nD τ).loc main_arg8) :=
  (W11_host m ρ c main_arg8 (by decide)).trans <| (W10_keep m ρ c main_arg8 (by decide)).trans <|
  (W9_host m ρ c main_arg8 (by decide)).trans <| (W8_keep m ρ c main_arg8 (by decide)).trans <|
  (W7_host m ρ c main_arg8 (by decide)).trans <| (W6_keep m ρ c main_arg8 (by decide)).trans <|
  (W5_host m ρ c main_arg8 (by decide)).trans <| (W4_keep m ρ c main_arg8 (by decide)).trans <|
  (W3_host m ρ c main_arg8 (by decide)).trans <| (W2_keep m ρ c main_arg8 (by decide)).trans <|
  (W1_host m ρ c main_arg8 (by decide)).trans rfl

/-- `main_arg9` reaches the end as launched: no host stretch writes it and it is no region's output array. -/
theorem W11_main_arg9 (c : Dev nD) : W11 m ρ c (Proc.devRef .tc main_arg9) = m ((c : Thread nD τ).loc main_arg9) :=
  (W11_host m ρ c main_arg9 (by decide)).trans <| (W10_keep m ρ c main_arg9 (by decide)).trans <|
  (W9_host m ρ c main_arg9 (by decide)).trans <| (W8_keep m ρ c main_arg9 (by decide)).trans <|
  (W7_host m ρ c main_arg9 (by decide)).trans <| (W6_keep m ρ c main_arg9 (by decide)).trans <|
  (W5_host m ρ c main_arg9 (by decide)).trans <| (W4_keep m ρ c main_arg9 (by decide)).trans <|
  (W3_host m ρ c main_arg9 (by decide)).trans <| (W2_keep m ρ c main_arg9 (by decide)).trans <|
  (W1_host m ρ c main_arg9 (by decide)).trans rfl

/-- `main_arg10` reaches the end as launched: no host stretch writes it and it is no region's output array. -/
theorem W11_main_arg10 (c : Dev nD) : W11 m ρ c (Proc.devRef .tc main_arg10) = m ((c : Thread nD τ).loc main_arg10) :=
  (W11_host m ρ c main_arg10 (by decide)).trans <| (W10_keep m ρ c main_arg10 (by decide)).trans <|
  (W9_host m ρ c main_arg10 (by decide)).trans <| (W8_keep m ρ c main_arg10 (by decide)).trans <|
  (W7_host m ρ c main_arg10 (by decide)).trans <| (W6_keep m ρ c main_arg10 (by decide)).trans <|
  (W5_host m ρ c main_arg10 (by decide)).trans <| (W4_keep m ρ c main_arg10 (by decide)).trans <|
  (W3_host m ρ c main_arg10 (by decide)).trans <| (W2_keep m ρ c main_arg10 (by decide)).trans <|
  (W1_host m ρ c main_arg10 (by decide)).trans rfl

/-- `main_arg11` reaches the end as launched: no host stretch writes it and it is no region's output array. -/
theorem W11_main_arg11 (c : Dev nD) : W11 m ρ c (Proc.devRef .tc main_arg11) = m ((c : Thread nD τ).loc main_arg11) :=
  (W11_host m ρ c main_arg11 (by decide)).trans <| (W10_keep m ρ c main_arg11 (by decide)).trans <|
  (W9_host m ρ c main_arg11 (by decide)).trans <| (W8_keep m ρ c main_arg11 (by decide)).trans <|
  (W7_host m ρ c main_arg11 (by decide)).trans <| (W6_keep m ρ c main_arg11 (by decide)).trans <|
  (W5_host m ρ c main_arg11 (by decide)).trans <| (W4_keep m ρ c main_arg11 (by decide)).trans <|
  (W3_host m ρ c main_arg11 (by decide)).trans <| (W2_keep m ρ c main_arg11 (by decide)).trans <|
  (W1_host m ρ c main_arg11 (by decide)).trans rfl

end Cert.KernelIdeal.Fr

end
-- ==== Proof.KI.Frame.lean ====
/-
  The frame of the program: from any launch memory with zero counters every weakly fair execution of @main ends, with
  nothing faulting, and each of the twelve argument arrays holds at the end what it held at launch. The run names every
  unscoped buffer's final contents as the last stage of the fold; an argument's buffer read through the fold walks
  back to the launch memory, because no host operation writes an argument and a kernel region changes only its output.
-/
import proofs.«143351_j49503793054049_1_alg».proof.Proof.KI.Run
import proofs.«143351_j49503793054049_1_alg».proof.Proof.KI.Args

noncomputable section

namespace Cert.KernelIdeal.Fr

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c)⟩)
    (run_all m ρ)

end Cert.KernelIdeal.Fr

end
-- ==== Proof.Val.Spec.lean ====
/-
  The matching scores as plain functions of the argument arrays, index by index, over the extended reals.

  `k` is the key with its two spatial axes flattened into one query axis `n` (8 batches, 512 channels,
  2304 queries); a fine bank has one row of 512 channels per memory position `mm` (2304 of them), a coarse
  bank a single row. The SIMILARITY of memory row `mm` and query `n` in batch `b` is the channel sum
  `∑ c, bank[b, mm, c] · k[b, c, n]`. A fine score is the maximum of the similarities over the memory
  positions, started from −∞; a masked fine score multiplies each similarity by `mask[b, mm, n]` before the
  maximum; a coarse score is the one similarity of the bank's single row.
-/
import Idealize.ShloMosaic.PureOps.Ideal
import Idealize.ShloMosaic.Lib.ValueIdx

noncomputable section

namespace Cert.Matcher

open Idealize.ShloMosaic Idealize.ShloMosaic.ValueIdx

/-- −∞ as the word both programs start their maxima from. -/
abbrev negInf : EReal := Ideal.ofBits .f32 0xFF800000#32

/-- The similarity of row `r` of a bank of `R` rows with query `n`, in batch `b`: the sum over the 512 channels. -/
def sim {R : Nat} (bank : (⟨3, ![8, R, 512]⟩ : Shape).Idx → EReal) (k : (⟨3, ![8, 512, 2304]⟩ : Shape).Idx → EReal)
    (b : Fin 8) (r : Fin R) (n : Fin 2304) : EReal :=
  ∑ c : Fin 512, bank (ix3 b r c) * k (ix3 b c n)

/-- The fine score: the largest similarity over the 2304 memory rows, from −∞. -/
def fineAt (bank : (⟨3, ![8, 2304, 512]⟩ : Shape).Idx → EReal) (k : (⟨3, ![8, 512, 2304]⟩ : Shape).Idx → EReal)
    (b : Fin 8) (n : Fin 2304) : EReal :=
  (Finset.univ : Finset (Fin 2304)).fold max negInf fun mm => sim bank k b mm n

/-- The masked fine score: each similarity times the mask's entry for that memory row and query, then the maximum. -/
def fineMaskAt (bank : (⟨3, ![8, 2304, 512]⟩ : Shape).Idx → EReal) (k : (⟨3, ![8, 512, 2304]⟩ : Shape).Idx → EReal)
    (mask : (⟨3, ![8, 2304, 2304]⟩ : Shape).Idx → EReal) (b : Fin 8) (n : Fin 2304) : EReal :=
  (Finset.univ : Finset (Fin 2304)).fold max negInf fun mm => sim bank k b mm n * mask (ix3 b mm n)

/-- A fine score laid out as the kernel's regions leave it: one row per batch, `[8, 1, 2304]`. -/
def fineArr (bank : (⟨3, ![8, 2304, 512]⟩ : Shape).Idx → EReal) (k : (⟨3, ![8, 512, 2304]⟩ : Shape).Idx → EReal) :
    (⟨3, ![8, 1, 2304]⟩ : Shape).Idx → EReal := fun j => fineAt bank k (j 0) (j 2)

/-- The masked fine score in the same layout. -/
def fineMaskArr (bank : (⟨3, ![8, 2304, 512]⟩ : Shape).Idx → EReal) (k : (⟨3, ![8, 512, 2304]⟩ : Shape).Idx → EReal)
    (mask : (⟨3, ![8, 2304, 2304]⟩ : Shape).Idx → EReal) : (⟨3, ![8, 1, 2304]⟩ : Shape).Idx → EReal :=
  fun j => fineMaskAt bank k mask (j 0) (j 2)

/-- The coarse scores of a bank of `R` rows, one output row per bank row: `[8, R, 2304]`. -/
def coarseArr {R : Nat} (bank : (⟨3, ![8, R, 512]⟩ : Shape).Idx → EReal) (k : (⟨3, ![8, 512, 2304]⟩ : Shape).Idx → EReal) :
    (⟨3, ![8, R, 2304]⟩ : Shape).Idx → EReal := fun j => sim bank k (j 0) (j 1) (j 2)

end Cert.Matcher

end
-- ==== Proof.Val.Concat.lean ====
/-
  Concatenation along the channel axis (axis 1) of arrays [8, C, 48, 48], read index by index.

  Two facts. First, laying five pieces a, b, c, d (one channel each) and e (six channels) end to end is the same as
  first pairing a with b and c with d, joining the two pairs into a four-channel array, and then appending e: at channel
  0, 1, 2, 3 both sides read a, b, c, d at channel 0, and at channel 4 + r both read e at channel r. Second, the coarse
  scores of a bank whose six rows are laid end to end from six one-row banks, reshaped from [8, 6, 2304] to
  [8, 6, 48, 48], are the six one-row banks' coarse scores, each reshaped to [8, 1, 48, 48], laid end to end: output
  channel o at (h, w) is on both sides the similarity of the o-th one-row bank with query 48·h + w.
-/
import proofs.«143351_j49503793054049_1_alg».proof.Proof.Val.Spec
import Idealize.ShloMosaic.Lib.Pipeline.Value
import Idealize.ShloMosaic.Lib.ValueIdx

noncomputable section

namespace Cert.Matcher

open Idealize.ShloMosaic Idealize.ShloMosaic.ValueIdx

/-- Score planes, [8, C, 48, 48] with C channels. -/
abbrev T1 : Shape := ⟨4, ![8, 1, 48, 48]⟩
abbrev T2 : Shape := ⟨4, ![8, 2, 48, 48]⟩
abbrev T4 : Shape := ⟨4, ![8, 4, 48, 48]⟩
abbrev T6 : Shape := ⟨4, ![8, 6, 48, 48]⟩
abbrev T10 : Shape := ⟨4, ![8, 10, 48, 48]⟩
/-- Coarse banks of one and of six rows of 512 channels. -/
abbrev B1 : Shape := ⟨3, ![8, 1, 512]⟩
abbrev B6 : Shape := ⟨3, ![8, 6, 512]⟩
/-- Coarse scores with the 48 × 48 queries on one axis. -/
abbrev Q1 : Shape := ⟨3, ![8, 1, 2304]⟩
abbrev Q6 : Shape := ⟨3, ![8, 6, 2304]⟩
/-- The key, its queries on one axis. -/
abbrev K : Shape := ⟨3, ![8, 512, 2304]⟩

/-- A concatenation of [8, ·, 48, 48] arrays along the channel axis, read at (b, c, h, w): the piece number k whose
    span starts at channel pre, read at (b, c', h, w) where pre + c' = c. -/
theorem cat4_apply {α : Type} {C Ck : Nat} (xs : List ((s : Shape) × (s.Idx → α)))
    (hc : Shape.Concatenates (xs.map (·.1)) ⟨4, ![8, C, 48, 48]⟩ 1)
    (k : Nat) (x : (⟨4, ![8, Ck, 48, 48]⟩ : Shape).Idx → α)
    (hxk : xs[k]? = some ⟨⟨4, ![8, Ck, 48, 48]⟩, x⟩) (pre : Nat)
    (hpre : (((xs.take k).map (·.1)).map fun s : Shape =>
      if h : s.rank = 4 then s.size ((1 : Fin 4).cast h.symm) else 0).sum = pre)
    (b : Fin 8) (c : Fin C) (c' : Fin Ck) (h w : Fin 48) (hcc : pre + c'.val = c.val) :
    concatenate ⟨4, ![8, C, 48, 48]⟩ 1 xs hc (ix4 b c h w) = x (ix4 b c' h w) := by
  obtain ⟨hk, hxk⟩ := List.getElem?_eq_some_iff.1 hxk
  refine concatenate_apply_piece 1 xs hc (ix4 b c h w) k hk _ x hxk rfl pre hpre (ix4 b c' h w) ?_ hcc
  intro a ha
  match a with
  | ⟨0, _⟩ => rfl
  | ⟨1, _⟩ => exact absurd rfl ha
  | ⟨2, _⟩ => rfl
  | ⟨3, _⟩ => rfl

/-- The same for [8, ·, N] arrays along axis 1, read at (b, c, n). -/
theorem cat3_apply {α : Type} {C Ck N : Nat} (xs : List ((s : Shape) × (s.Idx → α)))
    (hc : Shape.Concatenates (xs.map (·.1)) ⟨3, ![8, C, N]⟩ 1)
    (k : Nat) (x : (⟨3, ![8, Ck, N]⟩ : Shape).Idx → α)
    (hxk : xs[k]? = some ⟨⟨3, ![8, Ck, N]⟩, x⟩) (pre : Nat)
    (hpre : (((xs.take k).map (·.1)).map fun s : Shape =>
      if h : s.rank = 3 then s.size ((1 : Fin 3).cast h.symm) else 0).sum = pre)
    (b : Fin 8) (c : Fin C) (c' : Fin Ck) (n : Fin N) (hcc : pre + c'.val = c.val) :
    concatenate ⟨3, ![8, C, N]⟩ 1 xs hc (ix3 b c n) = x (ix3 b c' n) := by
  obtain ⟨hk, hxk⟩ := List.getElem?_eq_some_iff.1 hxk
  refine concatenate_apply_piece 1 xs hc (ix3 b c n) k hk _ x hxk rfl pre hpre (ix3 b c' n) ?_ hcc
  intro a ha
  match a with
  | ⟨0, _⟩ => rfl
  | ⟨1, _⟩ => exact absurd rfl ha
  | ⟨2, _⟩ => rfl

/-- Five pieces laid end to end are the two pairs joined, then the last piece appended. -/
theorem concat5_regroup {α : Type} (a b c d : T1.Idx → α) (e : T6.Idx → α)
    (h5 : Shape.Concatenates [T1, T1, T1, T1, T6] T10 1) (h2 : Shape.Concatenates [T1, T1] T2 1)
    (h4 : Shape.Concatenates [T2, T2] T4 1) (h10 : Shape.Concatenates [T4, T6] T10 1) :
    concatenate T10 1 [⟨T1, a⟩, ⟨T1, b⟩, ⟨T1, c⟩, ⟨T1, d⟩, ⟨T6, e⟩] h5
      = concatenate T10 1 [⟨T4, concatenate T4 1 [⟨T2, concatenate T2 1 [⟨T1, a⟩, ⟨T1, b⟩] h2⟩,
          ⟨T2, concatenate T2 1 [⟨T1, c⟩, ⟨T1, d⟩] h2⟩] h4⟩, ⟨T6, e⟩] h10 := by
  funext j
  obtain ⟨bb, cc, hh, ww, rfl⟩ : ∃ (bb : Fin 8) (cc : Fin 10) (hh ww : Fin 48), j = ix4 bb cc hh ww :=
    ⟨j 0, j 1, j 2, j 3, eq_ix4 j⟩
  obtain ⟨cv, hcv⟩ := cc
  rcases (by omega : cv = 0 ∨ cv = 1 ∨ cv = 2 ∨ cv = 3 ∨ 4 ≤ cv) with rfl | rfl | rfl | rfl | h4c
  · -- channel 0: a on both sides (left pair, its first piece)
    refine (cat4_apply _ _ 0 a (by rfl) 0 (by rfl) bb _ 0 hh ww (by rfl)).trans (Eq.symm ?_)
    refine (cat4_apply _ _ 0 _ (by rfl) 0 (by rfl) bb _ (⟨0, by decide⟩ : Fin 4) hh ww (by rfl)).trans ?_
    refine (cat4_apply _ _ 0 _ (by rfl) 0 (by rfl) bb _ (⟨0, by decide⟩ : Fin 2) hh ww (by rfl)).trans ?_
    exact cat4_apply _ _ 0 a (by rfl) 0 (by rfl) bb _ 0 hh ww (by rfl)
  · -- channel 1: b (left pair, its second piece)
    refine (cat4_apply _ _ 1 b (by rfl) 1 (by rfl) bb _ 0 hh ww (by rfl)).trans (Eq.symm ?_)
    refine (cat4_apply _ _ 0 _ (by rfl) 0 (by rfl) bb _ (⟨1, by decide⟩ : Fin 4) hh ww (by rfl)).trans ?_
    refine (cat4_apply _ _ 0 _ (by rfl) 0 (by rfl) bb _ (⟨1, by decide⟩ : Fin 2) hh ww (by rfl)).trans ?_
    exact cat4_apply _ _ 1 b (by rfl) 1 (by rfl) bb _ 0 hh ww (by rfl)
  · -- channel 2: c (right pair, its first piece)
    refine (cat4_apply _ _ 2 c (by rfl) 2 (by rfl) bb _ 0 hh ww (by rfl)).trans (Eq.symm ?_)
    refine (cat4_apply _ _ 0 _ (by rfl) 0 (by rfl) bb _ (⟨2, by decide⟩ : Fin 4) hh ww (by rfl)).trans ?_
    refine (cat4_apply _ _ 1 _ (by rfl) 2 (by rfl) bb _ (⟨0, by decide⟩ : Fin 2) hh ww (by rfl)).trans ?_
    exact cat4_apply _ _ 0 c (by rfl) 0 (by rfl) bb _ 0 hh ww (by rfl)
  · -- channel 3: d (right pair, its second piece)
    refine (cat4_apply _ _ 3 d (by rfl) 3 (by rfl) bb _ 0 hh ww (by rfl)).trans (Eq.symm ?_)
    refine (cat4_apply _ _ 0 _ (by rfl) 0 (by rfl) bb _ (⟨3, by decide⟩ : Fin 4) hh ww (by rfl)).trans ?_
    refine (cat4_apply _ _ 1 _ (by rfl) 2 (by rfl) bb _ (⟨1, by decide⟩ : Fin 2) hh ww (by rfl)).trans ?_
    exact cat4_apply _ _ 1 d (by rfl) 1 (by rfl) bb _ 0 hh ww (by rfl)
  · -- channel 4 + r: e at channel r on both sides
    refine (cat4_apply _ _ 4 e (by rfl) 4 (by rfl) bb _ (⟨cv - 4, by omega⟩ : Fin 6) hh ww (by show 4 + (cv - 4) = cv; omega)).trans
      (Eq.symm ?_)
    exact cat4_apply _ _ 1 e (by rfl) 4 (by rfl) bb _ (⟨cv - 4, by omega⟩ : Fin 6) hh ww (by show 4 + (cv - 4) = cv; omega)

/-- The reshaped coarse scores [8, R, 48, 48] read at (b, o, h, w): the similarity of bank row o with query 48·h + w. -/
theorem shapeCast_coarse_apply {R : Nat} (bank : (⟨3, ![8, R, 512]⟩ : Shape).Idx → EReal) (k : K.Idx → EReal)
    (hs : (⟨3, ![8, R, 2304]⟩ : Shape).ShapeCasts ⟨4, ![8, R, 48, 48]⟩) (b : Fin 8) (o : Fin R) (h w : Fin 48) :
    shapeCast ⟨4, ![8, R, 48, 48]⟩ (coarseArr bank k) hs (ix4 b o h w)
      = sim bank k b o ⟨48 * h.val + w.val, by omega⟩ := by
  refine (shapeCast_apply (coarseArr bank k) hs (ix4 b o h w) (ix3 b o ⟨48 * h.val + w.val, by omega⟩) ?_).trans rfl
  rw [Shape.rowMajor_val_three, Shape.rowMajor_val_four]
  show (b.val * R + o.val) * 2304 + (48 * h.val + w.val) = ((b.val * R + o.val) * 48 + h.val) * 48 + w.val
  omega

/-- A similarity depends on its bank only through the row it reads. -/
theorem sim_congr_row {R R' : Nat} (bank : (⟨3, ![8, R, 512]⟩ : Shape).Idx → EReal)
    (bank' : (⟨3, ![8, R', 512]⟩ : Shape).Idx → EReal) (k : K.Idx → EReal) (b : Fin 8) (r : Fin R) (r' : Fin R')
    (n : Fin 2304) (hrow : ∀ c : Fin 512, bank (ix3 b r c) = bank' (ix3 b r' c)) :
    sim bank k b r n = sim bank' k b r' n := by
  unfold sim
  exact Finset.sum_congr rfl fun c _ => by rw [hrow c]

/-- Output channel o of the six-row bank's reshaped coarse scores is the reshaped coarse score of any one-row bank that
    holds the six-row bank's row o. -/
theorem coarse_piece (bank : B6.Idx → EReal) (bo : B1.Idx → EReal) (k : K.Idx → EReal)
    (hs6 : Q6.ShapeCasts T6) (hs1 : Q1.ShapeCasts T1) (b : Fin 8) (o : Fin 6) (h w : Fin 48)
    (hrow : ∀ c : Fin 512, bank (ix3 b o c) = bo (ix3 b 0 c)) :
    shapeCast T6 (coarseArr (R := 6) bank k) hs6 (ix4 b o h w)
      = shapeCast T1 (coarseArr (R := 1) bo k) hs1 (ix4 b 0 h w) :=
  (shapeCast_coarse_apply bank k hs6 b o h w).trans
    ((sim_congr_row bank bo k b o 0 _ hrow).trans (shapeCast_coarse_apply bo k hs1 b 0 h w).symm)

/-- The coarse scores of six one-row banks laid end to end are the six banks' coarse scores laid end to end. -/
theorem coarse_concat (b0 b1 b2 b3 b4 b5 : B1.Idx → EReal) (k : K.Idx → EReal)
    (hb : Shape.Concatenates [B1, B1, B1, B1, B1, B1] B6 1) (hs6 : Q6.ShapeCasts T6) (hs1 : Q1.ShapeCasts T1)
    (ht : Shape.Concatenates [T1, T1, T1, T1, T1, T1] T6 1) :
    shapeCast T6 (coarseArr (R := 6) (concatenate B6 1 [⟨B1, b0⟩, ⟨B1, b1⟩, ⟨B1, b2⟩, ⟨B1, b3⟩, ⟨B1, b4⟩, ⟨B1, b5⟩] hb) k) hs6
      = concatenate T6 1 [⟨T1, shapeCast T1 (coarseArr (R := 1) b0 k) hs1⟩, ⟨T1, shapeCast T1 (coarseArr (R := 1) b1 k) hs1⟩,
          ⟨T1, shapeCast T1 (coarseArr (R := 1) b2 k) hs1⟩, ⟨T1, shapeCast T1 (coarseArr (R := 1) b3 k) hs1⟩,
          ⟨T1, shapeCast T1 (coarseArr (R := 1) b4 k) hs1⟩, ⟨T1, shapeCast T1 (coarseArr (R := 1) b5 k) hs1⟩] ht := by
  funext j
  obtain ⟨b, o, h, w, rfl⟩ : ∃ (b : Fin 8) (o : Fin 6) (h w : Fin 48), j = ix4 b o h w :=
    ⟨j 0, j 1, j 2, j 3, eq_ix4 j⟩
  match o with
  | ⟨0, _⟩ =>
    refine (coarse_piece _ b0 k hs6 hs1 b _ h w fun c => ?_).trans (Eq.symm ?_)
    · exact cat3_apply _ _ 0 b0 (by rfl) 0 (by rfl) b _ 0 c (by rfl)
    · exact cat4_apply _ _ 0 _ (by rfl) 0 (by rfl) b _ 0 h w (by rfl)
  | ⟨1, _⟩ =>
    refine (coarse_piece _ b1 k hs6 hs1 b _ h w fun c => ?_).trans (Eq.symm ?_)
    · exact cat3_apply _ _ 1 b1 (by rfl) 1 (by rfl) b _ 0 c (by rfl)
    · exact cat4_apply _ _ 1 _ (by rfl) 1 (by rfl) b _ 0 h w (by rfl)
  | ⟨2, _⟩ =>
    refine (coarse_piece _ b2 k hs6 hs1 b _ h w fun c => ?_).trans (Eq.symm ?_)
    · exact cat3_apply _ _ 2 b2 (by rfl) 2 (by rfl) b _ 0 c (by rfl)
    · exact cat4_apply _ _ 2 _ (by rfl) 2 (by rfl) b _ 0 h w (by rfl)
  | ⟨3, _⟩ =>
    refine (coarse_piece _ b3 k hs6 hs1 b _ h w fun c => ?_).trans (Eq.symm ?_)
    · exact cat3_apply _ _ 3 b3 (by rfl) 3 (by rfl) b _ 0 c (by rfl)
    · exact cat4_apply _ _ 3 _ (by rfl) 3 (by rfl) b _ 0 h w (by rfl)
  | ⟨4, _⟩ =>
    refine (coarse_piece _ b4 k hs6 hs1 b _ h w fun c => ?_).trans (Eq.symm ?_)
    · exact cat3_apply _ _ 4 b4 (by rfl) 4 (by rfl) b _ 0 c (by rfl)
    · exact cat4_apply _ _ 4 _ (by rfl) 4 (by rfl) b _ 0 h w (by rfl)
  | ⟨5, _⟩ =>
    refine (coarse_piece _ b5 k hs6 hs1 b _ h w fun c => ?_).trans (Eq.symm ?_)
    · exact cat3_apply _ _ 5 b5 (by rfl) 5 (by rfl) b _ 0 c (by rfl)
    · exact cat4_apply _ _ 5 _ (by rfl) 5 (by rfl) b _ 0 h w (by rfl)

end Cert.Matcher

end
-- ==== Proof.Val.RefPieces.lean ====
/-
  The reference program's stages as the specification's arrays, at the ideal values.

  Write `k` for the key reshaped to `[8, 512, 2304]` and `mk` for the mask reshaped to `[8, 2304, 2304]`; neither
  reshape is opened here. A fine bank's product with `k` has the similarity `∑ c, bank[b, mm, c] · k[b, c, n]` at
  `(b, mm, n)`; its maximum over the memory axis `mm`, started from −∞, is the fine score at `(b, n)`; with each
  product entry first multiplied by `mk[b, mm, n]` it is the masked fine score. A coarse bank's product with `k` is
  the array of its one row's similarities. Each stage then reshapes its `[8, 2304]` (fine) or `[8, 1, 2304]` (coarse)
  array to `[8, 1, 48, 48]`: both read row-major position `48 h + w` of batch `b`, so a fine stage is the reshape of
  the specification's `[8, 1, 2304]` fine array. The result joins the ten stages along the channel axis.
-/
import proofs.«143351_j49503793054049_1_alg».proof.Proof.Val.RefRead
import proofs.«143351_j49503793054049_1_alg».proof.Proof.Val.Spec
import Idealize.ShloMosaic.PureOps.Reduce
import Idealize.ShloMosaic.PureOps.Ideal.Laws
import Idealize.ShloMosaic.Lib.Pipeline.Value
import Idealize.ShloMosaic.Lib.ValueIdx

noncomputable section

namespace Cert.ReferenceIdeal.Pieces

open Cert.ReferenceIdeal Cert.ReferenceIdeal.Gen Cert.ReferenceIdeal.ReadP Cert.Matcher
open Idealize.ShloMosaic Idealize.ShloMosaic.ValueIdx Idealize.ShloMosaic.StableHlo

/-! ## Index bookkeeping -/

/-- The fine product's left index at output `(b, mm, n)` and channel `c` is bank entry `(b, mm, c)`. -/
theorem lidx_fine (b : Fin 8) (mm n : Fin 2304) (c : Fin 512) : lidx_main_v2 (ix3 b mm n) c = ix3 b mm c := by
  funext a; match a with | ⟨0, _⟩ => rfl | ⟨1, _⟩ => rfl | ⟨2, _⟩ => rfl

/-- Its right index is key entry `(b, c, n)`. -/
theorem ridx_fine (b : Fin 8) (mm n : Fin 2304) (c : Fin 512) : ridx_main_v2 (ix3 b mm n) c = ix3 b c n := by
  funext a; match a with | ⟨0, _⟩ => rfl | ⟨1, _⟩ => rfl | ⟨2, _⟩ => rfl

/-- The coarse product's left index at output `(b, r, n)` and channel `c` is bank entry `(b, r, c)`. -/
theorem lidx_coarse (b : Fin 8) (r : Fin 1) (n : Fin 2304) (c : Fin 512) : lidx_main_v19 (ix3 b r n) c = ix3 b r c := by
  funext a; match a with | ⟨0, _⟩ => rfl | ⟨1, _⟩ => rfl | ⟨2, _⟩ => rfl

/-- Its right index is key entry `(b, c, n)`. -/
theorem ridx_coarse (b : Fin 8) (r : Fin 1) (n : Fin 2304) (c : Fin 512) : ridx_main_v19 (ix3 b r n) c = ix3 b c n := by
  funext a; match a with | ⟨0, _⟩ => rfl | ⟨1, _⟩ => rfl | ⟨2, _⟩ => rfl

/-! ## The products are the similarities -/

/-- An entry of a fine bank's product with the key is the similarity of that memory row and query. -/
theorem v2_at (x0 : (⟨S8x512x48x48, .f32⟩ : BufTy).Contents (Elt Ideal)) (x : (⟨S8x2304x512, .f32⟩ : BufTy).Contents (Elt Ideal)) (b : Fin 8) (mm n : Fin 2304) :
    val_main_v2 (F := Ideal) x0 x (ix3 b mm n) = sim x (val_main_v0 (F := Ideal) x0) b mm n := by
  rw [val_main_v2_apply]
  show _ = ∑ c : Fin 512, x (ix3 b mm c) * (val_main_v0 (F := Ideal) x0) (ix3 b c n)
  refine Finset.sum_congr rfl fun c _ => ?_
  rw [lidx_fine, ridx_fine]

/-- A coarse bank's product with the key is the array of its one row's similarities. -/
theorem v19_eq (x0 : (⟨S8x512x48x48, .f32⟩ : BufTy).Contents (Elt Ideal)) (x : (⟨S8x1x512, .f32⟩ : BufTy).Contents (Elt Ideal)) :
    val_main_v19 (F := Ideal) x0 x = coarseArr (R := 1) x (val_main_v0 (F := Ideal) x0) := by
  funext i
  obtain ⟨b, r, n, rfl⟩ : ∃ (b : Fin 8) (r : Fin 1) (n : Fin 2304), i = ix3 b r n := ⟨_, _, _, eq_ix3 i⟩
  rw [val_main_v19_apply]
  show _ = ∑ c : Fin 512, x (ix3 b r c) * (val_main_v0 (F := Ideal) x0) (ix3 b c n)
  refine Finset.sum_congr rfl fun c _ => ?_
  rw [lidx_coarse, ridx_coarse]

/-! ## A maximum over the memory axis -/

/-- Dropping the middle axis of `[8, 2304, 2304]` leaves `[8, 2304]`. -/
theorem red : S8x2304x2304.Reduces [1] S8x2304 := by decide

/-- The source index over `(b, n)` with memory coordinate `mm` is `(b, mm, n)`. -/
theorem lift_eq (b : Fin 8) (n mm : Fin 2304) : red.lift (ix2 b n) mm = ix3 b mm n := by
  funext a
  apply Fin.ext
  match a with
  | ⟨0, _⟩ => rfl
  | ⟨1, _⟩ => rfl
  | ⟨2, _⟩ => rfl

/-- The maximum over the memory axis, started from −∞, read at `(b, n)`: the fold of `max` over the 2304 memory rows. -/
theorem reduce_at (y : (⟨S8x2304x2304, .f32⟩ : BufTy).Contents (Elt Ideal)) (b : Fin 8) (n : Fin 2304) :
    Host.reduce FloatOps.maximumf y (constant (F := Ideal) S_ .f32 0xFF800000#32) reducesTo_S8x2304x2304_S8x2304_d1 h_S_ (ix2 b n)
      = (Finset.univ : Finset (Fin 2304)).fold max negInf fun mm => y (ix3 b mm n) := by
  have h1 := Host.reduce_eq_fold_single (s := S8x2304x2304) (t := S8x2304) (a := 1) (α := EReal) (u := S_)
    (FloatOps.maximumf (F := Ideal) (φ := .f32)) y (constant (F := Ideal) S_ .f32 0xFF800000#32)
    reducesTo_S8x2304x2304_S8x2304_d1 red h_S_ (ix2 b n)
  have hf : (y ∘ red.lift (ix2 b n)) = fun mm : Fin 2304 => y (ix3 b mm n) :=
    funext fun mm => congrArg y (lift_eq b n mm)
  rw [hf] at h1
  exact h1

/-- The first fine stage's maximum at `(b, n)` is the fine score. -/
theorem v3_at (x0 : (⟨S8x512x48x48, .f32⟩ : BufTy).Contents (Elt Ideal)) (x : (⟨S8x2304x512, .f32⟩ : BufTy).Contents (Elt Ideal)) (b : Fin 8) (n : Fin 2304) :
    val_main_v3 (F := Ideal) x0 x (ix2 b n) = fineAt x (val_main_v0 (F := Ideal) x0) b n := by
  refine (reduce_at (val_main_v2 (F := Ideal) x0 x) b n).trans ?_
  exact congrArg (fun f : Fin 2304 → EReal => (Finset.univ : Finset (Fin 2304)).fold max negInf f)
    (funext fun mm => v2_at x0 x b mm n)

/-- An entry of the masked product is the similarity times the mask's entry. -/
theorem v10_at (x0 : (⟨S8x512x48x48, .f32⟩ : BufTy).Contents (Elt Ideal)) (x1 : (⟨S8x2304x48x48, .f32⟩ : BufTy).Contents (Elt Ideal)) (x : (⟨S8x2304x512, .f32⟩ : BufTy).Contents (Elt Ideal)) (b : Fin 8) (mm n : Fin 2304) :
    val_main_v10 (F := Ideal) x0 x1 x (ix3 b mm n)
      = sim x (val_main_v0 (F := Ideal) x0) b mm n * (val_main_v1 (F := Ideal) x1) (ix3 b mm n) := by
  rw [val_main_v10_apply]
  show val_main_v9 (F := Ideal) x0 x (ix3 b mm n) * _ = _
  exact congrArg (fun t : EReal => t * (val_main_v1 (F := Ideal) x1) (ix3 b mm n)) (v2_at x0 x b mm n)

/-- The masked stage's maximum at `(b, n)` is the masked fine score. -/
theorem v11_at (x0 : (⟨S8x512x48x48, .f32⟩ : BufTy).Contents (Elt Ideal)) (x1 : (⟨S8x2304x48x48, .f32⟩ : BufTy).Contents (Elt Ideal)) (x : (⟨S8x2304x512, .f32⟩ : BufTy).Contents (Elt Ideal)) (b : Fin 8) (n : Fin 2304) :
    val_main_v11 (F := Ideal) x0 x1 x (ix2 b n)
      = fineMaskAt x (val_main_v0 (F := Ideal) x0) (val_main_v1 (F := Ideal) x1) b n := by
  refine (reduce_at (val_main_v10 (F := Ideal) x0 x1 x) b n).trans ?_
  exact congrArg (fun f : Fin 2304 → EReal => (Finset.univ : Finset (Fin 2304)).fold max negInf f)
    (funext fun mm => v10_at x0 x1 x b mm n)

/-! ## The two reshapes to `[8, 1, 48, 48]` -/

/-- An `[8, 2304]` array and an `[8, 1, 2304]` array that agree entry by entry have the same reshape to
    `[8, 1, 48, 48]`: both read row-major position `48 h + w` of batch `b`. -/
theorem cast_eq (y : S8x2304.Idx → EReal) (z : S8x1x2304.Idx → EReal)
    (hyz : ∀ (b : Fin 8) (n : Fin 2304), y (ix2 b n) = z (ix3 b (0 : Fin 1) n)) :
    shapeCast S8x1x48x48 y shapeCasts_S8x2304_S8x1x48x48 = shapeCast S8x1x48x48 z shapeCasts_S8x1x2304_S8x1x48x48 := by
  funext i
  obtain ⟨b, u, h, w, rfl⟩ : ∃ (b : Fin 8) (u : Fin 1) (h w : Fin 48), i = ix4 b u h w := ⟨_, _, _, _, eq_ix4 i⟩
  have hb := b.isLt
  have hu := u.isLt
  have hh := h.isLt
  have hw := w.isLt
  have e1 := shapeCast_apply y shapeCasts_S8x2304_S8x1x48x48 (ix4 b u h w)
    (ix2 b (⟨h.val * 48 + w.val, by omega⟩ : Fin 2304)) (by
      rewrite [Shape.rowMajor_val_two, Shape.rowMajor_val_four]
      show b.val * 2304 + (h.val * 48 + w.val) = ((b.val * 1 + u.val) * 48 + h.val) * 48 + w.val
      omega)
  have e2 := shapeCast_apply z shapeCasts_S8x1x2304_S8x1x48x48 (ix4 b u h w)
    (ix3 b (0 : Fin 1) (⟨h.val * 48 + w.val, by omega⟩ : Fin 2304)) (by
      rewrite [Shape.rowMajor_val_three, Shape.rowMajor_val_four]
      show (b.val * 1 + 0) * 2304 + (h.val * 48 + w.val) = ((b.val * 1 + u.val) * 48 + h.val) * 48 + w.val
      omega)
  exact e1.trans ((hyz b _).trans e2.symm)

/-! ## The ten stages -/

theorem v4_eq (x0 : (⟨S8x512x48x48, .f32⟩ : BufTy).Contents (Elt Ideal)) (x2 : (⟨S8x2304x512, .f32⟩ : BufTy).Contents (Elt Ideal)) :
    val_main_v4 (F := Ideal) x0 x2
      = shapeCast S8x1x48x48 (fineArr x2 (val_main_v0 x0)) shapeCasts_S8x1x2304_S8x1x48x48 :=
  cast_eq (val_main_v3 (F := Ideal) x0 x2) (fineArr x2 (val_main_v0 x0)) fun b n => v3_at x0 x2 b n

theorem v7_eq (x0 : (⟨S8x512x48x48, .f32⟩ : BufTy).Contents (Elt Ideal)) (x3 : (⟨S8x2304x512, .f32⟩ : BufTy).Contents (Elt Ideal)) :
    val_main_v7 (F := Ideal) x0 x3
      = shapeCast S8x1x48x48 (fineArr x3 (val_main_v0 x0)) shapeCasts_S8x1x2304_S8x1x48x48 :=
  v4_eq x0 x3

theorem v12_eq (x0 : (⟨S8x512x48x48, .f32⟩ : BufTy).Contents (Elt Ideal)) (x1 : (⟨S8x2304x48x48, .f32⟩ : BufTy).Contents (Elt Ideal)) (x4 : (⟨S8x2304x512, .f32⟩ : BufTy).Contents (Elt Ideal)) :
    val_main_v12 (F := Ideal) x0 x1 x4
      = shapeCast S8x1x48x48 (fineMaskArr x4 (val_main_v0 x0) (val_main_v1 x1)) shapeCasts_S8x1x2304_S8x1x48x48 :=
  cast_eq (val_main_v11 (F := Ideal) x0 x1 x4) (fineMaskArr x4 (val_main_v0 x0) (val_main_v1 x1))
    fun b n => v11_at x0 x1 x4 b n

theorem v16_eq (x0 : (⟨S8x512x48x48, .f32⟩ : BufTy).Contents (Elt Ideal)) (x1 : (⟨S8x2304x48x48, .f32⟩ : BufTy).Contents (Elt Ideal)) (x5 : (⟨S8x2304x512, .f32⟩ : BufTy).Contents (Elt Ideal)) :
    val_main_v16 (F := Ideal) x0 x1 x5
      = shapeCast S8x1x48x48 (fineMaskArr x5 (val_main_v0 x0) (val_main_v1 x1)) shapeCasts_S8x1x2304_S8x1x48x48 :=
  v12_eq x0 x1 x5

theorem v20_eq (x0 : (⟨S8x512x48x48, .f32⟩ : BufTy).Contents (Elt Ideal)) (x6 : (⟨S8x1x512, .f32⟩ : BufTy).Contents (Elt Ideal)) :
    val_main_v20 (F := Ideal) x0 x6
      = shapeCast S8x1x48x48 (coarseArr (R := 1) x6 (val_main_v0 x0)) shapeCasts_S8x1x2304_S8x1x48x48 :=
  congrArg (fun v => shapeCast S8x1x48x48 v shapeCasts_S8x1x2304_S8x1x48x48) (v19_eq x0 x6)

theorem v22_eq (x0 : (⟨S8x512x48x48, .f32⟩ : BufTy).Contents (Elt Ideal)) (x7 : (⟨S8x1x512, .f32⟩ : BufTy).Contents (Elt Ideal)) :
    val_main_v22 (F := Ideal) x0 x7
      = shapeCast S8x1x48x48 (coarseArr (R := 1) x7 (val_main_v0 x0)) shapeCasts_S8x1x2304_S8x1x48x48 :=
  v20_eq x0 x7

theorem v24_eq (x0 : (⟨S8x512x48x48, .f32⟩ : BufTy).Contents (Elt Ideal)) (x8 : (⟨S8x1x512, .f32⟩ : BufTy).Contents (Elt Ideal)) :
    val_main_v24 (F := Ideal) x0 x8
      = shapeCast S8x1x48x48 (coarseArr (R := 1) x8 (val_main_v0 x0)) shapeCasts_S8x1x2304_S8x1x48x48 :=
  v20_eq x0 x8

theorem v26_eq (x0 : (⟨S8x512x48x48, .f32⟩ : BufTy).Contents (Elt Ideal)) (x9 : (⟨S8x1x512, .f32⟩ : BufTy).Contents (Elt Ideal)) :
    val_main_v26 (F := Ideal) x0 x9
      = shapeCast S8x1x48x48 (coarseArr (R := 1) x9 (val_main_v0 x0)) shapeCasts_S8x1x2304_S8x1x48x48 :=
  v20_eq x0 x9

theorem v28_eq (x0 : (⟨S8x512x48x48, .f32⟩ : BufTy).Contents (Elt Ideal)) (x10 : (⟨S8x1x512, .f32⟩ : BufTy).Contents (Elt Ideal)) :
    val_main_v28 (F := Ideal) x0 x10
      = shapeCast S8x1x48x48 (coarseArr (R := 1) x10 (val_main_v0 x0)) shapeCasts_S8x1x2304_S8x1x48x48 :=
  v20_eq x0 x10

theorem v30_eq (x0 : (⟨S8x512x48x48, .f32⟩ : BufTy).Contents (Elt Ideal)) (x11 : (⟨S8x1x512, .f32⟩ : BufTy).Contents (Elt Ideal)) :
    val_main_v30 (F := Ideal) x0 x11
      = shapeCast S8x1x48x48 (coarseArr (R := 1) x11 (val_main_v0 x0)) shapeCasts_S8x1x2304_S8x1x48x48 :=
  v20_eq x0 x11

/-! ## The result -/

/-- The reference's result: the ten stages joined along the channel axis, in the program's own grouping
    (two pairs, the pair of pairs, the six coarse rows, then the two groups). -/
theorem result_eq (x0 : (⟨S8x512x48x48, .f32⟩ : BufTy).Contents (Elt Ideal)) (x1 : (⟨S8x2304x48x48, .f32⟩ : BufTy).Contents (Elt Ideal)) (x2 x3 x4 x5 : (⟨S8x2304x512, .f32⟩ : BufTy).Contents (Elt Ideal)) (x6 x7 x8 x9 x10 x11 : (⟨S8x1x512, .f32⟩ : BufTy).Contents (Elt Ideal)) :
    val_main_v32 (F := Ideal) x0 x1 x2 x3 x4 x5 x6 x7 x8 x9 x10 x11 =
      concatenate S8x10x48x48 1
        [⟨S8x4x48x48, concatenate S8x4x48x48 1
            [⟨S8x2x48x48, concatenate S8x2x48x48 1
                [⟨S8x1x48x48, shapeCast S8x1x48x48 (fineArr x2 (val_main_v0 x0)) shapeCasts_S8x1x2304_S8x1x48x48⟩,
                 ⟨S8x1x48x48, shapeCast S8x1x48x48 (fineArr x3 (val_main_v0 x0)) shapeCasts_S8x1x2304_S8x1x48x48⟩]
                concatenates_S8x1x48x48_S8x1x48x48_S8x2x48x48_d1⟩,
             ⟨S8x2x48x48, concatenate S8x2x48x48 1
                [⟨S8x1x48x48, shapeCast S8x1x48x48 (fineMaskArr x4 (val_main_v0 x0) (val_main_v1 x1)) shapeCasts_S8x1x2304_S8x1x48x48⟩,
                 ⟨S8x1x48x48, shapeCast S8x1x48x48 (fineMaskArr x5 (val_main_v0 x0) (val_main_v1 x1)) shapeCasts_S8x1x2304_S8x1x48x48⟩]
                concatenates_S8x1x48x48_S8x1x48x48_S8x2x48x48_d1⟩]
            concatenates_S8x2x48x48_S8x2x48x48_S8x4x48x48_d1⟩,
         ⟨S8x6x48x48, concatenate S8x6x48x48 1
            [⟨S8x1x48x48, shapeCast S8x1x48x48 (coarseArr (R := 1) x6 (val_main_v0 x0)) shapeCasts_S8x1x2304_S8x1x48x48⟩,
             ⟨S8x1x48x48, shapeCast S8x1x48x48 (coarseArr (R := 1) x7 (val_main_v0 x0)) shapeCasts_S8x1x2304_S8x1x48x48⟩,
             ⟨S8x1x48x48, shapeCast S8x1x48x48 (coarseArr (R := 1) x8 (val_main_v0 x0)) shapeCasts_S8x1x2304_S8x1x48x48⟩,
             ⟨S8x1x48x48, shapeCast S8x1x48x48 (coarseArr (R := 1) x9 (val_main_v0 x0)) shapeCasts_S8x1x2304_S8x1x48x48⟩,
             ⟨S8x1x48x48, shapeCast S8x1x48x48 (coarseArr (R := 1) x10 (val_main_v0 x0)) shapeCasts_S8x1x2304_S8x1x48x48⟩,
             ⟨S8x1x48x48, shapeCast S8x1x48x48 (coarseArr (R := 1) x11 (val_main_v0 x0)) shapeCasts_S8x1x2304_S8x1x48x48⟩]
            concatenates_S8x1x48x48_S8x1x48x48_S8x1x48x48_S8x1x48x48_S8x1x48x48_S8x1x48x48_S8x6x48x48_d1⟩]
        concatenates_S8x4x48x48_S8x6x48x48_S8x10x48x48_d1 := by
  unfold val_main_v32 val_main_v18 val_main_v8 val_main_v17 val_main_v31
  rw [v4_eq, v7_eq, v12_eq, v16_eq, v20_eq, v22_eq, v24_eq, v26_eq, v28_eq, v30_eq]

end Cert.ReferenceIdeal.Pieces

end
-- ==== Proof.Val.Payload.lean ====
/-
  What each kernel body stores, read at one index, over the extended reals.

  Every body is the same chain. The two loaded blocks lose their leading unit axis (a shape cast: the block at
  `(0, r, c)` is read at `(r, c)`), are narrowed to bf16 (the identity on extended reals) and multiplied as matrices
  into a zero accumulator, so the product at `(mm, q)` is the channel sum `∑ c, bank[0, mm, c] · key[0, c, q]`.
  A coarse body stores that product with the unit axis put back. A fine body takes, for each column `q`, the
  maximum of the column over the 2304 rows, started from −∞ (the fold of `max` over the row coordinate), and stores
  the row of maxima under two unit axes; a masked fine body multiplies the product by the mask's block, element by
  element, before the maximum.
-/
import proofs.«143351_j49503793054049_1_alg».proof.Proof.Gen.KernelIdeal.Skeleton
import proofs.«143351_j49503793054049_1_alg».proof.Proof.Val.Spec
import Idealize.ShloMosaic.PureOps.Ideal.Laws
import Idealize.ShloMosaic.Lib.ValueIdx
import Idealize.ShloMosaic.Lib.Pipeline.Value

noncomputable section

namespace Cert.KernelIdeal.Pay

open Cert.KernelIdeal Cert.KernelIdeal.Gen Cert.Matcher Idealize.ShloMosaic Idealize.ShloMosaic.ValueIdx

/-! ## The two matrix products' operand indices, axis by axis

At output index `i` and contraction index `k`, the left operand is read at `(i 0, k)` and the right at `(k, i 1)`. -/

theorem lhs_fine_0 (i : S2304x256.Idx) (k : dot_S2304x512_S512x256_S2304x256_1_0_0_1_n_n.contr.Idx) :
    (dot_S2304x512_S512x256_S2304x256_1_0_0_1_n_n.lhsIdx i k 0).val = (i 0).val := by
  unfold DotDims.lhsIdx
  rw [dif_neg (show ¬(0 : Fin S2304x512.rank) ∈ dot_S2304x512_S512x256_S2304x256_1_0_0_1_n_n.lhsBatch by decide), dif_pos (show (0 : Fin S2304x512.rank) ∈ dot_S2304x512_S512x256_S2304x256_1_0_0_1_n_n.lhsNonContracting by decide)]
  rfl
theorem lhs_fine_1 (i : S2304x256.Idx) (k : dot_S2304x512_S512x256_S2304x256_1_0_0_1_n_n.contr.Idx) :
    (dot_S2304x512_S512x256_S2304x256_1_0_0_1_n_n.lhsIdx i k 1).val = (k ⟨0, by decide⟩).val :=
  dot_S2304x512_S512x256_S2304x256_1_0_0_1_n_n.lhsIdx_val_of_single rfl i k
theorem rhs_fine_0 (i : S2304x256.Idx) (k : dot_S2304x512_S512x256_S2304x256_1_0_0_1_n_n.contr.Idx) :
    (dot_S2304x512_S512x256_S2304x256_1_0_0_1_n_n.rhsIdx i k 0).val = (k ⟨0, by decide⟩).val :=
  dot_S2304x512_S512x256_S2304x256_1_0_0_1_n_n.rhsIdx_val_of_single rfl i k
theorem rhs_fine_1 (i : S2304x256.Idx) (k : dot_S2304x512_S512x256_S2304x256_1_0_0_1_n_n.contr.Idx) :
    (dot_S2304x512_S512x256_S2304x256_1_0_0_1_n_n.rhsIdx i k 1).val = (i 1).val := by
  unfold DotDims.rhsIdx
  rw [dif_neg (show ¬(1 : Fin S512x256.rank) ∈ dot_S2304x512_S512x256_S2304x256_1_0_0_1_n_n.rhsBatch by decide), dif_pos (show (1 : Fin S512x256.rank) ∈ dot_S2304x512_S512x256_S2304x256_1_0_0_1_n_n.rhsNonContracting by decide)]
  rfl

theorem lhs_coarse_0 (i : S6x256.Idx) (k : dot_S6x512_S512x256_S6x256_1_0_0_1_n_n.contr.Idx) :
    (dot_S6x512_S512x256_S6x256_1_0_0_1_n_n.lhsIdx i k 0).val = (i 0).val := by
  unfold DotDims.lhsIdx
  rw [dif_neg (show ¬(0 : Fin S6x512.rank) ∈ dot_S6x512_S512x256_S6x256_1_0_0_1_n_n.lhsBatch by decide), dif_pos (show (0 : Fin S6x512.rank) ∈ dot_S6x512_S512x256_S6x256_1_0_0_1_n_n.lhsNonContracting by decide)]
  rfl
theorem lhs_coarse_1 (i : S6x256.Idx) (k : dot_S6x512_S512x256_S6x256_1_0_0_1_n_n.contr.Idx) :
    (dot_S6x512_S512x256_S6x256_1_0_0_1_n_n.lhsIdx i k 1).val = (k ⟨0, by decide⟩).val :=
  dot_S6x512_S512x256_S6x256_1_0_0_1_n_n.lhsIdx_val_of_single rfl i k
theorem rhs_coarse_0 (i : S6x256.Idx) (k : dot_S6x512_S512x256_S6x256_1_0_0_1_n_n.contr.Idx) :
    (dot_S6x512_S512x256_S6x256_1_0_0_1_n_n.rhsIdx i k 0).val = (k ⟨0, by decide⟩).val :=
  dot_S6x512_S512x256_S6x256_1_0_0_1_n_n.rhsIdx_val_of_single rfl i k
theorem rhs_coarse_1 (i : S6x256.Idx) (k : dot_S6x512_S512x256_S6x256_1_0_0_1_n_n.contr.Idx) :
    (dot_S6x512_S512x256_S6x256_1_0_0_1_n_n.rhsIdx i k 1).val = (i 1).val := by
  unfold DotDims.rhsIdx
  rw [dif_neg (show ¬(1 : Fin S512x256.rank) ∈ dot_S6x512_S512x256_S6x256_1_0_0_1_n_n.rhsBatch by decide), dif_pos (show (1 : Fin S512x256.rank) ∈ dot_S6x512_S512x256_S6x256_1_0_0_1_n_n.rhsNonContracting by decide)]
  rfl

/-! ## A product into the zero accumulator is the channel sum -/

/-- The `[2304, 512] × [512, 256]` product at `(mm, q)`: the sum over the 512 channels. -/
theorem matmul_fine_apply {φ₁ φ₂ : FTy} (a : FVec Ideal S2304x512 φ₁) (b : FVec Ideal S512x256 φ₂) (mm : Fin 2304) (q : Fin 256) :
    matmul dot_S2304x512_S512x256_S2304x256_1_0_0_1_n_n none a b (constant (F := Ideal) S2304x256 .f32 0x00000000#32) (ix2 mm q)
      = ∑ c : Fin 512, a (ix2 mm c) * b (ix2 c q) := by
  simp only [matmul]
  rw [Ideal.matmul_constant_zero_apply, ← Equiv.sum_comp (contrEquiv1 dot_S2304x512_S512x256_S2304x256_1_0_0_1_n_n 512 rfl rfl).symm]
  refine Finset.sum_congr rfl fun c _ => ?_
  have hc := contrEquiv1_symm_val dot_S2304x512_S512x256_S2304x256_1_0_0_1_n_n 512 rfl rfl c
  have el : dot_S2304x512_S512x256_S2304x256_1_0_0_1_n_n.lhsIdx (ix2 mm q) ((contrEquiv1 dot_S2304x512_S512x256_S2304x256_1_0_0_1_n_n 512 rfl rfl).symm c) = ix2 mm c := funext fun x => Fin.ext (by
    match x with
    | ⟨0, _⟩ => exact lhs_fine_0 _ _
    | ⟨1, _⟩ => exact (lhs_fine_1 _ _).trans hc)
  have er : dot_S2304x512_S512x256_S2304x256_1_0_0_1_n_n.rhsIdx (ix2 mm q) ((contrEquiv1 dot_S2304x512_S512x256_S2304x256_1_0_0_1_n_n 512 rfl rfl).symm c) = ix2 c q := funext fun x => Fin.ext (by
    match x with
    | ⟨0, _⟩ => exact (rhs_fine_0 _ _).trans hc
    | ⟨1, _⟩ => exact rhs_fine_1 _ _)
  rw [el, er]

/-- The `[6, 512] × [512, 256]` product at `(o, q)`: the sum over the 512 channels. -/
theorem matmul_coarse_apply {φ₁ φ₂ : FTy} (a : FVec Ideal S6x512 φ₁) (b : FVec Ideal S512x256 φ₂) (o : Fin 6) (q : Fin 256) :
    matmul dot_S6x512_S512x256_S6x256_1_0_0_1_n_n none a b (constant (F := Ideal) S6x256 .f32 0x00000000#32) (ix2 o q)
      = ∑ c : Fin 512, a (ix2 o c) * b (ix2 c q) := by
  simp only [matmul]
  rw [Ideal.matmul_constant_zero_apply, ← Equiv.sum_comp (contrEquiv1 dot_S6x512_S512x256_S6x256_1_0_0_1_n_n 512 rfl rfl).symm]
  refine Finset.sum_congr rfl fun c _ => ?_
  have hc := contrEquiv1_symm_val dot_S6x512_S512x256_S6x256_1_0_0_1_n_n 512 rfl rfl c
  have el : dot_S6x512_S512x256_S6x256_1_0_0_1_n_n.lhsIdx (ix2 o q) ((contrEquiv1 dot_S6x512_S512x256_S6x256_1_0_0_1_n_n 512 rfl rfl).symm c) = ix2 o c := funext fun x => Fin.ext (by
    match x with
    | ⟨0, _⟩ => exact lhs_coarse_0 _ _
    | ⟨1, _⟩ => exact (lhs_coarse_1 _ _).trans hc)
  have er : dot_S6x512_S512x256_S6x256_1_0_0_1_n_n.rhsIdx (ix2 o q) ((contrEquiv1 dot_S6x512_S512x256_S6x256_1_0_0_1_n_n 512 rfl rfl).symm c) = ix2 c q := funext fun x => Fin.ext (by
    match x with
    | ⟨0, _⟩ => exact (rhs_coarse_0 _ _).trans hc
    | ⟨1, _⟩ => exact rhs_coarse_1 _ _)
  rw [el, er]

/-! ## The unit-axis shape casts, read at coordinates

A shape cast keeps the row-major position; dropping or adding a leading axis of extent one does not move it. -/

/-- A `[1, A, B]` block viewed as `[A, B]`: `(r, c)` reads `(0, r, c)`. -/
theorem dropUnit3 {α : Type} {A B : Nat} (v : (⟨3, ![1, A, B]⟩ : Shape).Idx → α)
    (h : (⟨3, ![1, A, B]⟩ : Shape).ShapeCasts ⟨2, ![A, B]⟩) (r : Fin A) (c : Fin B) :
    shapeCast ⟨2, ![A, B]⟩ v h (ix2 r c) = v (ix3 0 r c) :=
  shapeCast_apply v h (ix2 r c) (ix3 0 r c) (by
    rewrite [Shape.rowMajor_val_three, Shape.rowMajor_val_two]
    show (0 * A + r.val) * B + c.val = r.val * B + c.val
    rw [Nat.zero_mul, Nat.zero_add])

/-- An `[A, B]` value stored as a `[1, A, B]` block: `(0, r, c)` reads `(r, c)`. -/
theorem addUnit3 {α : Type} {A B : Nat} (v : (⟨2, ![A, B]⟩ : Shape).Idx → α)
    (h : (⟨2, ![A, B]⟩ : Shape).ShapeCasts ⟨3, ![1, A, B]⟩) (r : Fin A) (c : Fin B) :
    shapeCast ⟨3, ![1, A, B]⟩ v h (ix3 0 r c) = v (ix2 r c) :=
  shapeCast_apply v h (ix3 0 r c) (ix2 r c) (by
    rewrite [Shape.rowMajor_val_three, Shape.rowMajor_val_two]
    show r.val * B + c.val = (0 * A + r.val) * B + c.val
    rw [Nat.zero_mul, Nat.zero_add])

/-- A `[B]` row viewed as `[1, B]`: `(0, c)` reads `c`. -/
theorem addUnit2 {α : Type} {B : Nat} (v : (⟨1, ![B]⟩ : Shape).Idx → α)
    (h : (⟨1, ![B]⟩ : Shape).ShapeCasts ⟨2, ![1, B]⟩) (c : Fin B) :
    shapeCast ⟨2, ![1, B]⟩ v h (ix2 0 c) = v (ix1 c) :=
  shapeCast_apply v h (ix2 0 c) (ix1 c) (by
    rewrite [Shape.rowMajor_val_one, Shape.rowMajor_val_two]
    show c.val = 0 * B + c.val
    rw [Nat.zero_mul, Nat.zero_add])

/-! ## The maximum over the rows -/

/-- A column's maximum over the 2304 rows from −∞: the fold of `max` over the row coordinate. -/
theorem colmax_apply (x : FVec Ideal S2304x256 .f32) (q : Fin 256) :
    multiReduction (F := Ideal) .maximumf [0] S256 x 0xFF800000#32 reduces_S2304x256_S256 (.inl rfl) rfl (ix1 q)
      = (Finset.univ : Finset (Fin 2304)).fold max negInf fun mm => x (ix2 mm q) := by
  refine (Ideal.multiReduction_maximumf_single x _ reduces_S2304x256_S256 _ _ (ix1 q)).trans ?_
  have e : ∀ mm : Fin 2304, reduces_S2304x256_S256.lift (ix1 q) mm = ix2 mm q := fun mm =>
    funext fun a => Fin.ext (by match a with | ⟨0, _⟩ => rfl | ⟨1, _⟩ => rfl)
  exact congrArg (fun f => (Finset.univ : Finset (Fin 2304)).fold max negInf f) (funext fun mm => congrArg x (e mm))

/-! ## The stored values -/

/-- The narrowed, unit-axis-dropped blocks' product at `(r, q)` is the channel sum of the blocks themselves. -/
theorem prod_fine (v0 : Vec Ideal S1x2304x512 .f32) (v3 : Vec Ideal S1x512x256 .f32) (mm : Fin 2304) (q : Fin 256) :
    matmul dot_S2304x512_S512x256_S2304x256_1_0_0_1_n_n none
        (truncf .bf16 (shapeCast S2304x512 v0 shapeCasts_S1x2304x512_S2304x512) bitsLt_bf16_f32)
        (truncf .bf16 (shapeCast S512x256 v3 shapeCasts_S1x512x256_S512x256) bitsLt_bf16_f32)
        (constant (F := Ideal) S2304x256 .f32 0x00000000#32) (ix2 mm q)
      = ∑ c : Fin 512, v0 (ix3 0 mm c) * v3 (ix3 0 c q) := by
  refine (matmul_fine_apply _ _ mm q).trans ?_
  refine Finset.sum_congr rfl fun c _ => ?_
  rw [truncf_apply, truncf_apply]
  exact congrArg₂ (· * ·) (dropUnit3 v0 _ mm c) (dropUnit3 v3 _ c q)

theorem k0_pay1_apply (v0 : Vec Ideal S1x2304x512 .f32) (v3 : Vec Ideal S1x512x256 .f32) (q : Fin 256) :
    k0_pay1 (F := Ideal) v0 v3 (ix3 0 0 q)
      = (Finset.univ : Finset (Fin 2304)).fold max negInf fun mm => ∑ c : Fin 512, v0 (ix3 0 mm c) * v3 (ix3 0 c q) := by
  unfold k0_pay1
  refine (addUnit3 _ _ 0 q).trans ?_
  refine (addUnit2 _ _ q).trans ?_
  refine (colmax_apply _ q).trans ?_
  exact congrArg (fun f => (Finset.univ : Finset (Fin 2304)).fold max negInf f) (funext fun mm => prod_fine v0 v3 mm q)

theorem k1_pay1_apply (v0 : Vec Ideal S1x2304x512 .f32) (v3 : Vec Ideal S1x512x256 .f32) (q : Fin 256) :
    k1_pay1 (F := Ideal) v0 v3 (ix3 0 0 q)
      = (Finset.univ : Finset (Fin 2304)).fold max negInf fun mm => ∑ c : Fin 512, v0 (ix3 0 mm c) * v3 (ix3 0 c q) := by
  unfold k1_pay1
  refine (addUnit3 _ _ 0 q).trans ?_
  refine (addUnit2 _ _ q).trans ?_
  refine (colmax_apply _ q).trans ?_
  exact congrArg (fun f => (Finset.univ : Finset (Fin 2304)).fold max negInf f) (funext fun mm => prod_fine v0 v3 mm q)

theorem k2_pay1_apply (v0 : Vec Ideal S1x2304x512 .f32) (v3 : Vec Ideal S1x512x256 .f32) (v7 : Vec Ideal S1x2304x256 .f32)
    (q : Fin 256) :
    k2_pay1 (F := Ideal) v0 v3 v7 (ix3 0 0 q)
      = (Finset.univ : Finset (Fin 2304)).fold max negInf fun mm =>
          (∑ c : Fin 512, v0 (ix3 0 mm c) * v3 (ix3 0 c q)) * v7 (ix3 0 mm q) := by
  unfold k2_pay1
  refine (addUnit3 _ _ 0 q).trans ?_
  refine (addUnit2 _ _ q).trans ?_
  refine (colmax_apply _ q).trans ?_
  refine congrArg (fun f => (Finset.univ : Finset (Fin 2304)).fold max negInf f) (funext fun mm => ?_)
  rw [mulf_apply]
  exact congrArg₂ (· * ·) (prod_fine v0 v3 mm q) (dropUnit3 v7 _ mm q)

theorem k3_pay1_apply (v0 : Vec Ideal S1x2304x512 .f32) (v3 : Vec Ideal S1x512x256 .f32) (v7 : Vec Ideal S1x2304x256 .f32)
    (q : Fin 256) :
    k3_pay1 (F := Ideal) v0 v3 v7 (ix3 0 0 q)
      = (Finset.univ : Finset (Fin 2304)).fold max negInf fun mm =>
          (∑ c : Fin 512, v0 (ix3 0 mm c) * v3 (ix3 0 c q)) * v7 (ix3 0 mm q) := by
  unfold k3_pay1
  refine (addUnit3 _ _ 0 q).trans ?_
  refine (addUnit2 _ _ q).trans ?_
  refine (colmax_apply _ q).trans ?_
  refine congrArg (fun f => (Finset.univ : Finset (Fin 2304)).fold max negInf f) (funext fun mm => ?_)
  rw [mulf_apply]
  exact congrArg₂ (· * ·) (prod_fine v0 v3 mm q) (dropUnit3 v7 _ mm q)

theorem k4_pay1_apply (v0 : Vec Ideal S1x6x512 .f32) (v3 : Vec Ideal S1x512x256 .f32) (o : Fin 6) (q : Fin 256) :
    k4_pay1 (F := Ideal) v0 v3 (ix3 0 o q) = ∑ c : Fin 512, v0 (ix3 0 o c) * v3 (ix3 0 c q) := by
  unfold k4_pay1
  refine (addUnit3 _ _ o q).trans ?_
  refine (matmul_coarse_apply _ _ o q).trans ?_
  refine Finset.sum_congr rfl fun c _ => ?_
  rw [truncf_apply, truncf_apply]
  exact congrArg₂ (· * ·) (dropUnit3 v0 _ o c) (dropUnit3 v3 _ c q)

end Cert.KernelIdeal.Pay

end
-- ==== Proof.Val.Final0.lean ====
/-
  Region 0's output array after its 72 grid points, over the extended reals, as one function of the arrays the
  region is entered with.

  The grid is 8 batches by 9 query tiles of 256; point `t` is batch `t / 9`, tile `t % 9`. There the body is handed
  batch `t / 9`'s whole bank (2304 memory rows by 512 channels), the 256 query columns `256 (t % 9) …` of that batch's
  flattened key, and it leaves in the output's buffer, for each of the 256 queries, the largest over the memory rows
  of the channel sum of bank row times key column, from −∞: the fine score of that batch and query. The write-back
  puts the 256 scores at row `t / 9`, columns `256 (t % 9) …` of the output. So what each point writes back is its
  block of ONE array, the fine score of the bank against the key; the 72 blocks tile the output (batch `b`, query
  `n` lies in the block of point `9 b + n / 256`); hence the output ends holding the fine score everywhere.
-/
import proofs.«143351_j49503793054049_1_alg».proof.Proof.KI.Region0
import proofs.«143351_j49503793054049_1_alg».proof.Proof.Val.Spec
import proofs.«143351_j49503793054049_1_alg».proof.Proof.Val.Payload
import Idealize.ShloMosaic.Lib.Pipeline.Value
import Idealize.ShloMosaic.Lib.ValueIdx
import Idealize.ShloMosaic.Lib.ValueLayout

set_option maxRecDepth 16384

noncomputable section

namespace Cert.KernelIdeal.Fin

open Cert.KernelIdeal Cert.KernelIdeal.Gen Cert.KernelIdeal.Fr Cert.Matcher
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The grid and the index maps -/

/-- The grid has 8 x 9 = 72 points. -/
private theorem lt72 (t : Fin cfg0.N) : t.val < 72 :=
  Nat.lt_of_lt_of_eq t.isLt (by decide +kernel : cfg0.N = 72)

/-- The index maps, decided over the grid: at point `t` the bank's block is batch `t / 9`'s, the key's block is that
    batch's query tile `t % 9`, and the output's block is row `t / 9`, tile `t % 9`. -/
theorem idx_facts0 : ∀ t : Fin cfg0.N,
    win0_0.index t (0 : Fin 3) = t.val / 9 ∧ win0_0.index t (1 : Fin 3) = 0 ∧ win0_0.index t (2 : Fin 3) = 0
    ∧ win0_1.index t (0 : Fin 3) = t.val / 9 ∧ win0_1.index t (1 : Fin 3) = 0 ∧ win0_1.index t (2 : Fin 3) = t.val % 9
    ∧ win0_2.index t (0 : Fin 3) = t.val / 9 ∧ win0_2.index t (1 : Fin 3) = 0 ∧ win0_2.index t (2 : Fin 3) = t.val % 9 :=
  (by decide +kernel : ∀ t : Fin grid0.N, _)

/-! ## Each window's block read where it sits in its array

A block's coordinate in the array is, on each axis, the block index times the block's size plus the coordinate
inside the block. -/

/-- The bank's block at point `t` is batch `t / 9`'s bank. -/
theorem read0_0 (A : S8x2304x512.Idx → EReal) (t : Fin cfg0.N) (mm : Fin 2304) (ch : Fin 512) :
    (((cfg0.win 0).blk t).view.read (Elt Ideal) A : S1x2304x512.Idx → EReal) (ix3 0 mm ch)
      = A (ix3 ⟨t.val / 9, by have := lt72 t; omega⟩ mm ch) := by
  obtain ⟨e0, e1, e2, -⟩ := idx_facts0 t
  show A (((cfg0.win 0).blk t).view.emb (ix3 0 mm ch)) = _
  refine congrArg A ?_
  funext a; apply Fin.ext
  match a with
  | ⟨0, _⟩ => show win0_0.index t (0 : Fin 3) * 1 + 1 * (0 : Fin 1).val = t.val / 9; rw [e0]; simp
  | ⟨1, _⟩ => show win0_0.index t (1 : Fin 3) * 2304 + 1 * mm.val = mm.val; omega
  | ⟨2, _⟩ => show win0_0.index t (2 : Fin 3) * 512 + 1 * ch.val = ch.val; omega

/-- The key's block at point `t` is batch `t / 9`'s key at the 256 query columns of tile `t % 9`. -/
theorem read0_1 (A : S8x512x2304.Idx → EReal) (t : Fin cfg0.N) (ch : Fin 512) (q : Fin 256) :
    (((cfg0.win 1).blk t).view.read (Elt Ideal) A : S1x512x256.Idx → EReal) (ix3 0 ch q)
      = A (ix3 ⟨t.val / 9, by have := lt72 t; omega⟩ ch ⟨t.val % 9 * 256 + q.val, by have := q.isLt; omega⟩) := by
  obtain ⟨-, -, -, e0, e1, e2, -⟩ := idx_facts0 t
  show A (((cfg0.win 1).blk t).view.emb (ix3 0 ch q)) = _
  refine congrArg A ?_
  funext a; apply Fin.ext
  match a with
  | ⟨0, _⟩ => show win0_1.index t (0 : Fin 3) * 1 + 1 * (0 : Fin 1).val = t.val / 9; rw [e0]; simp
  | ⟨1, _⟩ => show win0_1.index t (1 : Fin 3) * 512 + 1 * ch.val = ch.val; omega
  | ⟨2, _⟩ => show win0_1.index t (2 : Fin 3) * 256 + 1 * q.val = t.val % 9 * 256 + q.val; omega

/-- The output's block at point `t` is row `t / 9` at the 256 columns of tile `t % 9`. -/
theorem read0_2 (G : S8x1x2304.Idx → EReal) (t : Fin cfg0.N) (q : Fin 256) :
    (((cfg0.win 2).blk t).view.read (Elt Ideal) G : S1x1x256.Idx → EReal) (ix3 0 0 q)
      = G (ix3 ⟨t.val / 9, by have := lt72 t; omega⟩ 0 ⟨t.val % 9 * 256 + q.val, by have := q.isLt; omega⟩) := by
  obtain ⟨-, -, -, -, -, -, e0, e1, e2⟩ := idx_facts0 t
  show G (((cfg0.win 2).blk t).view.emb (ix3 0 0 q)) = _
  refine congrArg G ?_
  funext a; apply Fin.ext
  match a with
  | ⟨0, _⟩ => show win0_2.index t (0 : Fin 3) * 1 + 1 * (0 : Fin 1).val = t.val / 9; rw [e0]; simp
  | ⟨1, _⟩ => show win0_2.index t (1 : Fin 3) * 1 + 1 * (0 : Fin 1).val = (0 : Fin 1).val; rw [e1]; simp
  | ⟨2, _⟩ => show win0_2.index t (2 : Fin 3) * 256 + 1 * q.val = t.val % 9 * 256 + q.val; omega

/-! ## What a point stores, as a block of the fine score -/

/-- One stored entry: if the bank's block is batch `b`'s bank and the key's block is that batch's key from column
    `n0` on, the maximum over the memory rows of the channel sums is the fine score of batch `b` at query `n0 + q`. -/
private theorem pay_point (A0 : S8x2304x512.Idx → EReal) (A1 : S8x512x2304.Idx → EReal)
    (x0 : Vec Ideal S1x2304x512 .f32) (x1 : Vec Ideal S1x512x256 .f32) (b : Fin 8) (n0 : Nat) (hn : n0 + 256 ≤ 2304)
    (h0 : ∀ (mm : Fin 2304) (ch : Fin 512), x0 (ix3 0 mm ch) = A0 (ix3 b mm ch))
    (h1 : ∀ (ch : Fin 512) (q : Fin 256), x1 (ix3 0 ch q) = A1 (ix3 b ch ⟨n0 + q.val, by have := q.isLt; omega⟩))
    (q : Fin 256) :
    k0_pay1 (F := Ideal) x0 x1 (ix3 0 0 q) = fineArr A0 A1 (ix3 b 0 ⟨n0 + q.val, by have := q.isLt; omega⟩) := by
  refine (Pay.k0_pay1_apply x0 x1 q).trans ?_
  show _ = (Finset.univ : Finset (Fin 2304)).fold max negInf fun mm =>
    ∑ ch : Fin 512, A0 (ix3 b mm ch) * A1 (ix3 b ch ⟨n0 + q.val, by have := q.isLt; omega⟩)
  simp only [h0, h1]

/-- The payload at point `t`, of blocks that are the point's blocks of a bank `A0` and a key `A1`, is the point's block
    of the fine score of `A0` against `A1`. -/
theorem payAt0 (A0 : S8x2304x512.Idx → EReal) (A1 : S8x512x2304.Idx → EReal) (t : Fin cfg0.N)
    (x0 : Vec Ideal S1x2304x512 .f32) (x1 : Vec Ideal S1x512x256 .f32)
    (h0 : ∀ (mm : Fin 2304) (ch : Fin 512), x0 (ix3 0 mm ch) = A0 (ix3 ⟨t.val / 9, by have := lt72 t; omega⟩ mm ch))
    (h1 : ∀ (ch : Fin 512) (q : Fin 256), x1 (ix3 0 ch q)
      = A1 (ix3 ⟨t.val / 9, by have := lt72 t; omega⟩ ch ⟨t.val % 9 * 256 + q.val, by have := q.isLt; omega⟩)) :
    (k0_pay1 (F := Ideal) x0 x1 : S1x1x256.Idx → EReal)
      = ((cfg0.win 2).blk t).view.read (Elt Ideal) (fineArr A0 A1 : S8x1x2304.Idx → EReal) := by
  funext j
  obtain ⟨q, rfl⟩ : ∃ q : Fin 256, j = ix3 (0 : Fin 1) (0 : Fin 1) q := ⟨j 2, by
    funext a
    match a with
    | ⟨0, _⟩ => exact Fin.ext (by have : (j 0).val < 1 := (j 0).isLt; show (j 0).val = 0; omega)
    | ⟨1, _⟩ => exact Fin.ext (by have : (j 1).val < 1 := (j 1).isLt; show (j 1).val = 0; omega)
    | ⟨2, _⟩ => rfl⟩
  exact (pay_point A0 A1 x0 x1 ⟨t.val / 9, by have := lt72 t; omega⟩ (t.val % 9 * 256) (by omega) h0 h1 q).trans
    (read0_2 (fineArr A0 A1) t q).symm

/-- WHAT POINT `t` WRITES BACK is its block of the fine score of the bank against the key, as the region finds them. -/
theorem flushed0 (c : Dev nD) (t : Fin cfg0.N) :
    (dat0 (F := Ideal) V c).flushed 2 t
      = ((cfg0.win 2).blk t).view.read (Elt Ideal)
          (fineArr (V c (Pipeline.arrRef spec0 0)) (V c (Pipeline.arrRef spec0 1)) : S8x1x2304.Idx → EReal) := by
  have hz : (![0, 0, 0] : Fin 3 → Nat) = fun _ => 0 := funext fun a => by fin_cases a <;> rfl
  show (cfg0.win 2).cut (cfg0.grid.coords t) ((dat0 V c).after 2 t) = _
  rw [after0_2]
  unfold out0_2
  rw [View.canon_unit_zero hz]
  simp only [View.ld_unit_zero (S := S1x2304x512) hz, View.ld_unit_zero (S := S1x512x256) hz]
  exact payAt0 (V c (Pipeline.arrRef spec0 0)) (V c (Pipeline.arrRef spec0 1)) t (iblk0 V c 0 t) (iblk0 V c 1 t)
    (fun mm ch => read0_0 (V c (Pipeline.arrRef spec0 0)) t mm ch) (fun ch q => read0_1 (V c (Pipeline.arrRef spec0 1)) t ch q)

/-! ## The blocks tile the output -/

/-- An index of the output is in point `t`'s block iff each coordinate is in the block's range on its axis. -/
theorem mem_blk0_2 (t : Fin cfg0.N) (i : S8x1x2304.Idx) :
    i ∈ ((cfg0.win 2).blk t).view.set ↔ ∀ a : Fin 3, win0_2.index t a * S1x1x256.size a ≤ (i a).val
      ∧ (i a).val < win0_2.index t a * S1x1x256.size a + S1x1x256.size a := by
  show i ∈ ((View.whole (Pipeline.arrRef spec0 2)).slice (win0_2.rect t)).set ↔ _
  rw [View.set_slice_whole, Rect.mem_set_unit]
  exact Iff.rfl

/-- Batch `b`, query `n` is written by point `9 b + n / 256`. -/
theorem hcover0 (i : S8x1x2304.Idx) :
    ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 2304 := (i 2).isLt
  have hN : (i 0).val * 9 + (i 2).val / 256 < cfg0.N :=
    Nat.lt_of_lt_of_eq (show (i 0).val * 9 + (i 2).val / 256 < 72 by omega) (by decide +kernel : 72 = cfg0.N)
  obtain ⟨-, -, -, -, -, -, e0, e1, e2⟩ := idx_facts0 ⟨(i 0).val * 9 + (i 2).val / 256, hN⟩
  refine ⟨⟨(i 0).val * 9 + (i 2).val / 256, hN⟩, flush0_2 _, ?_⟩
  rw [mem_blk0_2]
  intro a
  match a with
  | ⟨0, _⟩ =>
    show win0_2.index ⟨(i 0).val * 9 + (i 2).val / 256, hN⟩ (0 : Fin 3) * 1 ≤ (i 0).val
      ∧ (i 0).val < win0_2.index ⟨(i 0).val * 9 + (i 2).val / 256, hN⟩ (0 : Fin 3) * 1 + 1
    rw [e0]; show ((i 0).val * 9 + (i 2).val / 256) / 9 * 1 ≤ _ ∧ _ < ((i 0).val * 9 + (i 2).val / 256) / 9 * 1 + 1; omega
  | ⟨1, _⟩ =>
    show win0_2.index ⟨(i 0).val * 9 + (i 2).val / 256, hN⟩ (1 : Fin 3) * 1 ≤ (i 1).val
      ∧ (i 1).val < win0_2.index ⟨(i 0).val * 9 + (i 2).val / 256, hN⟩ (1 : Fin 3) * 1 + 1
    rw [e1]; omega
  | ⟨2, _⟩ =>
    show win0_2.index ⟨(i 0).val * 9 + (i 2).val / 256, hN⟩ (2 : Fin 3) * 256 ≤ (i 2).val
      ∧ (i 2).val < win0_2.index ⟨(i 0).val * 9 + (i 2).val / 256, hN⟩ (2 : Fin 3) * 256 + 256
    rw [e2]; show ((i 0).val * 9 + (i 2).val / 256) % 9 * 256 ≤ _ ∧ _ < ((i 0).val * 9 + (i 2).val / 256) % 9 * 256 + 256; omega

/-! ## The array after the run -/

/-- THE OUTPUT after the region's 72 points: the fine score of the bank against the flattened key, one row per
    batch. (Every point writes back its block of that one array, and the blocks tile the output.) -/
theorem final0 (c : Dev nD) :
    (dat0 (F := Ideal) V c).arrAt 2 cfg0.N = (fineArr (V c main_arg2) (V c main_v0) : S8x1x2304.Idx → EReal) := by
  show _ = (fineArr (V c (Pipeline.arrRef spec0 0)) (V c (Pipeline.arrRef spec0 1)) : S8x1x2304.Idx → EReal)
  exact (dat0 (F := Ideal) V c).arrAt_eq_of_cover 2 _ (fun t _ => flushed0 V c t) hcover0

end Cert.KernelIdeal.Fin

end
-- ==== Proof.Val.Final2.lean ====
/-
  Region 2's output array after its 72 grid points, at the ideal instance, as one function of the arrays the
  region is entered with: the masked fine score of the bank against the flattened key and the flattened mask,
  one row per batch.

  The grid is 8 batches by 9 query tiles of 256 columns; point `t` is batch `t / 9` and tile `t % 9`. At a point the
  body stores, for each of the tile's 256 queries, the maximum over the 2304 memory rows of the channel sum of the
  bank's block and the key's block times the mask block's entry. The bank's block is the batch's whole bank, the
  key's and the mask's blocks are the batch's 256 columns of the tile, so the stored row is the masked fine score
  of the batch at those 256 queries: block `t` of the one whole-array function. Every index `(b, 0, n)` of the
  output lies in the block of the point `b * 9 + n / 256`, so the blocks cover the array and it ends as that function.
-/
import proofs.«143351_j49503793054049_1_alg».proof.Proof.KI.Region2
import proofs.«143351_j49503793054049_1_alg».proof.Proof.Val.Spec
import proofs.«143351_j49503793054049_1_alg».proof.Proof.Val.Payload
import Idealize.ShloMosaic.Lib.Pipeline.Value
import Idealize.ShloMosaic.Lib.ValueIdx
import Idealize.ShloMosaic.Lib.ValueLayout

set_option maxRecDepth 16384

noncomputable section

namespace Cert.KernelIdeal.Fin

open Cert.KernelIdeal Cert.KernelIdeal.Gen Cert.KernelIdeal.Fr Cert.Matcher Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-! ## Three facts that hold whatever the region -/

/-- The offsets of an access to a whole rank-3 buffer are zero on every axis. -/
private theorem zero3 : (![0, 0, 0] : Fin 3 → Nat) = fun _ => 0 := funext fun a => by fin_cases a <;> rfl

/-- An index of a `[1, 1, n]` block is `(0, 0, q)`. -/
private theorem eq_ix3_unit {n : Nat} (j : (⟨3, ![1, 1, n]⟩ : Shape).Idx) : j = ix3 0 0 (j 2) := by
  funext a
  match a with
  | ⟨0, _⟩ => exact Fin.ext (Nat.lt_one_iff.mp (j 0).isLt)
  | ⟨1, _⟩ => exact Fin.ext (Nat.lt_one_iff.mp (j 1).isLt)
  | ⟨2, _⟩ => rfl

/-- The masked fine score at an index `i = (b, 0, n)`: the maximum over the memory rows of the channel sum of batch `b`'s
    bank row and key column `n`, times the mask's entry for that row and query. -/
private theorem fineMaskArr_apply (bank : S8x2304x512.Idx → EReal) (k : S8x512x2304.Idx → EReal)
    (mask : S8x2304x2304.Idx → EReal) (i : S8x1x2304.Idx) :
    fineMaskArr bank k mask i = (Finset.univ : Finset (Fin 2304)).fold max negInf fun mm =>
      (∑ ch : Fin 512, bank (ix3 (i 0) mm ch) * k (ix3 (i 0) ch (i 2))) * mask (ix3 (i 0) mm (i 2)) := rfl

/-! ## What the body stores, at an index of the output block -/

/-- The stored row at `j = (0, 0, q)`: the maximum over the 2304 rows of the blocks' channel sum times the mask block's
    entry. -/
theorem payAt2 (x0 : Vec Ideal S1x2304x512 .f32) (x1 : Vec Ideal S1x512x256 .f32) (x2 : Vec Ideal S1x2304x256 .f32)
    (j : S1x1x256.Idx) :
    k2_pay1 (F := Ideal) x0 x1 x2 j = (Finset.univ : Finset (Fin 2304)).fold max negInf fun mm =>
      (∑ ch : Fin 512, x0 (ix3 0 mm ch) * x1 (ix3 0 ch (j 2))) * x2 (ix3 0 mm (j 2)) :=
  (congrArg (k2_pay1 (F := Ideal) x0 x1 x2) (eq_ix3_unit j)).trans (Pay.k2_pay1_apply x0 x1 x2 (j 2))

/-! ## The index maps over the grid -/

/-- The index maps on the grid of 8 batches by 9 query tiles: point `t` is batch `t / 9` and query tile `t % 9`; the bank's
    block is the batch's, the key's and the mask's blocks are the batch's at the query tile, like the output's. -/
theorem idx_facts2 : ∀ t : Fin cfg2.N,
    win2_0.index t (0 : Fin 3) = win2_3.index t (0 : Fin 3) ∧ win2_0.index t (1 : Fin 3) = 0 ∧ win2_0.index t (2 : Fin 3) = 0
    ∧ win2_1.index t (0 : Fin 3) = win2_3.index t (0 : Fin 3) ∧ win2_1.index t (1 : Fin 3) = 0
    ∧ win2_1.index t (2 : Fin 3) = win2_3.index t (2 : Fin 3)
    ∧ win2_2.index t (0 : Fin 3) = win2_3.index t (0 : Fin 3) ∧ win2_2.index t (1 : Fin 3) = 0
    ∧ win2_2.index t (2 : Fin 3) = win2_3.index t (2 : Fin 3)
    ∧ win2_3.index t (0 : Fin 3) = t.val / 9 ∧ win2_3.index t (1 : Fin 3) = 0 ∧ win2_3.index t (2 : Fin 3) = t.val % 9 :=
  (by decide +kernel : ∀ t : Fin grid2.N, _)

/-! ## The input blocks, read where the output's block says

A block's coordinate in its array is the block index times the block's size plus the coordinate inside the block. -/

/-- The bank's block at point `t` is the bank at the point's batch. -/
theorem read2_0 (c : Dev nD) (t : Fin cfg2.N) (b : Fin 8) (hb : b.val = win2_3.index t (0 : Fin 3))
    (mm : Fin 2304) (ch : Fin 512) :
    (iblk2 V c 0 t : Vec Ideal S1x2304x512 .f32) (ix3 0 mm ch)
      = (V c (Pipeline.arrRef spec2 0) : S8x2304x512.Idx → EReal) (ix3 b mm ch) := by
  obtain ⟨e0, e1, e2, -⟩ := idx_facts2 t
  show (V c (Pipeline.arrRef spec2 0) : S8x2304x512.Idx → EReal) (((cfg2.win 0).blk t).view.emb (ix3 0 mm ch)) = _
  refine congrArg _ (funext fun a => Fin.ext ?_)
  match a with
  | ⟨0, _⟩ => show win2_0.index t (0 : Fin 3) * 1 + 1 * 0 = b.val; omega
  | ⟨1, _⟩ => show win2_0.index t (1 : Fin 3) * 2304 + 1 * mm.val = mm.val; omega
  | ⟨2, _⟩ => show win2_0.index t (2 : Fin 3) * 512 + 1 * ch.val = ch.val; omega

/-- The key's block at point `t` is the key at the point's batch and query columns. -/
theorem read2_1 (c : Dev nD) (t : Fin cfg2.N) (b : Fin 8) (hb : b.val = win2_3.index t (0 : Fin 3))
    (n : Fin 2304) (q : Fin 256) (hn : n.val = win2_3.index t (2 : Fin 3) * 256 + q.val) (ch : Fin 512) :
    (iblk2 V c 1 t : Vec Ideal S1x512x256 .f32) (ix3 0 ch q)
      = (V c (Pipeline.arrRef spec2 1) : S8x512x2304.Idx → EReal) (ix3 b ch n) := by
  obtain ⟨-, -, -, e0, e1, e2, -⟩ := idx_facts2 t
  show (V c (Pipeline.arrRef spec2 1) : S8x512x2304.Idx → EReal) (((cfg2.win 1).blk t).view.emb (ix3 0 ch q)) = _
  refine congrArg _ (funext fun a => Fin.ext ?_)
  match a with
  | ⟨0, _⟩ => show win2_1.index t (0 : Fin 3) * 1 + 1 * 0 = b.val; omega
  | ⟨1, _⟩ => show win2_1.index t (1 : Fin 3) * 512 + 1 * ch.val = ch.val; omega
  | ⟨2, _⟩ => show win2_1.index t (2 : Fin 3) * 256 + 1 * q.val = n.val; omega

/-- The mask's block at point `t` is the mask at the point's batch and query columns. -/
theorem read2_2 (c : Dev nD) (t : Fin cfg2.N) (b : Fin 8) (hb : b.val = win2_3.index t (0 : Fin 3))
    (n : Fin 2304) (q : Fin 256) (hn : n.val = win2_3.index t (2 : Fin 3) * 256 + q.val) (mm : Fin 2304) :
    (iblk2 V c 2 t : Vec Ideal S1x2304x256 .f32) (ix3 0 mm q)
      = (V c (Pipeline.arrRef spec2 2) : S8x2304x2304.Idx → EReal) (ix3 b mm n) := by
  obtain ⟨-, -, -, -, -, -, e0, e1, e2, -⟩ := idx_facts2 t
  show (V c (Pipeline.arrRef spec2 2) : S8x2304x2304.Idx → EReal) (((cfg2.win 2).blk t).view.emb (ix3 0 mm q)) = _
  refine congrArg _ (funext fun a => Fin.ext ?_)
  match a with
  | ⟨0, _⟩ => show win2_2.index t (0 : Fin 3) * 1 + 1 * 0 = b.val; omega
  | ⟨1, _⟩ => show win2_2.index t (1 : Fin 3) * 2304 + 1 * mm.val = mm.val; omega
  | ⟨2, _⟩ => show win2_2.index t (2 : Fin 3) * 256 + 1 * q.val = n.val; omega

/-! ## What a point writes back -/

/-- What point `t` writes back is block `t` of the masked fine score of the arrays as the region finds them. -/
theorem flushed2 (c : Dev nD) (t : Fin cfg2.N) :
    (dat2 (F := Ideal) V c).flushed 3 t = ((cfg2.win 3).blk t).view.read (Elt Ideal)
      (fineMaskArr (V c (Pipeline.arrRef spec2 0)) (V c (Pipeline.arrRef spec2 1)) (V c (Pipeline.arrRef spec2 2)) :
        S8x1x2304.Idx → EReal) := by
  show (cfg2.win 3).cut (cfg2.grid.coords t) ((dat2 V c).after 3 t) = _
  rw [after2_3]
  unfold out2_3
  rw [View.canon_unit_zero zero3]
  simp only [View.ld_unit_zero (S := S1x2304x512) zero3, View.ld_unit_zero (S := S1x512x256) zero3,
    View.ld_unit_zero (S := S1x2304x256) zero3]
  funext j
  show k2_pay1 (F := Ideal) (iblk2 V c 0 t) (iblk2 V c 1 t) (iblk2 V c 2 t) j
    = (fineMaskArr (V c (Pipeline.arrRef spec2 0)) (V c (Pipeline.arrRef spec2 1)) (V c (Pipeline.arrRef spec2 2)) :
        S8x1x2304.Idx → EReal) (((cfg2.win 3).blk t).view.emb j)
  refine (payAt2 _ _ _ j).trans ?_
  -- element `j` of the output's block sits in the array at the point's batch and at column `tile * 256 + j 2`
  have hb : ((((cfg2.win 3).blk t).view.emb j : S8x1x2304.Idx) 0).val = win2_3.index t (0 : Fin 3) := by
    show win2_3.index t (0 : Fin 3) * 1 + 1 * (j 0).val = _
    have h0 : (j 0).val < 1 := (j 0).isLt
    omega
  have hn : ((((cfg2.win 3).blk t).view.emb j : S8x1x2304.Idx) 2).val = win2_3.index t (2 : Fin 3) * 256 + (j 2).val := by
    show win2_3.index t (2 : Fin 3) * 256 + 1 * (j 2).val = _
    omega
  refine Eq.trans ?_ (fineMaskArr_apply _ _ _ _).symm
  refine congrArg (fun f => (Finset.univ : Finset (Fin 2304)).fold max negInf f) (funext fun mm => ?_)
  exact congrArg₂ (· * ·)
    (Finset.sum_congr rfl fun ch _ => congrArg₂ (· * ·) (read2_0 V c t _ hb mm ch) (read2_1 V c t _ hb _ (j 2) hn ch))
    (read2_2 V c t _ hb _ (j 2) hn mm)

/-! ## The blocks cover the array -/

/-- An index of the array is in point `t`'s block iff each coordinate is in the block's range on its axis. -/
theorem mem_blk2_3 (t : Fin cfg2.N) (i : S8x1x2304.Idx) :
    i ∈ ((cfg2.win 3).blk t).view.set ↔ ∀ a : Fin 3, win2_3.index t a * S1x1x256.size a ≤ (i a).val
      ∧ (i a).val < win2_3.index t a * S1x1x256.size a + S1x1x256.size a := by
  show i ∈ ((View.whole (Pipeline.arrRef spec2 3)).slice (win2_3.rect t)).set ↔ _
  rw [View.set_slice_whole, Rect.mem_set_unit]
  exact Iff.rfl

/-- Batch `b`'s query `n` is in the block of the point `b * 9 + n / 256`, which writes back like every point. -/
theorem hcover2 (i : S8x1x2304.Idx) : ∃ t : Fin cfg2.N, (cfg2.win 3).flush t = true ∧ i ∈ ((cfg2.win 3).blk t).view.set := by
  have h0 : (i 0).val < 8 := (i 0).isLt
  have h1 : (i 1).val < 1 := (i 1).isLt
  have h2 : (i 2).val < 2304 := (i 2).isLt
  have hN : cfg2.N = 72 := rfl
  have ht : (i 0).val * 9 + (i 2).val / 256 < cfg2.N := by rw [hN]; omega
  refine ⟨⟨(i 0).val * 9 + (i 2).val / 256, ht⟩, flush2_3 _, ?_⟩
  obtain ⟨-, -, -, -, -, -, -, -, -, e0, e1, e2⟩ := idx_facts2 ⟨(i 0).val * 9 + (i 2).val / 256, ht⟩
  rw [mem_blk2_3]
  intro a
  match a with
  | ⟨0, _⟩ =>
    show win2_3.index ⟨(i 0).val * 9 + (i 2).val / 256, ht⟩ (0 : Fin 3) * 1 ≤ (i 0).val
      ∧ (i 0).val < win2_3.index ⟨(i 0).val * 9 + (i 2).val / 256, ht⟩ (0 : Fin 3) * 1 + 1
    rw [e0]; show ((i 0).val * 9 + (i 2).val / 256) / 9 * 1 ≤ _ ∧ _ < ((i 0).val * 9 + (i 2).val / 256) / 9 * 1 + 1; omega
  | ⟨1, _⟩ =>
    show win2_3.index ⟨(i 0).val * 9 + (i 2).val / 256, ht⟩ (1 : Fin 3) * 1 ≤ (i 1).val
      ∧ (i 1).val < win2_3.index ⟨(i 0).val * 9 + (i 2).val / 256, ht⟩ (1 : Fin 3) * 1 + 1
    rw [e1]; omega
  | ⟨2, _⟩ =>
    show win2_3.index ⟨(i 0).val * 9 + (i 2).val / 256, ht⟩ (2 : Fin 3) * 256 ≤ (i 2).val
      ∧ (i 2).val < win2_3.index ⟨(i 0).val * 9 + (i 2).val / 256, ht⟩ (2 : Fin 3) * 256 + 256
    rw [e2]; show ((i 0).val * 9 + (i 2).val / 256) % 9 * 256 ≤ _ ∧ _ < ((i 0).val * 9 + (i 2).val / 256) % 9 * 256 + 256; omega

/-! ## The array after the region -/

/-- The output array after the 72 points: the masked fine score of the bank against the key and the mask, one row
    per batch. The region's first three arrays are the bank, the flattened key and the flattened mask. -/
theorem final2 (c : Dev nD) :
    (dat2 (F := Ideal) V c).arrAt 3 cfg2.N
      = (fineMaskArr (V c main_arg4) (V c main_v0) (V c main_v1) : S8x1x2304.Idx → EReal) :=
  (dat2 (F := Ideal) V c).arrAt_eq_of_cover 3
    (fineMaskArr (V c (Pipeline.arrRef spec2 0)) (V c (Pipeline.arrRef spec2 1)) (V c (Pipeline.arrRef spec2 2)) :
      S8x1x2304.Idx → EReal)
    (fun t _ => flushed2 V c t) hcover2

end Cert.KernelIdeal.Fin

end
-- ==== Proof.Val.Final4.lean ====
/-
  Region 4's output array after its 72 grid points, as one function of the arrays the region is entered with.

  The grid is 8 batches by 9 query tiles of 256 columns; point `t` is batch `t / 9`, tile `t % 9`. At that point the
  body is handed the batch's six bank rows (block `(t / 9, 0, 0)` of the stacked bank, 1 x 6 x 512), the key's 512
  channels over the tile's 256 queries (block `(t / 9, 0, t % 9)` of the flattened key, 1 x 512 x 256), and stores
  the 6 x 256 channel sums into block `(t / 9, 0, t % 9)` of the output. An entry `(0, o, q)` of that block is the
  channel sum of bank row `o` against query column `q` of the tile, which is the similarity of row `o` with query
  `(t % 9) * 256 + q` in batch `t / 9`: the output block is the block of ONE whole-array function, the coarse scores.
  Every output index `(b, o, n)` lies in the block of the point `b * 9 + n / 256`, and every point writes its block
  back, so the array ends holding the coarse scores everywhere.
-/
import proofs.«143351_j49503793054049_1_alg».proof.Proof.KI.Region4
import proofs.«143351_j49503793054049_1_alg».proof.Proof.Val.Spec
import proofs.«143351_j49503793054049_1_alg».proof.Proof.Val.Payload
import Idealize.ShloMosaic.Lib.Pipeline.Value
import Idealize.ShloMosaic.Lib.ValueIdx
import Idealize.ShloMosaic.Lib.ValueLayout

noncomputable section

namespace Cert.KernelIdeal.Fin

open Cert.KernelIdeal Cert.KernelIdeal.Gen Cert.KernelIdeal.Fr Cert.Matcher Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- The stacked bank (six rows of 512 channels per batch) as the region finds it, over the extended reals. -/
abbrev bank4 (c : Dev nD) : S8x6x512.Idx → EReal := V c main_v10
/-- The flattened key (512 channels by 2304 queries per batch) as the region finds it. -/
abbrev key4 (c : Dev nD) : S8x512x2304.Idx → EReal := V c main_v0

/-- The zero offsets of a whole-buffer access, as the constant function. -/
theorem zero3_r4 : (![0, 0, 0] : Fin 3 → Nat) = fun _ => 0 := funext fun a => by fin_cases a <;> rfl

/-- The three index maps over the 72 points: the bank's block follows the batch `t / 9` alone; the key's and the
    output's blocks follow the batch and the query tile `t % 9`; every middle block index is zero. -/
theorem idx_facts4 : ∀ t : Fin cfg4.N,
    win4_0.index t (0 : Fin 3) = t.val / 9 ∧ win4_0.index t (1 : Fin 3) = 0 ∧ win4_0.index t (2 : Fin 3) = 0
    ∧ win4_1.index t (0 : Fin 3) = t.val / 9 ∧ win4_1.index t (1 : Fin 3) = 0 ∧ win4_1.index t (2 : Fin 3) = t.val % 9
    ∧ win4_2.index t (0 : Fin 3) = t.val / 9 ∧ win4_2.index t (1 : Fin 3) = 0 ∧ win4_2.index t (2 : Fin 3) = t.val % 9 :=
  (by decide +kernel : ∀ t : Fin grid4.N, _)

/-- The bank's block at point `t` is batch `t / 9`'s six rows: entry `(0, o, ch)` is the bank at `(t / 9, o, ch)`
    (a block's coordinate is index × size + the coordinate inside the block, and the sizes are 1, 6, 512). -/
theorem bank4_blk (c : Dev nD) (t : Fin cfg4.N) (b : Fin 8) (hb : b.val = t.val / 9) (o : Fin 6) (ch : Fin 512) :
    (iblk4 V c 0 t : Vec Ideal S1x6x512 .f32) (ix3 0 o ch) = bank4 V c (ix3 b o ch) := by
  obtain ⟨e0, e1, e2, -⟩ := idx_facts4 t
  unfold iblk4
  rw [View.read_apply]
  show (V c main_v10 : S8x6x512.Idx → EReal) _ = (V c main_v10 : S8x6x512.Idx → EReal) _
  congr 1
  funext a
  apply Fin.ext
  match a with
  | ⟨0, _⟩ => show win4_0.index t (0 : Fin 3) * 1 + 1 * 0 = b.val; omega
  | ⟨1, _⟩ => show win4_0.index t (1 : Fin 3) * 6 + 1 * o.val = o.val; omega
  | ⟨2, _⟩ => show win4_0.index t (2 : Fin 3) * 512 + 1 * ch.val = ch.val; omega

/-- The key's block at point `t` is batch `t / 9`'s channels over query tile `t % 9`: entry `(0, ch, q)` is the key
    at `(t / 9, ch, (t % 9) * 256 + q)`. -/
theorem key4_blk (c : Dev nD) (t : Fin cfg4.N) (b : Fin 8) (hb : b.val = t.val / 9) (ch : Fin 512) (q : Fin 256)
    (n : Fin 2304) (hn : n.val = t.val % 9 * 256 + q.val) :
    (iblk4 V c 1 t : Vec Ideal S1x512x256 .f32) (ix3 0 ch q) = key4 V c (ix3 b ch n) := by
  obtain ⟨-, -, -, e0, e1, e2, -⟩ := idx_facts4 t
  unfold iblk4
  rw [View.read_apply]
  show (V c main_v0 : S8x512x2304.Idx → EReal) _ = (V c main_v0 : S8x512x2304.Idx → EReal) _
  congr 1
  funext a
  apply Fin.ext
  match a with
  | ⟨0, _⟩ => show win4_1.index t (0 : Fin 3) * 1 + 1 * 0 = b.val; omega
  | ⟨1, _⟩ => show win4_1.index t (1 : Fin 3) * 512 + 1 * ch.val = ch.val; omega
  | ⟨2, _⟩ => show win4_1.index t (2 : Fin 3) * 256 + 1 * q.val = n.val; omega

/-- What point `t` stores at `(0, o, q)`: the channel sum of the two blocks, which term by term is the similarity of
    bank row `o` with query `n = (t % 9) * 256 + q` in batch `b = t / 9` — the coarse score at `(b, o, n)`. -/
theorem point4_scores (c : Dev nD) (t : Fin cfg4.N) (b : Fin 8) (hb : b.val = t.val / 9) (o : Fin 6) (q : Fin 256)
    (n : Fin 2304) (hn : n.val = t.val % 9 * 256 + q.val) :
    k4_pay1 (F := Ideal) (iblk4 V c 0 t) (iblk4 V c 1 t) (ix3 0 o q)
      = coarseArr (R := 6) (bank4 V c) (key4 V c) (ix3 b o n) := by
  refine (Pay.k4_pay1_apply (iblk4 V c 0 t) (iblk4 V c 1 t) o q).trans ?_
  show _ = ∑ ch : Fin 512, bank4 V c (ix3 b o ch) * key4 V c (ix3 b ch n)
  exact Finset.sum_congr rfl fun ch _ => by rw [bank4_blk V c t b hb o ch, key4_blk V c t b hb ch q n hn]

/-- What point `t` writes back is its block of the coarse scores: the one whole-buffer store leaves the channel sums
    of the two loaded blocks, and entry `(j 0, j 1, j 2)` of the output's block sits at
    `(t / 9, j 1, (t % 9) * 256 + j 2)` of the array. -/
theorem flushed4_eq (c : Dev nD) (t : Fin cfg4.N) :
    (dat4 (F := Ideal) V c).flushed 2 t
      = ((cfg4.win 2).blk t).view.read (Elt Ideal) (coarseArr (R := 6) (bank4 V c) (key4 V c)) := by
  show (cfg4.win 2).cut (cfg4.grid.coords t) ((dat4 (F := Ideal) V c).after 2 t) = _
  rw [after4_2]
  unfold out4_2
  rw [View.canon_unit_zero zero3_r4]
  simp only [View.ld_unit_zero (S := S1x6x512) zero3_r4, View.ld_unit_zero (S := S1x512x256) zero3_r4]
  obtain ⟨-, -, -, -, -, -, e0, e1, e2⟩ := idx_facts4 t
  funext j
  have hj0 : (j 0).val < 1 := (j 0).isLt
  have hj1 : (j 1).val < 6 := (j 1).isLt
  have hj2 : (j 2).val < 256 := (j 2).isLt
  have ht : t.val < 72 := Nat.lt_of_lt_of_eq t.isLt N_4
  -- the index inside the block, by its coordinates
  have eL : (cfg4.win 2).xinj (cfg4.grid.coords t) j
      = (ix3 (0 : Fin 1) (⟨(j 1).val, hj1⟩ : Fin 6) (⟨(j 2).val, hj2⟩ : Fin 256) : S1x6x256.Idx) := by
    funext a; apply Fin.ext
    match a with
    | ⟨0, _⟩ => show (j 0).val = 0; omega
    | ⟨1, _⟩ => rfl
    | ⟨2, _⟩ => rfl
  -- the same entry's place in the array
  have eR : ((cfg4.win 2).blk t).view.emb j
      = (ix3 (⟨t.val / 9, by omega⟩ : Fin 8) (⟨(j 1).val, hj1⟩ : Fin 6)
          (⟨t.val % 9 * 256 + (j 2).val, by omega⟩ : Fin 2304) : S8x6x2304.Idx) := by
    funext a; apply Fin.ext
    match a with
    | ⟨0, _⟩ => show win4_2.index t (0 : Fin 3) * 1 + 1 * (j 0).val = t.val / 9; omega
    | ⟨1, _⟩ => show win4_2.index t (1 : Fin 3) * 6 + 1 * (j 1).val = (j 1).val; omega
    | ⟨2, _⟩ => show win4_2.index t (2 : Fin 3) * 256 + 1 * (j 2).val = t.val % 9 * 256 + (j 2).val; omega
  show k4_pay1 (F := Ideal) (iblk4 V c 0 t) (iblk4 V c 1 t) ((cfg4.win 2).xinj (cfg4.grid.coords t) j)
      = coarseArr (R := 6) (bank4 V c) (key4 V c) (((cfg4.win 2).blk t).view.emb j)
  refine (congrArg (k4_pay1 (F := Ideal) (iblk4 V c 0 t) (iblk4 V c 1 t)) eL).trans ?_
  refine Eq.trans ?_ (congrArg (coarseArr (R := 6) (bank4 V c) (key4 V c)) eR).symm
  exact point4_scores V c t ⟨t.val / 9, by omega⟩ rfl ⟨(j 1).val, hj1⟩ ⟨(j 2).val, hj2⟩ ⟨t.val % 9 * 256 + (j 2).val, by omega⟩ rfl

/-- An index of the output array is in point `t`'s block iff each coordinate is in the block's range on its axis. -/
theorem mem_blk4 (t : Fin cfg4.N) (i : S8x6x2304.Idx) :
    i ∈ ((cfg4.win 2).blk t).view.set ↔ ∀ a : Fin 3, win4_2.index t a * S1x6x256.size a ≤ (i a).val
      ∧ (i a).val < win4_2.index t a * S1x6x256.size a + S1x6x256.size a := by
  show i ∈ ((View.whole main_v11).slice (win4_2.rect t)).set ↔ _
  rw [View.set_slice_whole, Rect.mem_set_unit]
  exact Iff.rfl

/-- The blocks tile the output: index `(b, o, n)` is in the block of the point `b * 9 + n / 256` (batch `b`, the tile
    that holds query `n`), and that point writes back. -/
theorem covered4 (i : S8x6x2304.Idx) :
    ∃ t : Fin cfg4.N, (cfg4.win 2).flush t = true ∧ i ∈ ((cfg4.win 2).blk t).view.set := by
  have h0 : (i 0).val < 8 := (i 0).isLt
  have h1 : (i 1).val < 6 := (i 1).isLt
  have h2 : (i 2).val < 2304 := (i 2).isLt
  have hN : cfg4.N = 72 := N_4
  let t : Fin cfg4.N := ⟨(i 0).val * 9 + (i 2).val / 256, by rw [hN]; omega⟩
  obtain ⟨-, -, -, -, -, -, e0, e1, e2⟩ := idx_facts4 t
  have tv : t.val = (i 0).val * 9 + (i 2).val / 256 := rfl
  refine ⟨t, flush4_2 t, ?_⟩
  rw [mem_blk4]
  intro a
  match a with
  | ⟨0, _⟩ => show win4_2.index t (0 : Fin 3) * 1 ≤ (i 0).val ∧ (i 0).val < win4_2.index t (0 : Fin 3) * 1 + 1; omega
  | ⟨1, _⟩ => show win4_2.index t (1 : Fin 3) * 6 ≤ (i 1).val ∧ (i 1).val < win4_2.index t (1 : Fin 3) * 6 + 6; omega
  | ⟨2, _⟩ => show win4_2.index t (2 : Fin 3) * 256 ≤ (i 2).val ∧ (i 2).val < win4_2.index t (2 : Fin 3) * 256 + 256; omega

/-- The output array after the region: the coarse scores of the stacked bank against the flattened key, six rows per
    batch — every point writes its block of them and the blocks cover the array. -/
theorem final4 (c : Dev nD) :
    (dat4 (F := Ideal) V c).arrAt 2 cfg4.N = (coarseArr (R := 6) (V c main_v10) (V c main_v0) : S8x6x2304.Idx → EReal) :=
  (dat4 (F := Ideal) V c).arrAt_eq_of_cover 2 (coarseArr (R := 6) (bank4 V c) (key4 V c))
    (fun t _ => flushed4_eq V c t) covered4

end Cert.KernelIdeal.Fin

end
-- ==== Proof.Val.KernelValue.lean ====
/-
  What the result buffer holds when @main returns, at the ideal instance: the five score arrays of the ARGUMENTS,
  each reshaped from its flat query axis back to the 48 x 48 grid, joined along the channel axis.

  @main is a fold of eleven items over the launch memory. A host stretch rewrites the buffers it writes and leaves
  the rest; a kernel region leaves in its output array what its write-backs put there and every other buffer as
  entered. So each buffer is followed from the one item that writes it: the flattened key and mask from the first
  stretch, each region's output from that region (a score array of the region's operands as they stand at its entry,
  which are an argument and the flattened key and mask, none written since), each reshaped score from the stretch
  after its region, the stacked coarse banks from the fifth stretch, and the result from the last.
-/
import proofs.«143351_j49503793054049_1_alg».proof.Proof.KI.Fold
import proofs.«143351_j49503793054049_1_alg».proof.Proof.KI.Args
import proofs.«143351_j49503793054049_1_alg».proof.Proof.Val.Spec
import proofs.«143351_j49503793054049_1_alg».proof.Proof.Gen.KernelIdeal.Regions
import Idealize.ShloMosaic.Lib.StableHlo.Run
import Idealize.ShloMosaic.Lib.Pipeline.FrameSuffix
import proofs.«143351_j49503793054049_1_alg».proof.Proof.Val.Final0
import proofs.«143351_j49503793054049_1_alg».proof.Proof.Val.Final1
import proofs.«143351_j49503793054049_1_alg».proof.Proof.Val.Final2
import proofs.«143351_j49503793054049_1_alg».proof.Proof.Val.Final3
import proofs.«143351_j49503793054049_1_alg».proof.Proof.Val.Final4

set_option maxRecDepth 16384

noncomputable section

namespace Cert.KernelIdeal.KV

open Cert.KernelIdeal Cert.KernelIdeal.Gen Cert.KernelIdeal.Fr Cert.Matcher
open Idealize.ShloMosaic Idealize.ShloMosaic.TcCoe

variable (m : (ℓ : Loc nD τ sig) → Buf (Elt Ideal) ℓ) (ρ : Dev nD → PrngReg) (c : Dev nD)

-- the key with its two spatial axes flattened into the query axis
set_option quotPrecheck false in
local notation "𝐤" => shapeCast S8x512x2304 (m ((c : Thread nD τ).loc main_arg0)) shapeCasts_S8x512x48x48_S8x512x2304
-- the mask with its two spatial axes flattened into the query axis
set_option quotPrecheck false in
local notation "𝐦" => shapeCast S8x2304x2304 (m ((c : Thread nD τ).loc main_arg1)) shapeCasts_S8x2304x48x48_S8x2304x2304
-- the six coarse banks stacked along the row axis
set_option quotPrecheck false in
local notation "𝐛" => concatenate S8x6x512 1 [⟨S8x1x512, m ((c : Thread nD τ).loc main_arg6)⟩, ⟨S8x1x512, m ((c : Thread nD τ).loc main_arg7)⟩, ⟨S8x1x512, m ((c : Thread nD τ).loc main_arg8)⟩, ⟨S8x1x512, m ((c : Thread nD τ).loc main_arg9)⟩, ⟨S8x1x512, m ((c : Thread nD τ).loc main_arg10)⟩, ⟨S8x1x512, m ((c : Thread nD τ).loc main_arg11)⟩] concatenates_S8x1x512_S8x1x512_S8x1x512_S8x1x512_S8x1x512_S8x1x512_S8x6x512_d1

/-! ## References told apart through a list -/

/-- A reference outside a list differs from each member. -/
private theorem ne_of {b x : Ref sig .tc} {L : List (Ref sig .tc)} (h : b ∉ L) (hx : x ∈ L) : b ≠ x :=
  fun e => h (by rw [e]; exact hx)
/-- A reference outside a list is outside every list it contains. -/
private theorem nm_of {b : Ref sig .tc} {L L' : List (Ref sig .tc)} (h : b ∉ L) (hs : ∀ x ∈ L', x ∈ L) : b ∉ L' :=
  fun hm => h (hs _ hm)

/-! ## A buffer no item has written yet stands as after the first stretch

Between the first stretch and region K+1's entry the items write main_v2 … in order, one buffer each (the fifth
stretch two): a reference outside that list is read at the first boundary. -/

theorem down3 (b : Ref sig .tc) (h : b ∉ ([main_v2, main_v3] : List (Ref sig .tc))) :
    W3 (F := Ideal) m ρ c (Proc.devRef .tc b) = W1 m ρ c (Proc.devRef .tc b) :=
  (W3_host m ρ c b (nm_of h (by decide))).trans (W2_keep m ρ c b (ne_of h (by decide)))

theorem down5 (b : Ref sig .tc) (h : b ∉ ([main_v2, main_v3, main_v4, main_v5] : List (Ref sig .tc))) :
    W5 (F := Ideal) m ρ c (Proc.devRef .tc b) = W1 m ρ c (Proc.devRef .tc b) :=
  (W5_host m ρ c b (nm_of h (by decide))).trans ((W4_keep m ρ c b (ne_of h (by decide))).trans
    (down3 m ρ c b (nm_of h (by decide))))

theorem down7 (b : Ref sig .tc) (h : b ∉ ([main_v2, main_v3, main_v4, main_v5, main_v6, main_v7] : List (Ref sig .tc))) :
    W7 (F := Ideal) m ρ c (Proc.devRef .tc b) = W1 m ρ c (Proc.devRef .tc b) :=
  (W7_host m ρ c b (nm_of h (by decide))).trans ((W6_keep m ρ c b (ne_of h (by decide))).trans
    (down5 m ρ c b (nm_of h (by decide))))

theorem down8 (b : Ref sig .tc)
    (h : b ∉ ([main_v2, main_v3, main_v4, main_v5, main_v6, main_v7, main_v8] : List (Ref sig .tc))) :
    W8 (F := Ideal) m ρ c (Proc.devRef .tc b) = W1 m ρ c (Proc.devRef .tc b) :=
  (W8_keep m ρ c b (ne_of h (by decide))).trans (down7 m ρ c b (nm_of h (by decide)))

theorem down9 (b : Ref sig .tc)
    (h : b ∉ ([main_v2, main_v3, main_v4, main_v5, main_v6, main_v7, main_v8, main_v9, main_v10] : List (Ref sig .tc))) :
    W9 (F := Ideal) m ρ c (Proc.devRef .tc b) = W1 m ρ c (Proc.devRef .tc b) :=
  (W9_host m ρ c b (nm_of h (by decide))).trans (down8 m ρ c b (nm_of h (by decide)))

/-! ## A reshaped score stands until the last stretch -/

theorem up9 (b : Ref sig .tc) (h : b ∉ ([main_v11] : List (Ref sig .tc))) :
    W10 (F := Ideal) m ρ c (Proc.devRef .tc b) = W9 m ρ c (Proc.devRef .tc b) :=
  W10_keep m ρ c b (ne_of h (by decide))

theorem up7 (b : Ref sig .tc) (h : b ∉ ([main_v8, main_v9, main_v10, main_v11] : List (Ref sig .tc))) :
    W10 (F := Ideal) m ρ c (Proc.devRef .tc b) = W7 m ρ c (Proc.devRef .tc b) :=
  (up9 m ρ c b (nm_of h (by decide))).trans ((W9_host m ρ c b (nm_of h (by decide))).trans
    (W8_keep m ρ c b (ne_of h (by decide))))

theorem up5 (b : Ref sig .tc)
    (h : b ∉ ([main_v6, main_v7, main_v8, main_v9, main_v10, main_v11] : List (Ref sig .tc))) :
    W10 (F := Ideal) m ρ c (Proc.devRef .tc b) = W5 m ρ c (Proc.devRef .tc b) :=
  (up7 m ρ c b (nm_of h (by decide))).trans ((W7_host m ρ c b (nm_of h (by decide))).trans
    (W6_keep m ρ c b (ne_of h (by decide))))

theorem up3 (b : Ref sig .tc)
    (h : b ∉ ([main_v4, main_v5, main_v6, main_v7, main_v8, main_v9, main_v10, main_v11] : List (Ref sig .tc))) :
    W10 (F := Ideal) m ρ c (Proc.devRef .tc b) = W3 m ρ c (Proc.devRef .tc b) :=
  (up5 m ρ c b (nm_of h (by decide))).trans ((W5_host m ρ c b (nm_of h (by decide))).trans
    (W4_keep m ρ c b (ne_of h (by decide))))

/-! ## After the first stretch: the arguments, the flattened key, the flattened mask -/

/-- A buffer the first stretch does not write holds its launch contents. -/
theorem W1_arg (b : Ref sig .tc) (h : b ∉ hostOps0_W) :
    W1 (F := Ideal) m ρ c (Proc.devRef .tc b) = m ((c : Thread nD τ).loc b) :=
  W1_host m ρ c b h

theorem W1_v0 : (W1 (F := Ideal) m ρ c (Proc.devRef .tc main_v0) : S8x512x2304.Idx → EReal) = 𝐤 := by
  show StableHlo.after hostOps0 (W0 m ρ c) (Proc.devRef .tc main_v0) = _
  after_results
  rfl

theorem W1_v1 : (W1 (F := Ideal) m ρ c (Proc.devRef .tc main_v1) : S8x2304x2304.Idx → EReal) = 𝐦 := by
  show StableHlo.after hostOps0 (W0 m ρ c) (Proc.devRef .tc main_v1) = _
  after_results
  rfl

/-! ## The flattened key and mask at the later region entries -/

theorem k_at3 : (W3 (F := Ideal) m ρ c (Proc.devRef .tc main_v0) : S8x512x2304.Idx → EReal) = 𝐤 :=
  (down3 m ρ c main_v0 (by decide)).trans (W1_v0 m ρ c)
theorem k_at5 : (W5 (F := Ideal) m ρ c (Proc.devRef .tc main_v0) : S8x512x2304.Idx → EReal) = 𝐤 :=
  (down5 m ρ c main_v0 (by decide)).trans (W1_v0 m ρ c)
theorem k_at7 : (W7 (F := Ideal) m ρ c (Proc.devRef .tc main_v0) : S8x512x2304.Idx → EReal) = 𝐤 :=
  (down7 m ρ c main_v0 (by decide)).trans (W1_v0 m ρ c)
theorem k_at9 : (W9 (F := Ideal) m ρ c (Proc.devRef .tc main_v0) : S8x512x2304.Idx → EReal) = 𝐤 :=
  (down9 m ρ c main_v0 (by decide)).trans (W1_v0 m ρ c)
theorem mk_at5 : (W5 (F := Ideal) m ρ c (Proc.devRef .tc main_v1) : S8x2304x2304.Idx → EReal) = 𝐦 :=
  (down5 m ρ c main_v1 (by decide)).trans (W1_v1 m ρ c)
theorem mk_at7 : (W7 (F := Ideal) m ρ c (Proc.devRef .tc main_v1) : S8x2304x2304.Idx → EReal) = 𝐦 :=
  (down7 m ρ c main_v1 (by decide)).trans (W1_v1 m ρ c)

/-! ## Region 0 and the reshape after it -/

/-- Region 0 leaves the fine score of the first bank against the flattened key. -/
theorem W2_v2 : (W2 (F := Ideal) m ρ c (Proc.devRef .tc main_v2) : S8x1x2304.Idx → EReal)
    = fineArr (m ((c : Thread nD τ).loc main_arg2)) 𝐤 := by
  refine (W2_arr (F := Ideal) m ρ c 2).trans ((Fin.final0 (Fr.V1 m ρ) c).trans ?_)
  show fineArr (W1 (F := Ideal) m ρ c (Proc.devRef .tc main_arg2)) (W1 (F := Ideal) m ρ c (Proc.devRef .tc main_v0)) = _
  rw [W1_arg m ρ c main_arg2 (by decide), W1_v0 m ρ c]

theorem W3_v3 : (W3 (F := Ideal) m ρ c (Proc.devRef .tc main_v3) : S8x1x48x48.Idx → EReal)
    = shapeCast S8x1x48x48 (fineArr (m ((c : Thread nD τ).loc main_arg2)) 𝐤) shapeCasts_S8x1x2304_S8x1x48x48 := by
  rw [← W2_v2 m ρ c]
  show StableHlo.after hostOps1 (W2 m ρ c) (Proc.devRef .tc main_v3) = _
  after_results
  rfl

theorem W10_v3 : (W10 (F := Ideal) m ρ c (Proc.devRef .tc main_v3) : S8x1x48x48.Idx → EReal)
    = shapeCast S8x1x48x48 (fineArr (m ((c : Thread nD τ).loc main_arg2)) 𝐤) shapeCasts_S8x1x2304_S8x1x48x48 :=
  (up3 m ρ c main_v3 (by decide)).trans (W3_v3 m ρ c)

/-! ## Region 1 and the reshape after it -/

/-- Region 1 leaves the fine score of the second bank. Its operands at entry: the argument and the flattened key,
    neither written since the first stretch. -/
theorem W4_v4 : (W4 (F := Ideal) m ρ c (Proc.devRef .tc main_v4) : S8x1x2304.Idx → EReal)
    = fineArr (m ((c : Thread nD τ).loc main_arg3)) 𝐤 := by
  refine (W4_arr (F := Ideal) m ρ c 2).trans ((Fin.final1 (Fr.V3 m ρ) c).trans ?_)
  show fineArr (W3 (F := Ideal) m ρ c (Proc.devRef .tc main_arg3)) (W3 (F := Ideal) m ρ c (Proc.devRef .tc main_v0)) = _
  rw [(down3 m ρ c main_arg3 (by decide)).trans (W1_arg m ρ c main_arg3 (by decide)), k_at3 m ρ c]

theorem W5_v5 : (W5 (F := Ideal) m ρ c (Proc.devRef .tc main_v5) : S8x1x48x48.Idx → EReal)
    = shapeCast S8x1x48x48 (fineArr (m ((c : Thread nD τ).loc main_arg3)) 𝐤) shapeCasts_S8x1x2304_S8x1x48x48 := by
  rw [← W4_v4 m ρ c]
  show StableHlo.after hostOps2 (W4 m ρ c) (Proc.devRef .tc main_v5) = _
  after_results
  rfl

theorem W10_v5 : (W10 (F := Ideal) m ρ c (Proc.devRef .tc main_v5) : S8x1x48x48.Idx → EReal)
    = shapeCast S8x1x48x48 (fineArr (m ((c : Thread nD τ).loc main_arg3)) 𝐤) shapeCasts_S8x1x2304_S8x1x48x48 :=
  (up5 m ρ c main_v5 (by decide)).trans (W5_v5 m ρ c)

/-! ## Region 2 and the reshape after it -/

/-- Region 2 leaves the masked fine score of the third bank against the flattened key and mask. -/
theorem W6_v6 : (W6 (F := Ideal) m ρ c (Proc.devRef .tc main_v6) : S8x1x2304.Idx → EReal)
    = fineMaskArr (m ((c : Thread nD τ).loc main_arg4)) 𝐤 𝐦 := by
  refine (W6_arr (F := Ideal) m ρ c 3).trans ((Fin.final2 (Fr.V5 m ρ) c).trans ?_)
  show fineMaskArr (W5 (F := Ideal) m ρ c (Proc.devRef .tc main_arg4)) (W5 (F := Ideal) m ρ c (Proc.devRef .tc main_v0))
    (W5 (F := Ideal) m ρ c (Proc.devRef .tc main_v1)) = _
  rw [(down5 m ρ c main_arg4 (by decide)).trans (W1_arg m ρ c main_arg4 (by decide)), k_at5 m ρ c, mk_at5 m ρ c]

theorem W7_v7 : (W7 (F := Ideal) m ρ c (Proc.devRef .tc main_v7) : S8x1x48x48.Idx → EReal)
    = shapeCast S8x1x48x48 (fineMaskArr (m ((c : Thread nD τ).loc main_arg4)) 𝐤 𝐦) shapeCasts_S8x1x2304_S8x1x48x48 := by
  rw [← W6_v6 m ρ c]
  show StableHlo.after hostOps3 (W6 m ρ c) (Proc.devRef .tc main_v7) = _
  after_results
  rfl

theorem W10_v7 : (W10 (F := Ideal) m ρ c (Proc.devRef .tc main_v7) : S8x1x48x48.Idx → EReal)
    = shapeCast S8x1x48x48 (fineMaskArr (m ((c : Thread nD τ).loc main_arg4)) 𝐤 𝐦) shapeCasts_S8x1x2304_S8x1x48x48 :=
  (up7 m ρ c main_v7 (by decide)).trans (W7_v7 m ρ c)

/-! ## Region 3, the reshape after it, and the coarse banks stacked -/

/-- Region 3 leaves the masked fine score of the fourth bank. -/
theorem W8_v8 : (W8 (F := Ideal) m ρ c (Proc.devRef .tc main_v8) : S8x1x2304.Idx → EReal)
    = fineMaskArr (m ((c : Thread nD τ).loc main_arg5)) 𝐤 𝐦 := by
  refine (W8_arr (F := Ideal) m ρ c 3).trans ((Fin.final3 (Fr.V7 m ρ) c).trans ?_)
  show fineMaskArr (W7 (F := Ideal) m ρ c (Proc.devRef .tc main_arg5)) (W7 (F := Ideal) m ρ c (Proc.devRef .tc main_v0))
    (W7 (F := Ideal) m ρ c (Proc.devRef .tc main_v1)) = _
  rw [(down7 m ρ c main_arg5 (by decide)).trans (W1_arg m ρ c main_arg5 (by decide)), k_at7 m ρ c, mk_at7 m ρ c]

theorem W9_v9 : (W9 (F := Ideal) m ρ c (Proc.devRef .tc main_v9) : S8x1x48x48.Idx → EReal)
    = shapeCast S8x1x48x48 (fineMaskArr (m ((c : Thread nD τ).loc main_arg5)) 𝐤 𝐦) shapeCasts_S8x1x2304_S8x1x48x48 := by
  rw [← W8_v8 m ρ c]
  show StableHlo.after hostOps4 (W8 m ρ c) (Proc.devRef .tc main_v9) = _
  after_results
  rfl

theorem W10_v9 : (W10 (F := Ideal) m ρ c (Proc.devRef .tc main_v9) : S8x1x48x48.Idx → EReal)
    = shapeCast S8x1x48x48 (fineMaskArr (m ((c : Thread nD τ).loc main_arg5)) 𝐤 𝐦) shapeCasts_S8x1x2304_S8x1x48x48 :=
  (up9 m ρ c main_v9 (by decide)).trans (W9_v9 m ρ c)

/-- What a buffer other than the reshape's result holds once the fifth stretch's reshape has run: what region 3 left,
    which for a buffer no item has written is its contents after the first stretch. -/
theorem stack_piece (b : Ref sig .tc)
    (h : b ∉ ([main_v0, main_v1, main_v2, main_v3, main_v4, main_v5, main_v6, main_v7, main_v8, main_v9] : List (Ref sig .tc))) :
    (StableHlo.reshape main_v8 main_v9 rfl shapeCasts_S8x1x2304_S8x1x48x48 : HloOp τ sig (Elt Ideal)).result (W8 m ρ c)
      (Proc.devRef .tc b) = m ((c : Thread nD τ).loc b) :=
  (StableHlo.reshape_result_ne main_v8 main_v9 rfl shapeCasts_S8x1x2304_S8x1x48x48 _ _ (W8 m ρ c) (ne_of h (by decide))).trans
    ((down8 m ρ c b (nm_of h (by decide))).trans (W1_arg m ρ c b (nm_of h (by decide))))

/-- The fifth stretch stacks the six coarse banks, read as launched. -/
theorem W9_v10 : (W9 (F := Ideal) m ρ c (Proc.devRef .tc main_v10) : S8x6x512.Idx → EReal) = 𝐛 := by
  rw [← stack_piece m ρ c main_arg6 (by decide), ← stack_piece m ρ c main_arg7 (by decide),
    ← stack_piece m ρ c main_arg8 (by decide), ← stack_piece m ρ c main_arg9 (by decide),
    ← stack_piece m ρ c main_arg10 (by decide), ← stack_piece m ρ c main_arg11 (by decide)]
  show StableHlo.after hostOps4 (W8 m ρ c) (Proc.devRef .tc main_v10) = _
  simp only [StableHlo.after_cons, StableHlo.after_nil]
  exact (StableHlo.nary_result _ _ _ _ _ _).trans rfl

/-! ## Region 4, the last stretch, the result -/

/-- Region 4 leaves the coarse scores of the stacked banks against the flattened key. -/
theorem W10_v11 : (W10 (F := Ideal) m ρ c (Proc.devRef .tc main_v11) : S8x6x2304.Idx → EReal)
    = coarseArr (R := 6) 𝐛 𝐤 := by
  refine (W10_arr (F := Ideal) m ρ c 2).trans ((Fin.final4 (Fr.V9 m ρ) c).trans ?_)
  show coarseArr (R := 6) (W9 (F := Ideal) m ρ c (Proc.devRef .tc main_v10)) (W9 (F := Ideal) m ρ c (Proc.devRef .tc main_v0)) = _
  rw [W9_v10 m ρ c, k_at9 m ρ c]

/-- Once the last stretch's reshape has run, a buffer other than its result holds what region 4's exit left. -/
theorem last_piece (b : Ref sig .tc) (h : b ≠ main_v12) :
    (StableHlo.reshape main_v11 main_v12 rfl shapeCasts_S8x6x2304_S8x6x48x48 : HloOp τ sig (Elt Ideal)).result (W10 m ρ c)
      (Proc.devRef .tc b) = W10 m ρ c (Proc.devRef .tc b) :=
  StableHlo.reshape_result_ne main_v11 main_v12 rfl shapeCasts_S8x6x2304_S8x6x48x48 _ _ (W10 m ρ c) h

/-- The reshape's own result: the coarse scores at the 48 x 48 grid. -/
theorem last_v12 :
    ((StableHlo.reshape main_v11 main_v12 rfl shapeCasts_S8x6x2304_S8x6x48x48 : HloOp τ sig (Elt Ideal)).result (W10 m ρ c)
      (Proc.devRef .tc main_v12) : S8x6x48x48.Idx → EReal)
      = shapeCast S8x6x48x48 (coarseArr (R := 6) 𝐛 𝐤) shapeCasts_S8x6x2304_S8x6x48x48 := by
  rw [← W10_v11 m ρ c]
  exact (StableHlo.reshape_result main_v11 main_v12 rfl shapeCasts_S8x6x2304_S8x6x48x48 _ _ (W10 m ρ c)).trans rfl

/-- The result buffer at @main's return: the four fine scores and the six coarse scores, each at the 48 x 48 grid,
    joined along the channel axis. -/
theorem kernel_result :
    (W11 (F := Ideal) m ρ c (Proc.devRef .tc main_v13) : S8x10x48x48.Idx → EReal)
      = concatenate S8x10x48x48 1
          [⟨S8x1x48x48, shapeCast S8x1x48x48 (fineArr (m ((c : Thread nD τ).loc main_arg2)) 𝐤) shapeCasts_S8x1x2304_S8x1x48x48⟩,
           ⟨S8x1x48x48, shapeCast S8x1x48x48 (fineArr (m ((c : Thread nD τ).loc main_arg3)) 𝐤) shapeCasts_S8x1x2304_S8x1x48x48⟩,
           ⟨S8x1x48x48, shapeCast S8x1x48x48 (fineMaskArr (m ((c : Thread nD τ).loc main_arg4)) 𝐤 𝐦) shapeCasts_S8x1x2304_S8x1x48x48⟩,
           ⟨S8x1x48x48, shapeCast S8x1x48x48 (fineMaskArr (m ((c : Thread nD τ).loc main_arg5)) 𝐤 𝐦) shapeCasts_S8x1x2304_S8x1x48x48⟩,
           ⟨S8x6x48x48, shapeCast S8x6x48x48 (coarseArr (R := 6) 𝐛 𝐤) shapeCasts_S8x6x2304_S8x6x48x48⟩]
          concatenates_S8x1x48x48_S8x1x48x48_S8x1x48x48_S8x1x48x48_S8x6x48x48_S8x10x48x48_d1 := by
  rw [← W10_v3 m ρ c, ← W10_v5 m ρ c, ← W10_v7 m ρ c, ← W10_v9 m ρ c, ← last_v12 m ρ c,
    ← last_piece m ρ c main_v3 (by decide), ← last_piece m ρ c main_v5 (by decide),
    ← last_piece m ρ c main_v7 (by decide), ← last_piece m ρ c main_v9 (by decide)]
  show StableHlo.after hostOps5 (W10 m ρ c) (Proc.devRef .tc main_v13) = _
  simp only [StableHlo.after_cons, StableHlo.after_nil]
  exact (StableHlo.nary_result _ _ _ _ _ _).trans rfl

end Cert.KernelIdeal.KV

end
-- ==== Proof.Val.Claims.lean ====
/-
  The five claims. The two kernel programs' frames are the run of their segments with every argument read back to the
  launch memory; the reference's frame is its run with the result dropped; nothing was rewritten by the ideal pass, so
  there is nothing to preserve. For the value claim both programs are run from memories that agree on the arguments:
  the kernel program ends with its result buffer at the last stage of the fold, which is the five score planes of the
  arguments laid end to end along the channel axis; the reference ends at its composed term, which is the same ten
  planes joined in pairs and groups. The two joinings are one array, index by index.
-/
import proofs.«143351_j49503793054049_1_alg».proof.Defs
import proofs.«143351_j49503793054049_1_alg».proof.Proof.Gen.Pre_finite_inputs
import proofs.«143351_j49503793054049_1_alg».proof.Proof.K.Frame
import proofs.«143351_j49503793054049_1_alg».proof.Proof.KI.Frame
import proofs.«143351_j49503793054049_1_alg».proof.Proof.Val.Concat
import proofs.«143351_j49503793054049_1_alg».proof.Proof.Val.RefPieces
import proofs.«143351_j49503793054049_1_alg».proof.Proof.Val.KernelValue

noncomputable section

namespace Cert.Bridge

open Idealize.ShloMosaic Cert.Matcher

/-- The two programs join the same ten score planes along the channel axis, grouped differently: the reference
    pairs the fine planes, joins the pairs, joins the six coarse planes, and joins the two groups; the kernel stacks the
    six coarse BANKS first, computes their six planes at once, and lays the four fine planes and that block end to end. -/
theorem results_agree (a0 : Cert.KernelIdeal.S8x512x48x48.Idx → EReal) (a1 : Cert.KernelIdeal.S8x2304x48x48.Idx → EReal)
    (a2 a3 a4 a5 : Cert.KernelIdeal.S8x2304x512.Idx → EReal) (a6 a7 a8 a9 a10 a11 : Cert.KernelIdeal.S8x1x512.Idx → EReal)
    (k : Cert.KernelIdeal.S8x512x2304.Idx → EReal) (mk : Cert.KernelIdeal.S8x2304x2304.Idx → EReal) :
    concatenate Cert.ReferenceIdeal.S8x10x48x48 1
        [⟨Cert.ReferenceIdeal.S8x4x48x48, concatenate Cert.ReferenceIdeal.S8x4x48x48 1
            [⟨Cert.ReferenceIdeal.S8x2x48x48, concatenate Cert.ReferenceIdeal.S8x2x48x48 1
                [⟨Cert.ReferenceIdeal.S8x1x48x48, shapeCast Cert.ReferenceIdeal.S8x1x48x48 (fineArr a2 k) Cert.ReferenceIdeal.Facts₀.shapeCasts_S8x1x2304_S8x1x48x48⟩,
                 ⟨Cert.ReferenceIdeal.S8x1x48x48, shapeCast Cert.ReferenceIdeal.S8x1x48x48 (fineArr a3 k) Cert.ReferenceIdeal.Facts₀.shapeCasts_S8x1x2304_S8x1x48x48⟩]
                Cert.ReferenceIdeal.Facts₀.concatenates_S8x1x48x48_S8x1x48x48_S8x2x48x48_d1⟩,
             ⟨Cert.ReferenceIdeal.S8x2x48x48, concatenate Cert.ReferenceIdeal.S8x2x48x48 1
                [⟨Cert.ReferenceIdeal.S8x1x48x48, shapeCast Cert.ReferenceIdeal.S8x1x48x48 (fineMaskArr a4 k mk) Cert.ReferenceIdeal.Facts₀.shapeCasts_S8x1x2304_S8x1x48x48⟩,
                 ⟨Cert.ReferenceIdeal.S8x1x48x48, shapeCast Cert.ReferenceIdeal.S8x1x48x48 (fineMaskArr a5 k mk) Cert.ReferenceIdeal.Facts₀.shapeCasts_S8x1x2304_S8x1x48x48⟩]
                Cert.ReferenceIdeal.Facts₀.concatenates_S8x1x48x48_S8x1x48x48_S8x2x48x48_d1⟩]
            Cert.ReferenceIdeal.Facts₀.concatenates_S8x2x48x48_S8x2x48x48_S8x4x48x48_d1⟩,
         ⟨Cert.ReferenceIdeal.S8x6x48x48, concatenate Cert.ReferenceIdeal.S8x6x48x48 1
            [⟨Cert.ReferenceIdeal.S8x1x48x48, shapeCast Cert.ReferenceIdeal.S8x1x48x48 (coarseArr (R := 1) a6 k) Cert.ReferenceIdeal.Facts₀.shapeCasts_S8x1x2304_S8x1x48x48⟩,
             ⟨Cert.ReferenceIdeal.S8x1x48x48, shapeCast Cert.ReferenceIdeal.S8x1x48x48 (coarseArr (R := 1) a7 k) Cert.ReferenceIdeal.Facts₀.shapeCasts_S8x1x2304_S8x1x48x48⟩,
             ⟨Cert.ReferenceIdeal.S8x1x48x48, shapeCast Cert.ReferenceIdeal.S8x1x48x48 (coarseArr (R := 1) a8 k) Cert.ReferenceIdeal.Facts₀.shapeCasts_S8x1x2304_S8x1x48x48⟩,
             ⟨Cert.ReferenceIdeal.S8x1x48x48, shapeCast Cert.ReferenceIdeal.S8x1x48x48 (coarseArr (R := 1) a9 k) Cert.ReferenceIdeal.Facts₀.shapeCasts_S8x1x2304_S8x1x48x48⟩,
             ⟨Cert.ReferenceIdeal.S8x1x48x48, shapeCast Cert.ReferenceIdeal.S8x1x48x48 (coarseArr (R := 1) a10 k) Cert.ReferenceIdeal.Facts₀.shapeCasts_S8x1x2304_S8x1x48x48⟩,
             ⟨Cert.ReferenceIdeal.S8x1x48x48, shapeCast Cert.ReferenceIdeal.S8x1x48x48 (coarseArr (R := 1) a11 k) Cert.ReferenceIdeal.Facts₀.shapeCasts_S8x1x2304_S8x1x48x48⟩]
            Cert.ReferenceIdeal.Facts₀.concatenates_S8x1x48x48_S8x1x48x48_S8x1x48x48_S8x1x48x48_S8x1x48x48_S8x1x48x48_S8x6x48x48_d1⟩]
        Cert.ReferenceIdeal.Facts₀.concatenates_S8x4x48x48_S8x6x48x48_S8x10x48x48_d1
      = concatenate Cert.KernelIdeal.S8x10x48x48 1
            [⟨Cert.KernelIdeal.S8x1x48x48, shapeCast Cert.KernelIdeal.S8x1x48x48 (fineArr a2 k) Cert.KernelIdeal.Facts₀.shapeCasts_S8x1x2304_S8x1x48x48⟩,
             ⟨Cert.KernelIdeal.S8x1x48x48, shapeCast Cert.KernelIdeal.S8x1x48x48 (fineArr a3 k) Cert.KernelIdeal.Facts₀.shapeCasts_S8x1x2304_S8x1x48x48⟩,
             ⟨Cert.KernelIdeal.S8x1x48x48, shapeCast Cert.KernelIdeal.S8x1x48x48 (fineMaskArr a4 k mk) Cert.KernelIdeal.Facts₀.shapeCasts_S8x1x2304_S8x1x48x48⟩,
             ⟨Cert.KernelIdeal.S8x1x48x48, shapeCast Cert.KernelIdeal.S8x1x48x48 (fineMaskArr a5 k mk) Cert.KernelIdeal.Facts₀.shapeCasts_S8x1x2304_S8x1x48x48⟩,
             ⟨Cert.KernelIdeal.S8x6x48x48, shapeCast Cert.KernelIdeal.S8x6x48x48 (coarseArr (R := 6) (concatenate Cert.KernelIdeal.S8x6x512 1 [⟨Cert.KernelIdeal.S8x1x512, a6⟩, ⟨Cert.KernelIdeal.S8x1x512, a7⟩, ⟨Cert.KernelIdeal.S8x1x512, a8⟩, ⟨Cert.KernelIdeal.S8x1x512, a9⟩, ⟨Cert.KernelIdeal.S8x1x512, a10⟩, ⟨Cert.KernelIdeal.S8x1x512, a11⟩] Cert.KernelIdeal.Facts₀.concatenates_S8x1x512_S8x1x512_S8x1x512_S8x1x512_S8x1x512_S8x1x512_S8x6x512_d1) k) Cert.KernelIdeal.Facts₀.shapeCasts_S8x6x2304_S8x6x48x48⟩]
            Cert.KernelIdeal.Facts₀.concatenates_S8x1x48x48_S8x1x48x48_S8x1x48x48_S8x1x48x48_S8x6x48x48_S8x10x48x48_d1 := by
  rw [Matcher.coarse_concat a6 a7 a8 a9 a10 a11 k Cert.KernelIdeal.Facts₀.concatenates_S8x1x512_S8x1x512_S8x1x512_S8x1x512_S8x1x512_S8x1x512_S8x6x512_d1
    Cert.KernelIdeal.Facts₀.shapeCasts_S8x6x2304_S8x6x48x48 Cert.KernelIdeal.Facts₀.shapeCasts_S8x1x2304_S8x1x48x48
    Cert.ReferenceIdeal.Facts₀.concatenates_S8x1x48x48_S8x1x48x48_S8x1x48x48_S8x1x48x48_S8x1x48x48_S8x1x48x48_S8x6x48x48_d1]
  exact (Matcher.concat5_regroup _ _ _ _ _ Cert.KernelIdeal.Facts₀.concatenates_S8x1x48x48_S8x1x48x48_S8x1x48x48_S8x1x48x48_S8x6x48x48_S8x10x48x48_d1
    Cert.ReferenceIdeal.Facts₀.concatenates_S8x1x48x48_S8x1x48x48_S8x2x48x48_d1 Cert.ReferenceIdeal.Facts₀.concatenates_S8x2x48x48_S8x2x48x48_S8x4x48x48_d1
    Cert.ReferenceIdeal.Facts₀.concatenates_S8x4x48x48_S8x6x48x48_S8x10x48x48_d1).symm

end Cert.Bridge

namespace Cert.Proof.Claims

open Idealize.ShloMosaic Idealize.ShloMosaic.TcCoe Idealize.SL.Sem Cert.Matcher

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The flattened key and mask are the same reshapes in both programs. -/
theorem key_flat (a0 : Cert.KernelIdeal.S8x512x48x48.Idx → EReal) :
    Cert.ReferenceIdeal.ReadP.val_main_v0 (F := Ideal) a0
      = shapeCast Cert.KernelIdeal.S8x512x2304 a0 Cert.KernelIdeal.Facts₀.shapeCasts_S8x512x48x48_S8x512x2304 := rfl
theorem mask_flat (a1 : Cert.KernelIdeal.S8x2304x48x48.Idx → EReal) :
    Cert.ReferenceIdeal.ReadP.val_main_v1 (F := Ideal) a1
      = shapeCast Cert.KernelIdeal.S8x2304x2304 a1 Cert.KernelIdeal.Facts₀.shapeCasts_S8x2304x48x48_S8x2304x2304 := rfl

theorem algebraic : Cert.algebraic_KernelIdeal_ReferenceIdeal := by
  intro m ρ m' ρ' _ hagree
  refine ⟨fun c => Cert.KernelIdeal.Fr.W11 (F := Ideal) m ρ c (Proc.devRef .tc Cert.KernelIdeal.main_v13), ?_, ?_⟩
  · exact (θ_run Cert.KernelIdeal.defs _ _).mono (fun r h c =>
      ⟨h c _ (Cert.KernelIdeal.Fr.mem_uc Cert.KernelIdeal.main_v13 (by decide)),
       (h c _ (Cert.KernelIdeal.Fr.mem_uc Cert.KernelIdeal.main_arg0 (by decide))).trans (Cert.KernelIdeal.Fr.W11_main_arg0 m ρ c),
       (h c _ (Cert.KernelIdeal.Fr.mem_uc Cert.KernelIdeal.main_arg1 (by decide))).trans (Cert.KernelIdeal.Fr.W11_main_arg1 m ρ c),
       (h c _ (Cert.KernelIdeal.Fr.mem_uc Cert.KernelIdeal.main_arg2 (by decide))).trans (Cert.KernelIdeal.Fr.W11_main_arg2 m ρ c),
       (h c _ (Cert.KernelIdeal.Fr.mem_uc Cert.KernelIdeal.main_arg3 (by decide))).trans (Cert.KernelIdeal.Fr.W11_main_arg3 m ρ c),
       (h c _ (Cert.KernelIdeal.Fr.mem_uc Cert.KernelIdeal.main_arg4 (by decide))).trans (Cert.KernelIdeal.Fr.W11_main_arg4 m ρ c),
       (h c _ (Cert.KernelIdeal.Fr.mem_uc Cert.KernelIdeal.main_arg5 (by decide))).trans (Cert.KernelIdeal.Fr.W11_main_arg5 m ρ c),
       (h c _ (Cert.KernelIdeal.Fr.mem_uc Cert.KernelIdeal.main_arg6 (by decide))).trans (Cert.KernelIdeal.Fr.W11_main_arg6 m ρ c),
       (h c _ (Cert.KernelIdeal.Fr.mem_uc Cert.KernelIdeal.main_arg7 (by decide))).trans (Cert.KernelIdeal.Fr.W11_main_arg7 m ρ c),
       (h c _ (Cert.KernelIdeal.Fr.mem_uc Cert.KernelIdeal.main_arg8 (by decide))).trans (Cert.KernelIdeal.Fr.W11_main_arg8 m ρ c),
       (h c _ (Cert.KernelIdeal.Fr.mem_uc Cert.KernelIdeal.main_arg9 (by decide))).trans (Cert.KernelIdeal.Fr.W11_main_arg9 m ρ c),
       (h c _ (Cert.KernelIdeal.Fr.mem_uc Cert.KernelIdeal.main_arg10 (by decide))).trans (Cert.KernelIdeal.Fr.W11_main_arg10 m ρ c),
       (h c _ (Cert.KernelIdeal.Fr.mem_uc Cert.KernelIdeal.main_arg11 (by decide))).trans (Cert.KernelIdeal.Fr.W11_main_arg11 m ρ c)⟩)
      (Cert.KernelIdeal.Fr.run_all m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11⟩ := hagree c
    rw [e0, e1, e2, e3, e4, e5, e6, e7, e8, e9, e10, e11]
    rw [Cert.ReferenceIdeal.ReadP.val_main_v32_eq, Cert.ReferenceIdeal.Pieces.result_eq, key_flat, mask_flat]
    exact (Cert.Bridge.results_agree (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      _ _).trans (Cert.KernelIdeal.KV.kernel_result m ρ c).symm

end Cert.Proof.Claims

end
-- ==== Proof.lean ====
/-
  The certificate of the matching-score kernel against its reference: five kernel launches (two fine scores, two masked
  fine scores, the six coarse scores at once) among reshapes and two joinings, against the reference's einsums, maxima and
  nested joinings. Over the extended reals a fine score is the maximum over the memory rows of the channel sums, a coarse
  score one channel sum; both programs compute exactly these, from the same flattened key and mask, and lay the same ten
  planes along the channel axis. The frames, the (empty) preservation claim and the value claim are in Proof/Val/Claims.lean.
-/
import proofs.«143351_j49503793054049_1_alg».proof.Defs
import proofs.«143351_j49503793054049_1_alg».proof.Proof.Gen.Kernel
import proofs.«143351_j49503793054049_1_alg».proof.Proof.Gen.KernelIdeal
import proofs.«143351_j49503793054049_1_alg».proof.Proof.Gen.ReferenceIdeal
import proofs.«143351_j49503793054049_1_alg».proof.Proof.Gen.Pre_finite_inputs
import proofs.«143351_j49503793054049_1_alg».proof.Proof.Val.Claims

noncomputable section

namespace Cert.Proof

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
